-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v68)) (v3 : (c : Dev Cert.KernelIdeal.nD) → Buf (Elt Ideal) ((c.tc : Thread Cert.KernelIdeal.nD Cert.KernelIdeal.τ).loc Cert.KernelIdeal.main_v97)) (v4 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_v97) = v3 c
          ∧ r.2.mem ((c.tc : Thread Cert.KernelIdeal.nD Cert.KernelIdeal.τ).loc Cert.KernelIdeal.main_v86) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x32 : Shape := ⟨4, ![64, 32, 32, 32]⟩
abbrev S64x32x32x32x32 : Shape := ⟨5, ![64, 32, 32, 32, 32]⟩
abbrev S_ : Shape := ⟨0, ![]⟩

class Facts : Prop where
  bcast_S_S64x32x32x32x32 : S_.BroadcastsInDim S64x32x32x32x32 (![] : Fin 0 → Fin S64x32x32x32x32.rank)
  reducesTo_S64x32x32x32x32_S_d0_1_2_3_4 : S64x32x32x32x32.ReducesTo [0, 1, 2, 3, 4] S_
  h_S_ : 0 < S_.numel

variable [Facts]

def fn {F : FTy → Type} [FloatOps F] (main_arg0 : IVec S64x32x32x32 32) (main_arg1 : FVec F S64x32x32x32x32 .f32) : IVec S_ 1 :=
  let main_v0 : FVec F S64x32x32x32x32 .f32 := Host.absf main_arg1
  let main_cst : FVec F S_ .f32 := constant S_ .f32 0x7F800000#32
  let main_v1 : FVec F S64x32x32x32x32 .f32 := broadcastInDim S64x32x32x32x32 ![] bcast_S_S64x32x32x32x32 main_cst
  let main_v2 : IVec S64x32x32x32x32 1 := cmpf .olt main_v0 main_v1
  let main_c : IVec S_ 1 := constantI S_ 1 1#1
  let main_v3 : IVec S_ 1 := (fun x v => Host.reduce IntOp.andi x v reducesTo_S64x32x32x32x32_S_d0_1_2_3_4 h_S_) main_v2 main_c
  main_v3
-- ==== Kernel.lean ====
abbrev S64x32x32x32 : Shape := ⟨4, ![64, 32, 32, 32]⟩
abbrev S64x32x32x32x32 : Shape := ⟨5, ![64, 32, 32, 32, 32]⟩
abbrev S3 : Shape := ⟨1, ![3]⟩
abbrev S2097152 : Shape := ⟨1, ![2097152]⟩
abbrev S2097152x1 : Shape := ⟨2, ![2097152, 1]⟩
abbrev S1x3 : Shape := ⟨2, ![1, 3]⟩
abbrev S2097152x3 : Shape := ⟨2, ![2097152, 3]⟩
abbrev S_ : Shape := ⟨0, ![]⟩
abbrev S64x34x34x34 : Shape := ⟨4, ![64, 34, 34, 34]⟩
abbrev S64x8x4x8x4x8x4 : Shape := ⟨7, ![64, 8, 4, 8, 4, 8, 4]⟩
abbrev S64x8x8x8x4x4x4 : Shape := ⟨7, ![64, 8, 8, 8, 4, 4, 4]⟩
abbrev S32768x64 : Shape := ⟨2, ![32768, 64]⟩
abbrev S32768x3717 : Shape := ⟨2, ![32768, 3717]⟩
abbrev S32768 : Shape := ⟨1, ![32768]⟩
abbrev S32768x1 : Shape := ⟨2, ![32768, 1]⟩
abbrev S32768x64x1 : Shape := ⟨3, ![32768, 64, 1]⟩
abbrev S32768x64x2 : Shape := ⟨3, ![32768, 64, 2]⟩
abbrev S3x1 : Shape := ⟨2, ![3, 1]⟩
abbrev S32768x3 : Shape := ⟨2, ![32768, 3]⟩
abbrev S64x32x1x32 : Shape := ⟨4, ![64, 32, 1, 32]⟩
abbrev S64x32x31x32 : Shape := ⟨4, ![64, 32, 31, 32]⟩
abbrev S1 : Shape := ⟨1, ![1]⟩
abbrev S64x32x32 : Shape := ⟨3, ![64, 32, 32]⟩
abbrev S2048x32x32x32 : Shape := ⟨4, ![2048, 32, 32, 32]⟩
abbrev S1x1 : Shape := ⟨2, ![1, 1]⟩
abbrev S128x32x32x32 : Shape := ⟨4, ![128, 32, 32, 32]⟩
abbrev S128x31x32x32 : Shape := ⟨4, ![128, 31, 32, 32]⟩
abbrev S1x128x31x32x32 : Shape := ⟨5, ![1, 128, 31, 32, 32]⟩
abbrev S1x1x1x1x1 : Shape := ⟨5, ![1, 1, 1, 1, 1]⟩
abbrev S128x32x31x32 : Shape := ⟨4, ![128, 32, 31, 32]⟩
abbrev S1x128x32x31x32 : Shape := ⟨5, ![1, 128, 32, 31, 32]⟩
abbrev S128x32x32x31 : Shape := ⟨4, ![128, 32, 32, 31]⟩
abbrev S1x128x32x32x31 : Shape := ⟨5, ![1, 128, 32, 32, 31]⟩

abbrev nBuf : Space → Nat
  | .hbm => 159
  | .vmem => 5
  | .smem => 0
  | _ => 0

abbrev hbmTy0_0 (i : Nat) : BufTy := match i % 128 with
  | 0 => ⟨S64x32x32x32, .i32⟩
  | 1 => ⟨S64x32x32x32x32, .f32⟩
  | 2 => ⟨S3, .i32⟩
  | 3 => ⟨S2097152, .i32⟩
  | 4 => ⟨S2097152x1, .i32⟩
  | 5 => ⟨S1x3, .i32⟩
  | 6 => ⟨S2097152x3, .i32⟩
  | 7 => ⟨S2097152x3, .i32⟩
  | 8 => ⟨S2097152x3, .i1⟩
  | 9 => ⟨S_, .i1⟩
  | 10 => ⟨S2097152, .i1⟩
  | 11 => ⟨S64x32x32x32, .i1⟩
  | 12 => ⟨S64x32x32x32, .i1⟩
  | 13 => ⟨S64x32x32x32, .f32⟩
  | 14 => ⟨S_, .i32⟩
  | 15 => ⟨S_, .f32⟩
  | 16 => ⟨S64x34x34x34, .f32⟩
  | 17 => ⟨S64x32x32x32, .f32⟩
  | 18 => ⟨S64x32x32x32, .f32⟩
  | 19 => ⟨S64x32x32x32, .f32⟩
  | 20 => ⟨S64x32x32x32, .f32⟩
  | 21 => ⟨S64x32x32x32, .f32⟩
  | 22 => ⟨S64x32x32x32, .f32⟩
  | 23 => ⟨S64x32x32x32, .f32⟩
  | 24 => ⟨S64x32x32x32, .f32⟩
  | 25 => ⟨S64x32x32x32, .f32⟩
  | 26 => ⟨S64x32x32x32, .f32⟩
  | 27 => ⟨S64x32x32x32, .f32⟩
  | 28 => ⟨S_, .f32⟩
  | 29 => ⟨S64x32x32x32, .f32⟩
  | 30 => ⟨S64x32x32x32, .i1⟩
  | 31 => ⟨S_, .f32⟩
  | 32 => ⟨S64x32x32x32, .f32⟩
  | 33 => ⟨S64x32x32x32, .i1⟩
  | 34 => ⟨S64x32x32x32, .i1⟩
  | 35 => ⟨S64x32x32x32, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S64x8x4x8x4x8x4, .i32⟩
  | 44 => ⟨S64x8x8x8x4x4x4, .i32⟩
  | 45 => ⟨S32768x64, .i32⟩
  | 46 => ⟨S_, .f32⟩
  | 47 => ⟨S32768x3717, .f32⟩
  | 48 => ⟨S32768, .i32⟩
  | 49 => ⟨S32768x1, .i32⟩
  | 50 => ⟨S_, .i32⟩
  | 51 => ⟨S32768x1, .i32⟩
  | 52 => ⟨S32768x1, .i1⟩
  | 53 => ⟨S_, .i32⟩
  | 54 => ⟨S32768x1, .i32⟩
  | 55 => ⟨S32768x1, .i32⟩
  | 56 => ⟨S32768x1, .i32⟩
  | 57 => ⟨S_, .i32⟩
  | 58 => ⟨S32768x64, .i32⟩
  | 59 => ⟨S32768x64, .i1⟩
  | 60 => ⟨S_, .i32⟩
  | 61 => ⟨S32768x64, .i32⟩
  | 62 => ⟨S32768x64, .i32⟩
  | 63 => ⟨S32768x64, .i32⟩
  | 64 => ⟨S32768x64, .i32⟩
  | 65 => ⟨S32768x64x1, .i32⟩
  | 66 => ⟨S32768x64x1, .i32⟩
  | 67 => ⟨S32768x64x2, .i32⟩
  | 68 => ⟨S_, .f32⟩
  | 69 => ⟨S32768x64, .f32⟩
  | 70 => ⟨S32768x3717, .f32⟩
  | 71 => ⟨S_, .i32⟩
  | 72 => ⟨S3, .i32⟩
  | 73 => ⟨S3, .i1⟩
  | 74 => ⟨S_, .i32⟩
  | 75 => ⟨S3, .i32⟩
  | 76 => ⟨S3, .i32⟩
  | 77 => ⟨S3, .i32⟩
  | 78 => ⟨S3x1, .i32⟩
  | 79 => ⟨S_, .f32⟩
  | 80 => ⟨S32768x3, .f32⟩
  | 81 => ⟨S32768x3717, .f32⟩
  | 82 => ⟨S_, .f32⟩
  | 83 => ⟨S32768, .f32⟩
  | 84 => ⟨S32768x1, .f32⟩
  | 85 => ⟨S_, .f32⟩
  | 86 => ⟨S32768x1, .f32⟩
  | 87 => ⟨S32768x1, .f32⟩
  | 88 => ⟨S32768x3717, .f32⟩
  | 89 => ⟨S32768x3717, .f32⟩
  | 90 => ⟨S_, .f32⟩
  | 91 => ⟨S32768x3717, .f32⟩
  | 92 => ⟨S32768x3717, .f32⟩
  | 93 => ⟨S32768x3717, .f32⟩
  | 94 => ⟨S32768x3717, .f32⟩
  | 95 => ⟨S_, .f32⟩
  | 96 => ⟨S_, .f32⟩
  | 97 => ⟨S_, .f32⟩
  | 98 => ⟨S_, .f32⟩
  | 99 => ⟨S_, .f32⟩
  | 100 => ⟨S2097152, .i32⟩
  | 101 => ⟨S2097152x1, .i32⟩
  | 102 => ⟨S1x3, .i32⟩
  | 103 => ⟨S2097152x3, .i32⟩
  | 104 => ⟨S2097152x3, .i32⟩
  | 105 => ⟨S2097152x3, .i1⟩
  | 106 => ⟨S_, .i1⟩
  | 107 => ⟨S2097152, .i1⟩
  | 108 => ⟨S64x32x32x32, .i1⟩
  | 109 => ⟨S64x32x32x32, .i1⟩
  | 110 => ⟨S64x32x1x32, .i1⟩
  | 111 => ⟨S_, .i1⟩
  | 112 => ⟨S64x32x1x32, .i1⟩
  | 113 => ⟨S64x32x31x32, .i1⟩
  | 114 => ⟨S64x32x32x32, .i1⟩
  | 115 => ⟨S64x32x32x32, .i1⟩
  | 116 => ⟨S64x32x32x32, .i1⟩
  | 117 => ⟨S_, .i32⟩
  | 118 => ⟨S1, .i32⟩
  | 119 => ⟨S_, .i1⟩
  | 120 => ⟨S64x32x32, .i1⟩
  | 121 => ⟨S64x32x32x32, .i1⟩
  | 122 => ⟨S64x32x32x32, .f32⟩
  | 123 => ⟨S_, .f32⟩
  | 124 => ⟨S_, .f32⟩
  | 125 => ⟨S64x32x32x32, .f32⟩
  | 126 => ⟨S_, .f32⟩
  | 127 => ⟨S_, .f32⟩
  | _ => ⟨S64x32x32x32, .i32⟩

abbrev hbmTy0_1 (i : Nat) : BufTy := match i % 128 with
  | 0 => ⟨S_, .f32⟩
  | 1 => ⟨S_, .f32⟩
  | 2 => ⟨S_, .f32⟩
  | 3 => ⟨S2048x32x32x32, .f32⟩
  | 4 => ⟨S1x1, .f32⟩
  | 5 => ⟨S1x1, .f32⟩
  | 6 => ⟨S1x1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | _ => ⟨S64x32x32x32, .i32⟩

abbrev hbmTy (i : Nat) : BufTy := match i / 128 with
  | 0 => hbmTy0_0 i
  | 1 => hbmTy0_1 i
  | _ => ⟨S64x32x32x32, .i32⟩

abbrev bufTy : (tb : Table) → Fin (tcTables nBuf tb) → BufTy
  | .hbm, ⟨i, _⟩ => hbmTy i
  | .local _ .vmem, ⟨0, _⟩ => ⟨S128x32x32x32, .f32⟩
  | .local _ .vmem, ⟨1, _⟩ => ⟨S128x32x32x32, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | _, _ => ⟨S64x32x32x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_c_21 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_22 : Ref sig .tc := ⟨.hbm, 123, rfl⟩
abbrev main_v82 : Ref sig .tc := ⟨.hbm, 124, rfl⟩
abbrev main_v83 : Ref sig .tc := ⟨.hbm, 125, rfl⟩
abbrev main_cst_23 : Ref sig .tc := ⟨.hbm, 126, rfl⟩
abbrev main_v84 : Ref sig .tc := ⟨.hbm, 127, rfl⟩
abbrev main_cst_24 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88_0 : Ref sig .tc := ⟨.hbm, 132, rfl⟩
abbrev main_v88_1 : Ref sig .tc := ⟨.hbm, 133, rfl⟩
abbrev main_v88_2 : Ref sig .tc := ⟨.hbm, 134, rfl⟩
abbrev main_v89 : Ref sig .tc := ⟨.hbm, 135, rfl⟩
abbrev main_cst_25 : Ref sig .tc := ⟨.hbm, 136, rfl⟩
abbrev main_v90 : Ref sig .tc := ⟨.hbm, 137, rfl⟩
abbrev main_v91 : Ref sig .tc := ⟨.hbm, 138, rfl⟩
abbrev main_cst_26 : Ref sig .tc := ⟨.hbm, 139, rfl⟩
abbrev main_v92 : Ref sig .tc := ⟨.hbm, 140, rfl⟩
abbrev main_v93 : Ref sig .tc := ⟨.hbm, 141, rfl⟩
abbrev main_cst_27 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_28 : Ref sig .tc := ⟨.hbm, 146, rfl⟩
abbrev main_v97 : Ref sig .tc := ⟨.hbm, 147, rfl⟩
abbrev main_cst_29 : Ref sig .tc := ⟨.hbm, 148, rfl⟩
abbrev main_v98 : Ref sig .tc := ⟨.hbm, 149, rfl⟩
abbrev main_cst_30 : Ref sig .tc := ⟨.hbm, 150, rfl⟩
abbrev main_v99 : Ref sig .tc := ⟨.hbm, 151, rfl⟩
abbrev main_v100 : Ref sig .tc := ⟨.hbm, 152, rfl⟩
abbrev main_cst_31 : Ref sig .tc := ⟨.hbm, 153, rfl⟩
abbrev main_v101 : Ref sig .tc := ⟨.hbm, 154, rfl⟩
abbrev main_v102 : Ref sig .tc := ⟨.hbm, 155, rfl⟩
abbrev main_cst_32 : Ref sig .tc := ⟨.hbm, 156, rfl⟩
abbrev main_v103 : Ref sig .tc := ⟨.hbm, 157, rfl⟩
abbrev main_v104 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64x32x32x32_S2097152 : S64x32x32x32.ShapeCasts S2097152
  bcast_S2097152_S2097152x1_0 : S2097152.BroadcastsInDim S2097152x1 (![0] : Fin 1 → Fin S2097152x1.rank)
  bcast_S3_S1x3_1 : S3.BroadcastsInDim S1x3 (![1] : Fin 1 → Fin S1x3.rank)
  bcast_S2097152x1_S2097152x3_0_1 : S2097152x1.BroadcastsInDim S2097152x3 (![0, 1] : Fin 2 → Fin S2097152x3.rank)
  bcast_S1x3_S2097152x3_0_1 : S1x3.BroadcastsInDim S2097152x3 (![0, 1] : Fin 2 → Fin S2097152x3.rank)
  reducesTo_S2097152x3_S2097152_d1 : S2097152x3.ReducesTo [1] S2097152
  h_S_ : 0 < S_.numel
  shapeCasts_S2097152_S64x32x32x32 : S2097152.ShapeCasts S64x32x32x32
  pads_S64x32x32x32_S64x34x34x34_000_110_110_110 : S64x32x32x32.Pads (![0, 1, 1, 1] : Fin 4 → Nat) ![0, 1, 1, 1] ![0, 0, 0, 0] S64x34x34x34
  slices_S64x34x34x34_S64x32x32x32_0_0_1_1 : S64x34x34x34.Slices ![0, 0, 1, 1] S64x32x32x32
  slices_S64x34x34x34_S64x32x32x32_0_2_1_1 : S64x34x34x34.Slices ![0, 2, 1, 1] S64x32x32x32
  slices_S64x34x34x34_S64x32x32x32_0_1_0_1 : S64x34x34x34.Slices ![0, 1, 0, 1] S64x32x32x32
  slices_S64x34x34x34_S64x32x32x32_0_1_2_1 : S64x34x34x34.Slices ![0, 1, 2, 1] S64x32x32x32
  slices_S64x34x34x34_S64x32x32x32_0_1_1_0 : S64x34x34x34.Slices ![0, 1, 1, 0] S64x32x32x32
  slices_S64x34x34x34_S64x32x32x32_0_1_1_2 : S64x34x34x34.Slices ![0, 1, 1, 2] S64x32x32x32
  bcast_S_S64x32x32x32 : S_.BroadcastsInDim S64x32x32x32 (![] : Fin 0 → Fin S64x32x32x32.rank)
  reducesTo_S64x32x32x32_S_d0_1_2_3 : S64x32x32x32.ReducesTo [0, 1, 2, 3] S_
  shapeCasts_S64x32x32x32_S64x8x4x8x4x8x4 : S64x32x32x32.ShapeCasts S64x8x4x8x4x8x4
  transposes_S64x8x4x8x4x8x4_S64x8x8x8x4x4x4_0_1_3_5_2_4_6 : S64x8x4x8x4x8x4.Transposes [0, 1, 3, 5, 2, 4, 6] S64x8x8x8x4x4x4
  shapeCasts_S64x8x8x8x4x4x4_S32768x64 : S64x8x8x8x4x4x4.ShapeCasts S32768x64
  bcast_S_S32768x3717 : S_.BroadcastsInDim S32768x3717 (![] : Fin 0 → Fin S32768x3717.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S_S32768x64 : S_.BroadcastsInDim S32768x64 (![] : Fin 0 → Fin S32768x64.rank)
  bcast_S32768x1_S32768x64_0_1 : S32768x1.BroadcastsInDim S32768x64 (![0, 1] : Fin 2 → Fin S32768x64.rank)
  bcast_S32768x64_S32768x64x1_0_1 : S32768x64.BroadcastsInDim S32768x64x1 (![0, 1] : Fin 2 → Fin S32768x64x1.rank)
  concatenates_S32768x64x1_S32768x64x1_S32768x64x2_d2 : Shape.Concatenates [S32768x64x1, S32768x64x1] S32768x64x2 2
  bcast_S_S3 : S_.BroadcastsInDim S3 (![] : Fin 0 → Fin S3.rank)
  bcast_S3_S3x1_0 : S3.BroadcastsInDim S3x1 (![0] : Fin 1 → Fin S3x1.rank)
  bcast_S_S32768x3 : S_.BroadcastsInDim S32768x3 (![] : Fin 0 → Fin S32768x3.rank)
  reducesTo_S32768x3717_S32768_d1 : S32768x3717.ReducesTo [1] S32768
  bcast_S32768x1_S32768x3717_0_1 : S32768x1.BroadcastsInDim S32768x3717 (![0, 1] : Fin 2 → Fin S32768x3717.rank)
  reducesTo_S32768x3717_S_d0_1 : S32768x3717.ReducesTo [0, 1] S_
  slices_S64x32x32x32_S64x32x1x32_0_0_0_0 : S64x32x32x32.Slices ![0, 0, 0, 0] S64x32x1x32
  bcast_S_S64x32x1x32 : S_.BroadcastsInDim S64x32x1x32 (![] : Fin 0 → Fin S64x32x1x32.rank)
  slices_S64x32x32x32_S64x32x31x32_0_0_0_0 : S64x32x32x32.Slices ![0, 0, 0, 0] S64x32x31x32
  concatenates_S64x32x1x32_S64x32x31x32_S64x32x32x32_d2 : Shape.Concatenates [S64x32x1x32, S64x32x31x32] S64x32x32x32 2
  bcast_S_S1 : S_.BroadcastsInDim S1 (![] : Fin 0 → Fin S1.rank)
  bcast_S_S64x32x32 : S_.BroadcastsInDim S64x32x32 (![] : Fin 0 → Fin S64x32x32.rank)
  shapeCasts_S64x32x32x32x32_S2048x32x32x32 : S64x32x32x32x32.ShapeCasts S2048x32x32x32
  inb_S1x1_S1x1_0_0 : ∀ a, (![0, 0] : Fin 2 → Nat) a + S1x1.size a ≤ S1x1.size a
  h_S1x1 : 0 < S1x1.numel
  inb_S128x32x32x32_S128x32x32x32_0_0_0_0 : ∀ a, (![0, 0, 0, 0] : Fin 4 → Nat) a + S128x32x32x32.size a ≤ S128x32x32x32.size a
  h_S128x32x32x32 : 0 < S128x32x32x32.numel
  shapeCasts_S128x32x32x32_S128x32x32x32 : S128x32x32x32.ShapeCasts S128x32x32x32
  slices_S128x32x32x32_o0_1_0_0_S128x31x32x32 : S128x32x32x32.Slices ![0, 1, 0, 0] S128x31x32x32
  slices_S128x32x32x32_o0_0_0_0_S128x31x32x32 : S128x32x32x32.Slices ![0, 0, 0, 0] S128x31x32x32
  shapeCasts_S128x31x32x32_S1x128x31x32x32 : S128x31x32x32.ShapeCasts S1x128x31x32x32
  reduces_S1x128x31x32x32_S1 : S1x128x31x32x32.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  slices_S128x32x32x32_o0_0_1_0_S128x32x31x32 : S128x32x32x32.Slices ![0, 0, 1, 0] S128x32x31x32
  slices_S128x32x32x32_o0_0_0_0_S128x32x31x32 : S128x32x32x32.Slices ![0, 0, 0, 0] S128x32x31x32
  shapeCasts_S128x32x31x32_S1x128x32x31x32 : S128x32x31x32.ShapeCasts S1x128x32x31x32
  reduces_S1x128x32x31x32_S1 : S1x128x32x31x32.Reduces [1, 2, 3, 4] S1
  slices_S128x32x32x32_o0_0_0_1_S128x32x32x31 : S128x32x32x32.Slices ![0, 0, 0, 1] S128x32x32x31
  slices_S128x32x32x32_o0_0_0_0_S128x32x32x31 : S128x32x32x32.Slices ![0, 0, 0, 0] S128x32x32x31
  shapeCasts_S128x32x32x31_S1x128x32x32x31 : S128x32x32x31.ShapeCasts S1x128x32x32x31
  reduces_S1x128x32x32x31_S1 : S1x128x32x32x31.Reduces [1, 2, 3, 4] S1
  shapeCasts_S1x1_S1x1 : S1x1.ShapeCasts S1x1
  shapeCasts_S1x1_S_ : S1x1.ShapeCasts S_
  scatter_S32768x3717_S32768x64x2_S32768x64_n_01_01_2_wf : ScatterDims.WF S32768x3717 S32768x64x2 S32768x64 [] [0, 1] [0, 1] 2
  scatter_S32768x3717_S3x1_S32768x3_0_1_1_1_wf : ScatterDims.WF S32768x3717 S3x1 S32768x3 [0] [1] [1] 1
  scatter_S64x32x32x32_S1_S64x32x32_012_2_2_0_wf : ScatterDims.WF S64x32x32x32 S1 S64x32x32 [0, 1, 2] [2] [2] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x32x32.size a ≤ S2048x32x32x32.size a
  hwx0_0 : ∀ i : grid0.Coords, EltTy.bits .f32 = 32 ∨ (Rect.block (s := S2048x32x32x32) S128x32x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S32768x3717_S32768x64x2_S32768x64_n_01_01_2 : ScatterDims S32768x3717 S32768x64x2 S32768x64 where
  updateWindowDims := []
  insertedWindowDims := [0, 1]
  scatterDimsToOperandDims := [0, 1]
  indexVectorDim := 2
  wf := scatter_S32768x3717_S32768x64x2_S32768x64_n_01_01_2_wf
def scatter_S32768x3717_S3x1_S32768x3_0_1_1_1 : ScatterDims S32768x3717 S3x1 S32768x3 where
  updateWindowDims := [0]
  insertedWindowDims := [1]
  scatterDimsToOperandDims := [1]
  indexVectorDim := 1
  wf := scatter_S32768x3717_S3x1_S32768x3_0_1_1_1_wf
def scatter_S64x32x32x32_S1_S64x32x32_012_2_2_0 : ScatterDims S64x32x32x32 S1 S64x32x32 where
  updateWindowDims := [0, 1, 2]
  insertedWindowDims := [2]
  scatterDimsToOperandDims := [2]
  indexVectorDim := 0
  wf := scatter_S64x32x32x32_S1_S64x32x32_012_2_2_0_wf

abbrev win0_0 : Pipeline.Window sig grid0 :=
  Pipeline.Window.ofSpec (Memref.whole main_v87) S128x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v88_1) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v88_2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x32x32 : Shape := ⟨4, ![64, 32, 32, 32]⟩
abbrev S64x32x32x32x32 : Shape := ⟨5, ![64, 32, 32, 32, 32]⟩
abbrev S3 : Shape := ⟨1, ![3]⟩
abbrev S2097152 : Shape := ⟨1, ![2097152]⟩
abbrev S2097152x1 : Shape := ⟨2, ![2097152, 1]⟩
abbrev S1x3 : Shape := ⟨2, ![1, 3]⟩
abbrev S2097152x3 : Shape := ⟨2, ![2097152, 3]⟩
abbrev S_ : Shape := ⟨0, ![]⟩
abbrev S64x34x34x34 : Shape := ⟨4, ![64, 34, 34, 34]⟩
abbrev S64x8x4x8x4x8x4 : Shape := ⟨7, ![64, 8, 4, 8, 4, 8, 4]⟩
abbrev S64x8x8x8x4x4x4 : Shape := ⟨7, ![64, 8, 8, 8, 4, 4, 4]⟩
abbrev S32768x64 : Shape := ⟨2, ![32768, 64]⟩
abbrev S32768x3717 : Shape := ⟨2, ![32768, 3717]⟩
abbrev S32768 : Shape := ⟨1, ![32768]⟩
abbrev S32768x1 : Shape := ⟨2, ![32768, 1]⟩
abbrev S32768x64x1 : Shape := ⟨3, ![32768, 64, 1]⟩
abbrev S32768x64x2 : Shape := ⟨3, ![32768, 64, 2]⟩
abbrev S3x1 : Shape := ⟨2, ![3, 1]⟩
abbrev S32768x3 : Shape := ⟨2, ![32768, 3]⟩
abbrev S64x32x1x32 : Shape := ⟨4, ![64, 32, 1, 32]⟩
abbrev S64x32x31x32 : Shape := ⟨4, ![64, 32, 31, 32]⟩
abbrev S1 : Shape := ⟨1, ![1]⟩
abbrev S64x32x32 : Shape := ⟨3, ![64, 32, 32]⟩
abbrev S64x32x31x32x32 : Shape := ⟨5, ![64, 32, 31, 32, 32]⟩
abbrev S64x32x32x31x32 : Shape := ⟨5, ![64, 32, 32, 31, 32]⟩
abbrev S64x32x32x32x31 : Shape := ⟨5, ![64, 32, 32, 32, 31]⟩

abbrev nBuf : Space → Nat
  | .hbm => 170
  | .vmem => 0
  | .smem => 0
  | _ => 0

abbrev hbmTy0_0 (i : Nat) : BufTy := match i % 128 with
  | 0 => ⟨S64x32x32x32, .i32⟩
  | 1 => ⟨S64x32x32x32x32, .f32⟩
  | 2 => ⟨S3, .i32⟩
  | 3 => ⟨S2097152, .i32⟩
  | 4 => ⟨S2097152x1, .i32⟩
  | 5 => ⟨S1x3, .i32⟩
  | 6 => ⟨S2097152x3, .i32⟩
  | 7 => ⟨S2097152x3, .i32⟩
  | 8 => ⟨S2097152x3, .i1⟩
  | 9 => ⟨S_, .i1⟩
  | 10 => ⟨S2097152, .i1⟩
  | 11 => ⟨S64x32x32x32, .i1⟩
  | 12 => ⟨S64x32x32x32, .i1⟩
  | 13 => ⟨S64x32x32x32, .f32⟩
  | 14 => ⟨S_, .i32⟩
  | 15 => ⟨S_, .f32⟩
  | 16 => ⟨S64x34x34x34, .f32⟩
  | 17 => ⟨S64x32x32x32, .f32⟩
  | 18 => ⟨S64x32x32x32, .f32⟩
  | 19 => ⟨S64x32x32x32, .f32⟩
  | 20 => ⟨S64x32x32x32, .f32⟩
  | 21 => ⟨S64x32x32x32, .f32⟩
  | 22 => ⟨S64x32x32x32, .f32⟩
  | 23 => ⟨S64x32x32x32, .f32⟩
  | 24 => ⟨S64x32x32x32, .f32⟩
  | 25 => ⟨S64x32x32x32, .f32⟩
  | 26 => ⟨S64x32x32x32, .f32⟩
  | 27 => ⟨S64x32x32x32, .f32⟩
  | 28 => ⟨S_, .f32⟩
  | 29 => ⟨S64x32x32x32, .f32⟩
  | 30 => ⟨S64x32x32x32, .i1⟩
  | 31 => ⟨S_, .f32⟩
  | 32 => ⟨S64x32x32x32, .f32⟩
  | 33 => ⟨S64x32x32x32, .i1⟩
  | 34 => ⟨S64x32x32x32, .i1⟩
  | 35 => ⟨S64x32x32x32, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S64x8x4x8x4x8x4, .i32⟩
  | 44 => ⟨S64x8x8x8x4x4x4, .i32⟩
  | 45 => ⟨S32768x64, .i32⟩
  | 46 => ⟨S_, .f32⟩
  | 47 => ⟨S32768x3717, .f32⟩
  | 48 => ⟨S32768, .i32⟩
  | 49 => ⟨S32768x1, .i32⟩
  | 50 => ⟨S_, .i32⟩
  | 51 => ⟨S32768x1, .i32⟩
  | 52 => ⟨S32768x1, .i1⟩
  | 53 => ⟨S_, .i32⟩
  | 54 => ⟨S32768x1, .i32⟩
  | 55 => ⟨S32768x1, .i32⟩
  | 56 => ⟨S32768x1, .i32⟩
  | 57 => ⟨S_, .i32⟩
  | 58 => ⟨S32768x64, .i32⟩
  | 59 => ⟨S32768x64, .i1⟩
  | 60 => ⟨S_, .i32⟩
  | 61 => ⟨S32768x64, .i32⟩
  | 62 => ⟨S32768x64, .i32⟩
  | 63 => ⟨S32768x64, .i32⟩
  | 64 => ⟨S32768x64, .i32⟩
  | 65 => ⟨S32768x64x1, .i32⟩
  | 66 => ⟨S32768x64x1, .i32⟩
  | 67 => ⟨S32768x64x2, .i32⟩
  | 68 => ⟨S_, .f32⟩
  | 69 => ⟨S32768x64, .f32⟩
  | 70 => ⟨S32768x3717, .f32⟩
  | 71 => ⟨S_, .i32⟩
  | 72 => ⟨S3, .i32⟩
  | 73 => ⟨S3, .i1⟩
  | 74 => ⟨S_, .i32⟩
  | 75 => ⟨S3, .i32⟩
  | 76 => ⟨S3, .i32⟩
  | 77 => ⟨S3, .i32⟩
  | 78 => ⟨S3x1, .i32⟩
  | 79 => ⟨S_, .f32⟩
  | 80 => ⟨S32768x3, .f32⟩
  | 81 => ⟨S32768x3717, .f32⟩
  | 82 => ⟨S_, .f32⟩
  | 83 => ⟨S32768, .f32⟩
  | 84 => ⟨S32768x1, .f32⟩
  | 85 => ⟨S_, .f32⟩
  | 86 => ⟨S32768x1, .f32⟩
  | 87 => ⟨S32768x1, .f32⟩
  | 88 => ⟨S32768x3717, .f32⟩
  | 89 => ⟨S32768x3717, .f32⟩
  | 90 => ⟨S_, .f32⟩
  | 91 => ⟨S32768x3717, .f32⟩
  | 92 => ⟨S32768x3717, .f32⟩
  | 93 => ⟨S32768x3717, .f32⟩
  | 94 => ⟨S32768x3717, .f32⟩
  | 95 => ⟨S_, .f32⟩
  | 96 => ⟨S_, .f32⟩
  | 97 => ⟨S_, .f32⟩
  | 98 => ⟨S_, .f32⟩
  | 99 => ⟨S_, .f32⟩
  | 100 => ⟨S2097152, .i32⟩
  | 101 => ⟨S2097152x1, .i32⟩
  | 102 => ⟨S1x3, .i32⟩
  | 103 => ⟨S2097152x3, .i32⟩
  | 104 => ⟨S2097152x3, .i32⟩
  | 105 => ⟨S2097152x3, .i1⟩
  | 106 => ⟨S_, .i1⟩
  | 107 => ⟨S2097152, .i1⟩
  | 108 => ⟨S64x32x32x32, .i1⟩
  | 109 => ⟨S64x32x32x32, .i1⟩
  | 110 => ⟨S64x32x1x32, .i1⟩
  | 111 => ⟨S_, .i1⟩
  | 112 => ⟨S64x32x1x32, .i1⟩
  | 113 => ⟨S64x32x31x32, .i1⟩
  | 114 => ⟨S64x32x32x32, .i1⟩
  | 115 => ⟨S64x32x32x32, .i1⟩
  | 116 => ⟨S64x32x32x32, .i1⟩
  | 117 => ⟨S_, .i32⟩
  | 118 => ⟨S1, .i32⟩
  | 119 => ⟨S_, .i1⟩
  | 120 => ⟨S64x32x32, .i1⟩
  | 121 => ⟨S64x32x32x32, .i1⟩
  | 122 => ⟨S64x32x32x32, .f32⟩
  | 123 => ⟨S_, .f32⟩
  | 124 => ⟨S_, .f32⟩
  | 125 => ⟨S64x32x32x32, .f32⟩
  | 126 => ⟨S_, .f32⟩
  | 127 => ⟨S_, .f32⟩
  | _ => ⟨S64x32x32x32, .i32⟩

abbrev hbmTy0_1 (i : Nat) : BufTy := match i % 128 with
  | 0 => ⟨S_, .f32⟩
  | 1 => ⟨S_, .f32⟩
  | 2 => ⟨S_, .f32⟩
  | 3 => ⟨S64x32x31x32x32, .f32⟩
  | 4 => ⟨S64x32x31x32x32, .f32⟩
  | 5 => ⟨S64x32x31x32x32, .f32⟩
  | 6 => ⟨S64x32x31x32x32, .f32⟩
  | 7 => ⟨S_, .f32⟩
  | 8 => ⟨S_, .f32⟩
  | 9 => ⟨S_, .f32⟩
  | 10 => ⟨S_, .f32⟩
  | 11 => ⟨S64x32x32x31x32, .f32⟩
  | 12 => ⟨S64x32x32x31x32, .f32⟩
  | 13 => ⟨S64x32x32x31x32, .f32⟩
  | 14 => ⟨S64x32x32x31x32, .f32⟩
  | 15 => ⟨S_, .f32⟩
  | 16 => ⟨S_, .f32⟩
  | 17 => ⟨S_, .f32⟩
  | 18 => ⟨S_, .f32⟩
  | 19 => ⟨S64x32x32x32x31, .f32⟩
  | 20 => ⟨S64x32x32x32x31, .f32⟩
  | 21 => ⟨S64x32x32x32x31, .f32⟩
  | 22 => ⟨S64x32x32x32x31, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S64x32x32x32, .i32⟩

abbrev hbmTy (i : Nat) : BufTy := match i / 128 with
  | 0 => hbmTy0_0 i
  | 1 => hbmTy0_1 i
  | _ => ⟨S64x32x32x32, .i32⟩

abbrev bufTy : (tb : Table) → Fin (tcTables nBuf tb) → BufTy
  | .hbm, ⟨i, _⟩ => hbmTy i
  | _, _ => ⟨S64x32x32x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_19 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_c_21 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_22 : Ref sig .tc := ⟨.hbm, 123, rfl⟩
abbrev main_v82 : Ref sig .tc := ⟨.hbm, 124, rfl⟩
abbrev main_v83 : Ref sig .tc := ⟨.hbm, 125, rfl⟩
abbrev main_cst_23 : Ref sig .tc := ⟨.hbm, 126, rfl⟩
abbrev main_v84 : Ref sig .tc := ⟨.hbm, 127, rfl⟩
abbrev main_cst_24 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_25 : Ref sig .tc := ⟨.hbm, 135, rfl⟩
abbrev main_v91 : Ref sig .tc := ⟨.hbm, 136, rfl⟩
abbrev main_cst_26 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_27 : Ref sig .tc := ⟨.hbm, 143, rfl⟩
abbrev main_v97 : Ref sig .tc := ⟨.hbm, 144, rfl⟩
abbrev main_cst_28 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_29 : Ref sig .tc := ⟨.hbm, 151, rfl⟩
abbrev main_v103 : Ref sig .tc := ⟨.hbm, 152, rfl⟩
abbrev main_cst_30 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_31 : Ref sig .tc := ⟨.hbm, 157, rfl⟩
abbrev main_v107 : Ref sig .tc := ⟨.hbm, 158, rfl⟩
abbrev main_cst_32 : Ref sig .tc := ⟨.hbm, 159, rfl⟩
abbrev main_v108 : Ref sig .tc := ⟨.hbm, 160, rfl⟩
abbrev main_cst_33 : Ref sig .tc := ⟨.hbm, 161, rfl⟩
abbrev main_v109 : Ref sig .tc := ⟨.hbm, 162, rfl⟩
abbrev main_v110 : Ref sig .tc := ⟨.hbm, 163, rfl⟩
abbrev main_cst_34 : Ref sig .tc := ⟨.hbm, 164, rfl⟩
abbrev main_v111 : Ref sig .tc := ⟨.hbm, 165, rfl⟩
abbrev main_v112 : Ref sig .tc := ⟨.hbm, 166, rfl⟩
abbrev main_cst_35 : Ref sig .tc := ⟨.hbm, 167, rfl⟩
abbrev main_v113 : Ref sig .tc := ⟨.hbm, 168, rfl⟩
abbrev main_v114 : Ref sig .tc := ⟨.hbm, 169, rfl⟩

abbrev nD : Nat := 1
abbrev τ : Topo := Topo.v7x

variable {F : FTy → Type} [FloatOps F]

class Facts₀ : Prop where
  shapeCasts_S64x32x32x32_S2097152 : S64x32x32x32.ShapeCasts S2097152
  bcast_S2097152_S2097152x1_0 : S2097152.BroadcastsInDim S2097152x1 (![0] : Fin 1 → Fin S2097152x1.rank)
  bcast_S3_S1x3_1 : S3.BroadcastsInDim S1x3 (![1] : Fin 1 → Fin S1x3.rank)
  bcast_S2097152x1_S2097152x3_0_1 : S2097152x1.BroadcastsInDim S2097152x3 (![0, 1] : Fin 2 → Fin S2097152x3.rank)
  bcast_S1x3_S2097152x3_0_1 : S1x3.BroadcastsInDim S2097152x3 (![0, 1] : Fin 2 → Fin S2097152x3.rank)
  reducesTo_S2097152x3_S2097152_d1 : S2097152x3.ReducesTo [1] S2097152
  h_S_ : 0 < S_.numel
  shapeCasts_S2097152_S64x32x32x32 : S2097152.ShapeCasts S64x32x32x32
  pads_S64x32x32x32_S64x34x34x34_000_110_110_110 : S64x32x32x32.Pads (![0, 1, 1, 1] : Fin 4 → Nat) ![0, 1, 1, 1] ![0, 0, 0, 0] S64x34x34x34
  slices_S64x34x34x34_S64x32x32x32_0_0_1_1 : S64x34x34x34.Slices ![0, 0, 1, 1] S64x32x32x32
  slices_S64x34x34x34_S64x32x32x32_0_2_1_1 : S64x34x34x34.Slices ![0, 2, 1, 1] S64x32x32x32
  slices_S64x34x34x34_S64x32x32x32_0_1_0_1 : S64x34x34x34.Slices ![0, 1, 0, 1] S64x32x32x32
  slices_S64x34x34x34_S64x32x32x32_0_1_2_1 : S64x34x34x34.Slices ![0, 1, 2, 1] S64x32x32x32
  slices_S64x34x34x34_S64x32x32x32_0_1_1_0 : S64x34x34x34.Slices ![0, 1, 1, 0] S64x32x32x32
  slices_S64x34x34x34_S64x32x32x32_0_1_1_2 : S64x34x34x34.Slices ![0, 1, 1, 2] S64x32x32x32
  bcast_S_S64x32x32x32 : S_.BroadcastsInDim S64x32x32x32 (![] : Fin 0 → Fin S64x32x32x32.rank)
  reducesTo_S64x32x32x32_S_d0_1_2_3 : S64x32x32x32.ReducesTo [0, 1, 2, 3] S_
  shapeCasts_S64x32x32x32_S64x8x4x8x4x8x4 : S64x32x32x32.ShapeCasts S64x8x4x8x4x8x4
  transposes_S64x8x4x8x4x8x4_S64x8x8x8x4x4x4_0_1_3_5_2_4_6 : S64x8x4x8x4x8x4.Transposes [0, 1, 3, 5, 2, 4, 6] S64x8x8x8x4x4x4
  shapeCasts_S64x8x8x8x4x4x4_S32768x64 : S64x8x8x8x4x4x4.ShapeCasts S32768x64
  bcast_S_S32768x3717 : S_.BroadcastsInDim S32768x3717 (![] : Fin 0 → Fin S32768x3717.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S_S32768x64 : S_.BroadcastsInDim S32768x64 (![] : Fin 0 → Fin S32768x64.rank)
  bcast_S32768x1_S32768x64_0_1 : S32768x1.BroadcastsInDim S32768x64 (![0, 1] : Fin 2 → Fin S32768x64.rank)
  bcast_S32768x64_S32768x64x1_0_1 : S32768x64.BroadcastsInDim S32768x64x1 (![0, 1] : Fin 2 → Fin S32768x64x1.rank)
  concatenates_S32768x64x1_S32768x64x1_S32768x64x2_d2 : Shape.Concatenates [S32768x64x1, S32768x64x1] S32768x64x2 2
  bcast_S_S3 : S_.BroadcastsInDim S3 (![] : Fin 0 → Fin S3.rank)
  bcast_S3_S3x1_0 : S3.BroadcastsInDim S3x1 (![0] : Fin 1 → Fin S3x1.rank)
  bcast_S_S32768x3 : S_.BroadcastsInDim S32768x3 (![] : Fin 0 → Fin S32768x3.rank)
  reducesTo_S32768x3717_S32768_d1 : S32768x3717.ReducesTo [1] S32768
  bcast_S32768x1_S32768x3717_0_1 : S32768x1.BroadcastsInDim S32768x3717 (![0, 1] : Fin 2 → Fin S32768x3717.rank)
  reducesTo_S32768x3717_S_d0_1 : S32768x3717.ReducesTo [0, 1] S_
  slices_S64x32x32x32_S64x32x1x32_0_0_0_0 : S64x32x32x32.Slices ![0, 0, 0, 0] S64x32x1x32
  bcast_S_S64x32x1x32 : S_.BroadcastsInDim S64x32x1x32 (![] : Fin 0 → Fin S64x32x1x32.rank)
  slices_S64x32x32x32_S64x32x31x32_0_0_0_0 : S64x32x32x32.Slices ![0, 0, 0, 0] S64x32x31x32
  concatenates_S64x32x1x32_S64x32x31x32_S64x32x32x32_d2 : Shape.Concatenates [S64x32x1x32, S64x32x31x32] S64x32x32x32 2
  bcast_S_S1 : S_.BroadcastsInDim S1 (![] : Fin 0 → Fin S1.rank)
  bcast_S_S64x32x32 : S_.BroadcastsInDim S64x32x32 (![] : Fin 0 → Fin S64x32x32.rank)
  slices_S64x32x32x32x32_S64x32x31x32x32_0_0_1_0_0 : S64x32x32x32x32.Slices ![0, 0, 1, 0, 0] S64x32x31x32x32
  slices_S64x32x32x32x32_S64x32x31x32x32_0_0_0_0_0 : S64x32x32x32x32.Slices ![0, 0, 0, 0, 0] S64x32x31x32x32
  reducesTo_S64x32x31x32x32_S_d0_1_2_3_4 : S64x32x31x32x32.ReducesTo [0, 1, 2, 3, 4] S_
  slices_S64x32x32x32x32_S64x32x32x31x32_0_0_0_1_0 : S64x32x32x32x32.Slices ![0, 0, 0, 1, 0] S64x32x32x31x32
  slices_S64x32x32x32x32_S64x32x32x31x32_0_0_0_0_0 : S64x32x32x32x32.Slices ![0, 0, 0, 0, 0] S64x32x32x31x32
  reducesTo_S64x32x32x31x32_S_d0_1_2_3_4 : S64x32x32x31x32.ReducesTo [0, 1, 2, 3, 4] S_
  slices_S64x32x32x32x32_S64x32x32x32x31_0_0_0_0_1 : S64x32x32x32x32.Slices ![0, 0, 0, 0, 1] S64x32x32x32x31
  slices_S64x32x32x32x32_S64x32x32x32x31_0_0_0_0_0 : S64x32x32x32x32.Slices ![0, 0, 0, 0, 0] S64x32x32x32x31
  reducesTo_S64x32x32x32x31_S_d0_1_2_3_4 : S64x32x32x32x31.ReducesTo [0, 1, 2, 3, 4] S_
  scatter_S32768x3717_S32768x64x2_S32768x64_n_01_01_2_wf : ScatterDims.WF S32768x3717 S32768x64x2 S32768x64 [] [0, 1] [0, 1] 2
  scatter_S32768x3717_S3x1_S32768x3_0_1_1_1_wf : ScatterDims.WF S32768x3717 S3x1 S32768x3 [0] [1] [1] 1
  scatter_S64x32x32x32_S1_S64x32x32_012_2_2_0_wf : ScatterDims.WF S64x32x32x32 S1 S64x32x32 [0, 1, 2] [2] [2] 0

variable [Facts₀]

def scatter_S32768x3717_S32768x64x2_S32768x64_n_01_01_2 : ScatterDims S32768x3717 S32768x64x2 S32768x64 where
  updateWindowDims := []
  insertedWindowDims := [0, 1]
  scatterDimsToOperandDims := [0, 1]
  indexVectorDim := 2
  wf := scatter_S32768x3717_S32768x64x2_S32768x64_n_01_01_2_wf
def scatter_S32768x3717_S3x1_S32768x3_0_1_1_1 : ScatterDims S32768x3717 S3x1 S32768x3 where
  updateWindowDims := [0]
  insertedWindowDims := [1]
  scatterDimsToOperandDims := [1]
  indexVectorDim := 1
  wf := scatter_S32768x3717_S3x1_S32768x3_0_1_1_1_wf
def scatter_S64x32x32x32_S1_S64x32x32_012_2_2_0 : ScatterDims S64x32x32x32 S1 S64x32x32 where
  updateWindowDims := [0, 1, 2]
  insertedWindowDims := [2]
  scatterDimsToOperandDims := [2]
  indexVectorDim := 0
  wf := scatter_S64x32x32x32_S1_S64x32x32_012_2_2_0_wf

class Facts : Prop extends Facts₀ where

variable [Facts]
-- ==== Proof.LibSumBlocks.lean ====
import Mathlib.Algebra.BigOperators.Fin
import Mathlib.Algebra.BigOperators.Group.Finset.Defs
import Mathlib.Algebra.BigOperators.Group.List.Basic
import Mathlib.Data.Fintype.BigOperators
import Idealize.ShloMosaic.Lib.ValueIdx

/-!
# Finite sums taken block by block

Pure bookkeeping about finite sums in an additive commutative monoid `M` (only commutativity and associativity of `+`
are used, so every statement holds in the extended reals as well).

* `sum_idx3`, `sum_idx4`: a sum over the index set of a rank-3 (rank-4) shape is the iterated sum over its coordinates,
  because the index set is in bijection with the product of the coordinate ranges (`idxEquiv3`, `idxEquiv4`).
* `sum_rows_blocks`: the 1024 numbers `0 ≤ row < 1024` are written uniquely as `512·c + 32·s + 8·k + r` with
  `c < 2`, `s < 16`, `k < 4`, `r < 8` (mixed-radix digits), so a sum over the rows is the fourfold sum over the digits.
* `sum_rows_pairs`: likewise `row = 16·b + ch` with `b = row / 16 < 64` and `ch = row % 16 < 16`.
* `foldl_add_eq_sum`: a left fold over `0, 1, …, n-1` that adds `g k` at step `k` ends at the start value plus `∑ k, g k`.
-/

open scoped BigOperators
open Idealize.ShloMosaic Idealize.ShloMosaic.ValueIdx

namespace Cert.Hand

/-! ## Sums over the index set of a shape -/

/-- A rank-3 index set is the product of its three coordinate ranges: an index goes to its coordinates,
    a triple of coordinates to the index `ix3` built from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates:
    `∑ i, f i = ∑ a, ∑ b, ∑ c, f (a, b, c)`. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges: an index goes to its coordinates,
    a quadruple of coordinates to the index `ix4` built from them. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates:
    `∑ i, f i = ∑ a, ∑ b, ∑ c, ∑ d, f (a, b, c, d)`. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## 1024 rows in blocks -/

/-- Mixed-radix digits: `(c, s, k, r)` with `c < 2`, `s < 16`, `k < 4`, `r < 8` corresponds to the row
    `512·c + 32·s + 8·k + r < 1024`; the digits of a row are `row / 512`, `row % 512 / 32`, `row % 32 / 8`, `row % 8`. -/
def rowsBlocksEquiv : Fin 2 × Fin 16 × Fin 4 × Fin 8 ≃ Fin 1024 where
  toFun p := ⟨512 * p.1.val + 32 * p.2.1.val + 8 * p.2.2.1.val + p.2.2.2.val, by
    have := p.1.isLt; have := p.2.1.isLt; have := p.2.2.1.isLt; have := p.2.2.2.isLt; omega⟩
  invFun row := (⟨row.val / 512, by have := row.isLt; omega⟩, ⟨row.val % 512 / 32, by omega⟩,
    ⟨row.val % 32 / 8, by omega⟩, ⟨row.val % 8, by omega⟩)
  left_inv p := by
    obtain ⟨⟨c, hc⟩, ⟨s, hs⟩, ⟨k, hk⟩, ⟨r, hr⟩⟩ := p
    refine Prod.ext (Fin.ext ?_) (Prod.ext (Fin.ext ?_) (Prod.ext (Fin.ext ?_) (Fin.ext ?_))) <;>
      simp only <;> omega
  right_inv row := by
    obtain ⟨v, hv⟩ := row
    refine Fin.ext ?_
    simp only
    omega

/-- 1024 rows, taken as 2 halves of 16 blocks of 4 chunks of 8 rows: row = 512·c + 32·s + 8·k + r. -/
theorem sum_rows_blocks {M : Type*} [AddCommMonoid M] (f : Fin 1024 → M) :
    ∑ c : Fin 2, ∑ s : Fin 16, ∑ k : Fin 4, ∑ r : Fin 8,
      f ⟨512 * c.val + 32 * s.val + 8 * k.val + r.val, by omega⟩ = ∑ row : Fin 1024, f row := by
  rw [← Equiv.sum_comp rowsBlocksEquiv f, Fintype.sum_prod_type]
  refine Finset.sum_congr rfl fun c _ => ?_
  rw [Fintype.sum_prod_type]
  refine Finset.sum_congr rfl fun s _ => ?_
  rw [Fintype.sum_prod_type]
  rfl

/-- Quotient and remainder by 16: `(b, ch)` with `b < 64`, `ch < 16` corresponds to the row `16·b + ch < 1024`;
    conversely `b = row / 16` and `ch = row % 16`. -/
def rowsPairsEquiv : Fin 64 × Fin 16 ≃ Fin 1024 where
  toFun p := ⟨16 * p.1.val + p.2.val, by have := p.1.isLt; have := p.2.isLt; omega⟩
  invFun row := (⟨row.val / 16, by have := row.isLt; omega⟩, ⟨row.val % 16, by omega⟩)
  left_inv p := by
    obtain ⟨⟨b, hb⟩, ⟨ch, hch⟩⟩ := p
    refine Prod.ext (Fin.ext ?_) (Fin.ext ?_) <;> simp only <;> omega
  right_inv row := by
    obtain ⟨v, hv⟩ := row
    refine Fin.ext ?_
    simp only
    omega

/-- 1024 rows as 64 × 16 pairs in row-major order: row = 16·b + ch. -/
theorem sum_rows_pairs {M : Type*} [AddCommMonoid M] (g : Fin 64 → Fin 16 → M) :
    ∑ row : Fin 1024, g ⟨row.val / 16, by omega⟩ ⟨row.val % 16, by omega⟩ = ∑ b : Fin 64, ∑ ch : Fin 16, g b ch := by
  exact (Equiv.sum_comp rowsPairsEquiv.symm (fun p : Fin 64 × Fin 16 => g p.1 p.2)).trans
    (Fintype.sum_prod_type _)

/-! ## A left fold that accumulates a sum -/

/-- Over any list: folding `acc ↦ acc + g k` from `a` gives `a` plus the sum of the `g k` along the list. -/
theorem foldl_add_eq_add_sum_map {M : Type*} [AddCommMonoid M] {α : Type*} (g : α → M) (l : List α) (a : M) :
    l.foldl (fun acc k => acc + g k) a = a + (l.map g).sum := by
  induction l generalizing a with
  | nil => simp
  | cons x xs ih => rw [List.foldl_cons, ih, List.map_cons, List.sum_cons, add_assoc]

/-- A left fold that adds `g k` at step `k` is the start plus the sum. -/
theorem foldl_add_eq_sum {M : Type*} [AddCommMonoid M] (n : Nat) (g : Fin n → M) (a : M) :
    (List.finRange n).foldl (fun acc k => acc + g k) a = a + ∑ k : Fin n, g k := by
  rw [foldl_add_eq_add_sum_map, Fin.sum_univ_def]

end Cert.Hand
-- ==== Proof.SmoothSum.lean ====
import Idealize.ShloMosaic.Lib.ValueIdx
import Idealize.ShloMosaic.Lib.Pipeline.Value
import proofs.«406312_j54666343744093_1_alg».proof.Proof.LibSumBlocks

/-!
# Total variation of a five-axis array, taken tile by tile

The array `A` has shape [64, 32, 32, 32, 32]; read row-major as [2048, 32, 32, 32] its row `32·b + ch` is `A[b, ch]`.
The rows are cut into 16 tiles of 128 consecutive rows. For a two-argument function `δ` with values in a commutative
monoid, the sum of `δ (v[.., k+1, ..]) (v[.., k, ..])` over neighbouring entries along one of the three last axes,
taken tile by tile and then over the tiles, is the same sum taken over the whole five-axis array: every row lies in
exactly one tile, and `128·t + a` and `32·b + ch` both run once through `0 … 2047`.
-/

noncomputable section

open scoped BigOperators
open Idealize.ShloMosaic Idealize.ShloMosaic.ValueIdx

namespace Cert.Smooth

abbrev SA : Shape := ⟨5, ![64, 32, 32, 32, 32]⟩
abbrev SX : Shape := ⟨4, ![2048, 32, 32, 32]⟩
abbrev ST : Shape := ⟨4, ![128, 32, 32, 32]⟩

/-- The distance the sums add up: `|a − b|` on the extended reals, written `max (a − b) (−(a − b))`. -/
def dabs (a b : EReal) : EReal := max (a - b) (-(a - b))

section
variable {α M : Type} [AddCommMonoid M]

/-- Neighbour differences along axis 1 of a tile [128, 32, 32, 32], summed. -/
def tileSumX (δ : α → α → M) (v : ST.Idx → α) : M :=
  ∑ a : Fin 128, ∑ x : Fin 31, ∑ y : Fin 32, ∑ z : Fin 32,
    δ (v (ix4 a (⟨x.val + 1, by omega⟩ : Fin 32) y z)) (v (ix4 a (⟨x.val, by omega⟩ : Fin 32) y z))
/-- Neighbour differences along axis 2 of a tile, summed. -/
def tileSumY (δ : α → α → M) (v : ST.Idx → α) : M :=
  ∑ a : Fin 128, ∑ x : Fin 32, ∑ y : Fin 31, ∑ z : Fin 32,
    δ (v (ix4 a x (⟨y.val + 1, by omega⟩ : Fin 32) z)) (v (ix4 a x (⟨y.val, by omega⟩ : Fin 32) z))
/-- Neighbour differences along axis 3 of a tile, summed. -/
def tileSumZ (δ : α → α → M) (v : ST.Idx → α) : M :=
  ∑ a : Fin 128, ∑ x : Fin 32, ∑ y : Fin 32, ∑ z : Fin 31,
    δ (v (ix4 a x y (⟨z.val + 1, by omega⟩ : Fin 32))) (v (ix4 a x y (⟨z.val, by omega⟩ : Fin 32)))

/-- Neighbour differences along axis 2 of the whole array [64, 32, 32, 32, 32], summed. -/
def refSumX (δ : α → α → M) (A : SA.Idx → α) : M :=
  ∑ b : Fin 64, ∑ ch : Fin 32, ∑ x : Fin 31, ∑ y : Fin 32, ∑ z : Fin 32,
    δ (A (ix5 b ch (⟨x.val + 1, by omega⟩ : Fin 32) y z)) (A (ix5 b ch (⟨x.val, by omega⟩ : Fin 32) y z))
/-- Neighbour differences along axis 3 of the whole array, summed. -/
def refSumY (δ : α → α → M) (A : SA.Idx → α) : M :=
  ∑ b : Fin 64, ∑ ch : Fin 32, ∑ x : Fin 32, ∑ y : Fin 31, ∑ z : Fin 32,
    δ (A (ix5 b ch x (⟨y.val + 1, by omega⟩ : Fin 32) z)) (A (ix5 b ch x (⟨y.val, by omega⟩ : Fin 32) z))
/-- Neighbour differences along axis 4 of the whole array, summed. -/
def refSumZ (δ : α → α → M) (A : SA.Idx → α) : M :=
  ∑ b : Fin 64, ∑ ch : Fin 32, ∑ x : Fin 32, ∑ y : Fin 32, ∑ z : Fin 31,
    δ (A (ix5 b ch x y (⟨z.val + 1, by omega⟩ : Fin 32))) (A (ix5 b ch x y (⟨z.val, by omega⟩ : Fin 32)))

/-- A rank-5 index set is the product of its five coordinate ranges: an index goes to its coordinates,
    a quintuple of coordinates to the index `ix5` built from them. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-- Quotient and remainder by 128: `(t, a)` with `t < 16`, `a < 128` corresponds to the row `128·t + a < 2048`;
    conversely `t = row / 128` and `a = row % 128`. -/
def rowsTilesEquiv : Fin 16 × Fin 128 ≃ Fin 2048 where
  toFun p := ⟨128 * p.1.val + p.2.val, by have := p.1.isLt; have := p.2.isLt; omega⟩
  invFun row := (⟨row.val / 128, by have := row.isLt; omega⟩, ⟨row.val % 128, by omega⟩)
  left_inv p := by
    obtain ⟨⟨t, ht⟩, ⟨a, ha⟩⟩ := p
    refine Prod.ext (Fin.ext ?_) (Fin.ext ?_) <;> simp only <;> omega
  right_inv row := by
    obtain ⟨r, hr⟩ := row
    refine Fin.ext ?_
    simp only
    omega

/-- Quotient and remainder by 32: `(b, ch)` with `b < 64`, `ch < 32` corresponds to the row `32·b + ch < 2048`;
    conversely `b = row / 32` and `ch = row % 32`. -/
def rowsChannelsEquiv : Fin 64 × Fin 32 ≃ Fin 2048 where
  toFun p := ⟨32 * p.1.val + p.2.val, by have := p.1.isLt; have := p.2.isLt; omega⟩
  invFun row := (⟨row.val / 32, by have := row.isLt; omega⟩, ⟨row.val % 32, by omega⟩)
  left_inv p := by
    obtain ⟨⟨b, hb⟩, ⟨ch, hch⟩⟩ := p
    refine Prod.ext (Fin.ext ?_) (Fin.ext ?_) <;> simp only <;> omega
  right_inv row := by
    obtain ⟨r, hr⟩ := row
    refine Fin.ext ?_
    simp only
    omega

/-- 2048 rows taken as 16 tiles of 128 rows: row = 128·t + a. -/
theorem sum_rows_tiles (F : Fin 2048 → M) :
    ∑ t : Fin 16, ∑ a : Fin 128, F ⟨128 * t.val + a.val, by omega⟩ = ∑ row : Fin 2048, F row := by
  rw [← Equiv.sum_comp rowsTilesEquiv F, Fintype.sum_prod_type]
  rfl

/-- 2048 rows taken as 64 × 32 pairs in row-major order: row = 32·b + ch. -/
theorem sum_rows_channels (F : Fin 2048 → M) :
    ∑ b : Fin 64, ∑ ch : Fin 32, F ⟨32 * b.val + ch.val, by omega⟩ = ∑ row : Fin 2048, F row := by
  rw [← Equiv.sum_comp rowsChannelsEquiv F, Fintype.sum_prod_type]
  rfl

/-- The rows regrouped: `128·t + a` (16 tiles of 128 rows) and `32·b + ch` (64 × 32 pairs) both enumerate the 2048 rows. -/
theorem sum_rows_regroup (F : Fin 2048 → M) :
    ∑ t : Fin 16, ∑ a : Fin 128, F ⟨128 * t.val + a.val, by omega⟩
      = ∑ b : Fin 64, ∑ ch : Fin 32, F ⟨32 * b.val + ch.val, by omega⟩ :=
  (sum_rows_tiles F).trans (sum_rows_channels F).symm

/-- Tile sums along axis 1 add up to the whole array's sum along its axis 2. -/
theorem sum_tiles_x (δ : α → α → M) (A : SA.Idx → α) (X : SX.Idx → α)
    (hX : ∀ (b : Fin 64) (ch x y z : Fin 32), X (ix4 (⟨32 * b.val + ch.val, by omega⟩ : Fin 2048) x y z) = A (ix5 b ch x y z))
    (v : Fin 16 → ST.Idx → α)
    (hv : ∀ (t : Fin 16) (a : Fin 128) (x y z : Fin 32), v t (ix4 a x y z) = X (ix4 (⟨128 * t.val + a.val, by omega⟩ : Fin 2048) x y z)) :
    ∑ t : Fin 16, tileSumX δ (v t) = refSumX δ A := by
  unfold tileSumX refSumX
  -- both sides are the sum over all 2048 rows of the row's own neighbour sum
  refine Eq.trans ?_ ((sum_rows_regroup (fun r : Fin 2048 => ∑ x : Fin 31, ∑ y : Fin 32, ∑ z : Fin 32,
    δ (X (ix4 r (⟨x.val + 1, by omega⟩ : Fin 32) y z)) (X (ix4 r (⟨x.val, by omega⟩ : Fin 32) y z)))).trans ?_)
  · refine Finset.sum_congr rfl fun t _ => Finset.sum_congr rfl fun a _ => Finset.sum_congr rfl fun x _ =>
      Finset.sum_congr rfl fun y _ => Finset.sum_congr rfl fun z _ => ?_
    rw [hv, hv]
  · refine Finset.sum_congr rfl fun b _ => Finset.sum_congr rfl fun ch _ => Finset.sum_congr rfl fun x _ =>
      Finset.sum_congr rfl fun y _ => Finset.sum_congr rfl fun z _ => ?_
    rw [hX, hX]

/-- Tile sums along axis 2 add up to the whole array's sum along its axis 3. -/
theorem sum_tiles_y (δ : α → α → M) (A : SA.Idx → α) (X : SX.Idx → α)
    (hX : ∀ (b : Fin 64) (ch x y z : Fin 32), X (ix4 (⟨32 * b.val + ch.val, by omega⟩ : Fin 2048) x y z) = A (ix5 b ch x y z))
    (v : Fin 16 → ST.Idx → α)
    (hv : ∀ (t : Fin 16) (a : Fin 128) (x y z : Fin 32), v t (ix4 a x y z) = X (ix4 (⟨128 * t.val + a.val, by omega⟩ : Fin 2048) x y z)) :
    ∑ t : Fin 16, tileSumY δ (v t) = refSumY δ A := by
  unfold tileSumY refSumY
  -- both sides are the sum over all 2048 rows of the row's own neighbour sum
  refine Eq.trans ?_ ((sum_rows_regroup (fun r : Fin 2048 => ∑ x : Fin 32, ∑ y : Fin 31, ∑ z : Fin 32,
    δ (X (ix4 r x (⟨y.val + 1, by omega⟩ : Fin 32) z)) (X (ix4 r x (⟨y.val, by omega⟩ : Fin 32) z)))).trans ?_)
  · refine Finset.sum_congr rfl fun t _ => Finset.sum_congr rfl fun a _ => Finset.sum_congr rfl fun x _ =>
      Finset.sum_congr rfl fun y _ => Finset.sum_congr rfl fun z _ => ?_
    rw [hv, hv]
  · refine Finset.sum_congr rfl fun b _ => Finset.sum_congr rfl fun ch _ => Finset.sum_congr rfl fun x _ =>
      Finset.sum_congr rfl fun y _ => Finset.sum_congr rfl fun z _ => ?_
    rw [hX, hX]

/-- Tile sums along axis 3 add up to the whole array's sum along its axis 4. -/
theorem sum_tiles_z (δ : α → α → M) (A : SA.Idx → α) (X : SX.Idx → α)
    (hX : ∀ (b : Fin 64) (ch x y z : Fin 32), X (ix4 (⟨32 * b.val + ch.val, by omega⟩ : Fin 2048) x y z) = A (ix5 b ch x y z))
    (v : Fin 16 → ST.Idx → α)
    (hv : ∀ (t : Fin 16) (a : Fin 128) (x y z : Fin 32), v t (ix4 a x y z) = X (ix4 (⟨128 * t.val + a.val, by omega⟩ : Fin 2048) x y z)) :
    ∑ t : Fin 16, tileSumZ δ (v t) = refSumZ δ A := by
  unfold tileSumZ refSumZ
  -- both sides are the sum over all 2048 rows of the row's own neighbour sum
  refine Eq.trans ?_ ((sum_rows_regroup (fun r : Fin 2048 => ∑ x : Fin 32, ∑ y : Fin 32, ∑ z : Fin 31,
    δ (X (ix4 r x y (⟨z.val + 1, by omega⟩ : Fin 32))) (X (ix4 r x y (⟨z.val, by omega⟩ : Fin 32))))).trans ?_)
  · refine Finset.sum_congr rfl fun t _ => Finset.sum_congr rfl fun a _ => Finset.sum_congr rfl fun x _ =>
      Finset.sum_congr rfl fun y _ => Finset.sum_congr rfl fun z _ => ?_
    rw [hv, hv]
  · refine Finset.sum_congr rfl fun b _ => Finset.sum_congr rfl fun ch _ => Finset.sum_congr rfl fun x _ =>
      Finset.sum_congr rfl fun y _ => Finset.sum_congr rfl fun z _ => ?_
    rw [hX, hX]

end

/-- The array read row-major as [2048, 32, 32, 32]: row `32·b + ch` is `A[b, ch]`. -/
theorem rows_apply {α : Type} (A : SA.Idx → α) (h : SA.ShapeCasts SX) (b : Fin 64) (ch x y z : Fin 32) :
    shapeCast SX A h (ix4 (⟨32 * b.val + ch.val, by omega⟩ : Fin 2048) x y z) = A (ix5 b ch x y z) :=
  -- both indices sit at row-major position (((32·b + ch)·32 + x)·32 + y)·32 + z
  shapeCast_apply A h _ _ (by
    rw [Shape.rowMajor_val_five, Shape.rowMajor_val_four]
    show (((b.val * 32 + ch.val) * 32 + x.val) * 32 + y.val) * 32 + z.val
      = (((32 * b.val + ch.val) * 32 + x.val) * 32 + y.val) * 32 + z.val
    omega)

end Cert.Smooth

end
-- ==== Proof.KernelPay.lean ====
import proofs.«406312_j54666343744093_1_alg».proof.Proof.Gen.KernelIdeal.Skeleton
import proofs.«406312_j54666343744093_1_alg».proof.Proof.SmoothSum
import Idealize.ShloMosaic.PureOps.Ideal.Laws
import Idealize.ShloMosaic.Lib.ValueIdx
import Idealize.ShloMosaic.Lib.ValueLayout
import Idealize.ShloMosaic.Lib.Pipeline.Value

/-!
# What the kernel body adds to its three accumulators, over the extended reals

One run of the body on a tile `v` of shape [128, 32, 32, 32] adds to the first accumulator the sum of
`|v[a, x+1, y, z] − v[a, x, y, z]|` over the tile, to the second the same along the next axis, to the third along the
last axis; at the first tile the accumulators are first set to zero.
-/

noncomputable section

open scoped BigOperators
open Idealize.ShloMosaic Idealize.ShloMosaic.ValueIdx

namespace Cert.Smooth

open Cert.KernelIdeal Cert.KernelIdeal.Gen

/-- The lane sum. A rank-4 vector is given a leading unit axis, summed over its four other axes into a one-element
    vector, and the one element is read: the result is the fourfold sum of the vector over its coordinates. -/
private theorem laneSum_apply {n0 n1 n2 n3 : Nat} (w : FVec Ideal ⟨4, ![n0, n1, n2, n3]⟩ .f32)
    (h1 : (⟨4, ![n0, n1, n2, n3]⟩ : Shape).ShapeCasts ⟨5, ![1, n0, n1, n2, n3]⟩)
    (h2 : (⟨5, ![1, n0, n1, n2, n3]⟩ : Shape).Reduces [1, 2, 3, 4] S1)
    (hφ : FKind.Formats .f32) (hacc : (0x00000000#32 : BitVec FTy.f32.bits) = FKind.add.neutral .f32 hφ)
    (h3 : S1.ShapeCasts S1x1x1x1x1) (h4 : ∀ a, (![0, 0, 0, 0, 0] : Fin 5 → Nat) a < S1x1x1x1x1.size a) :
    extractAt ![0, 0, 0, 0, 0]
        (shapeCast S1x1x1x1x1
          (multiReduction (F := Ideal) .add [1, 2, 3, 4] S1 (shapeCast ⟨5, ![1, n0, n1, n2, n3]⟩ w h1) 0x00000000#32 h2 hφ hacc)
          h3) h4
      = ∑ a : Fin n0, ∑ b : Fin n1, ∑ c : Fin n2, ∑ d : Fin n3, w (ix4 a b c d) := by
  -- the one element of the reduction is the sum over every index of the rank-5 vector
  refine (Ideal.multiReduction_add_total (shapeCast ⟨5, ![1, n0, n1, n2, n3]⟩ w h1) _ h2
    (fun b => by match b with | ⟨0, _⟩ => rfl) hφ hacc _).trans ?_
  -- that sum, coordinate by coordinate; the leading coordinate takes the one value 0
  refine (sum_idx5 _).trans ?_
  rw [Fin.sum_univ_one]
  refine Finset.sum_congr rfl fun a _ => Finset.sum_congr rfl fun b _ => Finset.sum_congr rfl fun c _ =>
    Finset.sum_congr rfl fun d _ => ?_
  -- the vector with a leading unit axis reads (0, a, b, c, d) at (a, b, c, d)
  refine (shapeCast_addUnit_apply ![n0, n1, n2, n3] w h1 (ix5 (0 : Fin 1) a b c d)).trans (congrArg w ?_)
  funext e
  match e with
  | ⟨0, _⟩ => rfl
  | ⟨1, _⟩ => rfl
  | ⟨2, _⟩ => rfl
  | ⟨3, _⟩ => rfl

/-- The first accumulator's new value: the old one plus the tile's neighbour differences along axis 1. -/
theorem pay7_apply (v : ST.Idx → EReal) (acc : S1x1.Idx → EReal) (j : S1x1.Idx) :
    k0_pay7 (F := Ideal) v acc j = acc j + tileSumX dabs v := by
  unfold k0_pay7 k0_pay5
  dsimp only
  -- the old value plus the broadcast lane sum, read at the one index
  refine (addf_apply _ _ j).trans ?_
  rw [shapeCast_self, broadcast_apply, shapeCast_self]
  refine congrArg (acc j + ·) ?_
  refine (laneSum_apply _ _ _ _ _ _ _).trans ?_
  unfold tileSumX
  refine Finset.sum_congr rfl fun a _ => Finset.sum_congr rfl fun x _ => Finset.sum_congr rfl fun y _ =>
    Finset.sum_congr rfl fun z _ => ?_
  -- one entry: |v[a, x+1, y, z] − v[a, x, y, z]|
  have e1 := extractStridedSlice_apply ![0, 1, 0, 0] v slices_S128x32x32x32_o0_1_0_0_S128x31x32x32 (ix4 a x y z)
    (ix4 a (⟨x.val + 1, by omega⟩ : Fin 32) y z) (fun b => by
      match b with
      | ⟨0, _⟩ => show a.val = 0 + a.val; omega
      | ⟨1, _⟩ => show x.val + 1 = 1 + x.val; omega
      | ⟨2, _⟩ => show y.val = 0 + y.val; omega
      | ⟨3, _⟩ => show z.val = 0 + z.val; omega)
  have e0 := extractStridedSlice_apply ![0, 0, 0, 0] v slices_S128x32x32x32_o0_0_0_0_S128x31x32x32 (ix4 a x y z)
    (ix4 a (⟨x.val, by omega⟩ : Fin 32) y z) (fun b => by
      match b with
      | ⟨0, _⟩ => show a.val = 0 + a.val; omega
      | ⟨1, _⟩ => show x.val = 0 + x.val; omega
      | ⟨2, _⟩ => show y.val = 0 + y.val; omega
      | ⟨3, _⟩ => show z.val = 0 + z.val; omega)
  show max (extractStridedSlice S128x31x32x32 ![0, 1, 0, 0] v _ (ix4 a x y z)
      - extractStridedSlice S128x31x32x32 ![0, 0, 0, 0] v _ (ix4 a x y z)) (-(_ - _)) = _
  rw [e1, e0]
  rfl

/-- The second accumulator's new value: the old one plus the tile's neighbour differences along axis 2. -/
theorem pay8_apply (v : ST.Idx → EReal) (acc : S1x1.Idx → EReal) (j : S1x1.Idx) :
    k0_pay8 (F := Ideal) v acc j = acc j + tileSumY dabs v := by
  unfold k0_pay8 k0_pay5
  dsimp only
  -- the old value plus the broadcast lane sum, read at the one index
  refine (addf_apply _ _ j).trans ?_
  rw [shapeCast_self, broadcast_apply, shapeCast_self]
  refine congrArg (acc j + ·) ?_
  refine (laneSum_apply _ _ _ _ _ _ _).trans ?_
  unfold tileSumY
  refine Finset.sum_congr rfl fun a _ => Finset.sum_congr rfl fun x _ => Finset.sum_congr rfl fun y _ =>
    Finset.sum_congr rfl fun z _ => ?_
  -- one entry: |v[a, x, y+1, z] − v[a, x, y, z]|
  have e1 := extractStridedSlice_apply ![0, 0, 1, 0] v slices_S128x32x32x32_o0_0_1_0_S128x32x31x32 (ix4 a x y z)
    (ix4 a x (⟨y.val + 1, by omega⟩ : Fin 32) z) (fun b => by
      match b with
      | ⟨0, _⟩ => show a.val = 0 + a.val; omega
      | ⟨1, _⟩ => show x.val = 0 + x.val; omega
      | ⟨2, _⟩ => show y.val + 1 = 1 + y.val; omega
      | ⟨3, _⟩ => show z.val = 0 + z.val; omega)
  have e0 := extractStridedSlice_apply ![0, 0, 0, 0] v slices_S128x32x32x32_o0_0_0_0_S128x32x31x32 (ix4 a x y z)
    (ix4 a x (⟨y.val, by omega⟩ : Fin 32) z) (fun b => by
      match b with
      | ⟨0, _⟩ => show a.val = 0 + a.val; omega
      | ⟨1, _⟩ => show x.val = 0 + x.val; omega
      | ⟨2, _⟩ => show y.val = 0 + y.val; omega
      | ⟨3, _⟩ => show z.val = 0 + z.val; omega)
  show max (extractStridedSlice S128x32x31x32 ![0, 0, 1, 0] v _ (ix4 a x y z)
      - extractStridedSlice S128x32x31x32 ![0, 0, 0, 0] v _ (ix4 a x y z)) (-(_ - _)) = _
  rw [e1, e0]
  rfl

/-- The third accumulator's new value: the old one plus the tile's neighbour differences along axis 3. -/
theorem pay1_pay6_apply (v : ST.Idx → EReal) (acc : S1x1.Idx → EReal) (j : S1x1.Idx) :
    k0_pay1 (F := Ideal) (k0_pay6 (F := Ideal) v) acc j = acc j + tileSumZ dabs v := by
  unfold k0_pay1 k0_pay6 k0_pay5
  dsimp only
  -- the old value plus the broadcast lane sum, read at the one index
  refine (addf_apply _ _ j).trans ?_
  rw [shapeCast_self, broadcast_apply, shapeCast_self]
  refine congrArg (acc j + ·) ?_
  refine (laneSum_apply _ _ _ _ _ _ _).trans ?_
  unfold tileSumZ
  refine Finset.sum_congr rfl fun a _ => Finset.sum_congr rfl fun x _ => Finset.sum_congr rfl fun y _ =>
    Finset.sum_congr rfl fun z _ => ?_
  -- one entry: |v[a, x, y, z+1] − v[a, x, y, z]|
  have e1 := extractStridedSlice_apply ![0, 0, 0, 1] v slices_S128x32x32x32_o0_0_0_1_S128x32x32x31 (ix4 a x y z)
    (ix4 a x y (⟨z.val + 1, by omega⟩ : Fin 32)) (fun b => by
      match b with
      | ⟨0, _⟩ => show a.val = 0 + a.val; omega
      | ⟨1, _⟩ => show x.val = 0 + x.val; omega
      | ⟨2, _⟩ => show y.val = 0 + y.val; omega
      | ⟨3, _⟩ => show z.val + 1 = 1 + z.val; omega)
  have e0 := extractStridedSlice_apply ![0, 0, 0, 0] v slices_S128x32x32x32_o0_0_0_0_S128x32x32x31 (ix4 a x y z)
    (ix4 a x y (⟨z.val, by omega⟩ : Fin 32)) (fun b => by
      match b with
      | ⟨0, _⟩ => show a.val = 0 + a.val; omega
      | ⟨1, _⟩ => show x.val = 0 + x.val; omega
      | ⟨2, _⟩ => show y.val = 0 + y.val; omega
      | ⟨3, _⟩ => show z.val = 0 + z.val; omega)
  show max (extractStridedSlice S128x32x32x31 ![0, 0, 0, 1] v _ (ix4 a x y z)
      - extractStridedSlice S128x32x32x31 ![0, 0, 0, 0] v _ (ix4 a x y z)) (-(_ - _)) = _
  rw [e1, e0]
  rfl

/-- The value the accumulators are reset to is zero. -/
theorem pay2_apply (j : S1x1.Idx) : k0_pay2 (F := Ideal) j = 0 := by
  unfold k0_pay2
  exact Ideal.ofBits_zero_f32
theorem pay3_apply (j : S1x1.Idx) : k0_pay3 (F := Ideal) j = 0 := by
  unfold k0_pay3
  exact Ideal.ofBits_zero_f32
theorem pay4_apply (j : S1x1.Idx) : k0_pay4 (F := Ideal) j = 0 := by
  unfold k0_pay4
  exact Ideal.ofBits_zero_f32

end Cert.Smooth

end
-- ==== Proof.KernelOut.lean ====
import proofs.«406312_j54666343744093_1_alg».proof.Proof.Gen.KernelIdeal.Frame
import Idealize.ShloMosaic.Lib.Pipeline.Value
import Idealize.ShloMosaic.Lib.Tactic

/-!
# What one run of the kernel body leaves in the three accumulators

At the first tile the body sets each accumulator to zero, reads it back and stores the zero plus the tile's sum; at every
later tile it reads what the tile before left and stores that plus the tile's sum. Read back, each accumulator's buffer
holds the value of its last store (axes of the tile are counted from 0, so the three sums run along axes 1, 2, 3): that store covers the whole one-cell buffer, the tile it sums is the whole input
buffer read from offset zero, and the accumulator it adds to is either the zero just stored (first tile) or the
buffer's contents on entry (later tiles).
-/

noncomputable section

namespace Cert.KernelIdeal.Hand

open Cert.KernelIdeal Cert.KernelIdeal.Gen Idealize.ShloMosaic Idealize.ShloMosaic.TcCoe Idealize.ShloMosaic.Tactic Idealize.SL.Sem

variable {F : FTy → Type} [FloatOps F]

/-- The offset of an accumulator's one cell is the zero offset. -/
theorem hz : (![0, 0] : Fin 2 → Nat) = fun _ => 0 := funext fun a => by fin_cases a <;> rfl

/-- The offset the tile is read from is the zero offset. -/
theorem hz4 : (![0, 0, 0, 0] : Fin 4 → Nat) = fun _ => 0 := funext fun a => by fin_cases a <;> rfl

/-- First tile, first accumulator: the zero, then the tile's sum of absolute neighbour differences along axis 1 added. -/
theorem out_A_1 (c : Dev nD) (i : grid0.Coords) (arg1 : Memref sig .tc .vmem S128x32x32x32 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (hc0 : cond0_0 i) (x0 : Vec F S128x32x32x32 .f32) :
    out0_A_1 c i arg1 harg1 arg2 harg2 arg3 harg3 arg4 harg4 hc0 x0 = k0_pay7 x0 (k0_pay2 (F := F)) := by
  unfold out0_A_1
  rw [View.read_writes_eq_canon _ _ _ (cover0_A_1 c i arg1 harg1 arg2 harg2 arg3 harg3 arg4 harg4 hc0 x0)]
  unfold kernelRun0_A
  dsimp only
  sl_unfold_words
  rw [View.canon_cons_unit_zero (S := S1x1) hz, View.readCov_unit_zero (S := S1x1) _ hz]
  simp only [View.readAt_eq_ld, harg1.read_unread, View.ld_unit_zero (S := S128x32x32x32) hz4]

/-- First tile, second accumulator: the zero, then the tile's sum of absolute neighbour differences along axis 2 added. -/
theorem out_A_2 (c : Dev nD) (i : grid0.Coords) (arg1 : Memref sig .tc .vmem S128x32x32x32 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (hc0 : cond0_0 i) (x0 : Vec F S128x32x32x32 .f32) :
    out0_A_2 c i arg1 harg1 arg2 harg2 arg3 harg3 arg4 harg4 hc0 x0 = k0_pay8 x0 (k0_pay3 (F := F)) := by
  unfold out0_A_2
  rw [View.read_writes_eq_canon _ _ _ (cover0_A_2 c i arg1 harg1 arg2 harg2 arg3 harg3 arg4 harg4 hc0 x0)]
  unfold kernelRun0_A
  dsimp only
  sl_unfold_words
  rw [View.canon_cons_unit_zero (S := S1x1) hz, View.readCov_unit_zero (S := S1x1) _ hz]
  simp only [View.readAt_eq_ld, harg1.read_unread, View.ld_unit_zero (S := S128x32x32x32) hz4]

/-- First tile, third accumulator: the zero, then the tile's sum of absolute neighbour differences along axis 3 added. -/
theorem out_A_3 (c : Dev nD) (i : grid0.Coords) (arg1 : Memref sig .tc .vmem S128x32x32x32 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (hc0 : cond0_0 i) (x0 : Vec F S128x32x32x32 .f32) :
    out0_A_3 c i arg1 harg1 arg2 harg2 arg3 harg3 arg4 harg4 hc0 x0 = k0_pay1 (k0_pay6 x0) (k0_pay4 (F := F)) := by
  unfold out0_A_3
  rw [View.read_writes_eq_canon _ _ _ (cover0_A_3 c i arg1 harg1 arg2 harg2 arg3 harg3 arg4 harg4 hc0 x0)]
  unfold kernelRun0_A
  dsimp only
  sl_unfold_words
  rw [View.canon_cons_unit_zero (S := S1x1) hz, View.readCov_unit_zero (S := S1x1) _ hz]
  simp only [View.readAt_eq_ld, harg1.read_unread, View.ld_unit_zero (S := S128x32x32x32) hz4]

/-- A later tile, first accumulator: what the tile before left, plus the tile's sum of absolute neighbour differences along axis 1. -/
theorem out_B_1 (c : Dev nD) (i : grid0.Coords) (arg1 : Memref sig .tc .vmem S128x32x32x32 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (x0 : Vec F S128x32x32x32 .f32) (xo1 xo2 xo3 : Vec F S1x1 .f32) :
    out0_B_1 c i arg1 harg1 arg2 harg2 arg3 harg3 arg4 harg4 hc0 x0 xo1 xo2 xo3 = k0_pay7 x0 xo1 := by
  unfold out0_B_1
  rw [View.read_writes_eq_canon _ _ _ (cover0_B_1 c i arg1 harg1 arg2 harg2 arg3 harg3 arg4 harg4 hc0 x0 xo1 xo2 xo3)]
  unfold kernelRun0_B
  dsimp only
  sl_unfold_words
  rw [View.canon_unit_zero hz]
  simp only [View.readAt_eq_ld, harg1.read_unread, harg2.read_unread, harg3.read_unread, harg4.read_unread,
    View.ld_unit_zero (S := S128x32x32x32) hz4, View.ld_unit_zero (S := S1x1) hz]

/-- A later tile, second accumulator: what the tile before left, plus the tile's sum of absolute neighbour differences along axis 2. -/
theorem out_B_2 (c : Dev nD) (i : grid0.Coords) (arg1 : Memref sig .tc .vmem S128x32x32x32 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (x0 : Vec F S128x32x32x32 .f32) (xo1 xo2 xo3 : Vec F S1x1 .f32) :
    out0_B_2 c i arg1 harg1 arg2 harg2 arg3 harg3 arg4 harg4 hc0 x0 xo1 xo2 xo3 = k0_pay8 x0 xo2 := by
  unfold out0_B_2
  rw [View.read_writes_eq_canon _ _ _ (cover0_B_2 c i arg1 harg1 arg2 harg2 arg3 harg3 arg4 harg4 hc0 x0 xo1 xo2 xo3)]
  unfold kernelRun0_B
  dsimp only
  sl_unfold_words
  rw [View.canon_unit_zero hz]
  simp only [View.readAt_eq_ld, harg1.read_unread, harg2.read_unread, harg3.read_unread, harg4.read_unread,
    View.ld_unit_zero (S := S128x32x32x32) hz4, View.ld_unit_zero (S := S1x1) hz]

/-- A later tile, third accumulator: what the tile before left, plus the tile's sum of absolute neighbour differences along axis 3. -/
theorem out_B_3 (c : Dev nD) (i : grid0.Coords) (arg1 : Memref sig .tc .vmem S128x32x32x32 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (x0 : Vec F S128x32x32x32 .f32) (xo1 xo2 xo3 : Vec F S1x1 .f32) :
    out0_B_3 c i arg1 harg1 arg2 harg2 arg3 harg3 arg4 harg4 hc0 x0 xo1 xo2 xo3 = k0_pay1 (k0_pay6 x0) xo3 := by
  unfold out0_B_3
  rw [View.read_writes_eq_canon _ _ _ (cover0_B_3 c i arg1 harg1 arg2 harg2 arg3 harg3 arg4 harg4 hc0 x0 xo1 xo2 xo3)]
  unfold kernelRun0_B
  dsimp only
  sl_unfold_words
  rw [View.canon_unit_zero hz]
  simp only [View.readAt_eq_ld, harg1.read_unread, harg2.read_unread, harg3.read_unread, harg4.read_unread,
    View.ld_unit_zero (S := S128x32x32x32) hz4, View.ld_unit_zero (S := S1x1) hz]

end Cert.KernelIdeal.Hand

end
-- ==== Proof.KernelBlk.lean ====
import proofs.«406312_j54666343744093_1_alg».proof.Proof.Gen.KernelIdeal.Frame
import Idealize.ShloMosaic.Lib.Pipeline.Value
import Idealize.ShloMosaic.Lib.ValueIdx
import Idealize.ShloMosaic.Lib.StableHlo.Run

/-!
# The kernel's tiles and its three result arrays

The kernel's input array is the float argument read row-major as [2048, 32, 32, 32]; tile `t` of the grid is its rows
`128·t … 128·t + 127`. Each of the three [1, 1] result arrays is written back once, after the last tile, with what the
body left in its accumulator there.
-/

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- A run of host operations ending in `op` leaves what `op` makes of what the earlier ones leave. -/
theorem after_snoc (l : List (HloOp τ sig (Elt F))) (op : HloOp τ sig (Elt F)) (W : Valuation τ sig (Elt F)) :
    StableHlo.after (l ++ [op]) W = op.result (StableHlo.after l W) := by
  rw [StableHlo.after_append, StableHlo.after_cons, StableHlo.after_nil]

/-- Seven stretches, the last ending in `x`, laid end to end: the seven without `x`, then `x`. -/
theorem flatten7_snoc {α : Type _} (a b c d e f g : List α) (x : α) :
    List.flatten [a, b, c, d, e, f, g ++ [x]] = List.flatten [a, b, c, d, e, f, g] ++ [x] := by
  simp only [List.flatten_cons, List.flatten_nil, List.append_nil, List.append_assoc]

/-- The last host operation before the region: the float argument reshaped to [2048, 32, 32, 32]. -/
def lastOp : HloOp τ sig (Elt F) :=
  StableHlo.reshape main_arg1 main_v87 rfl shapeCasts_S64x32x32x32x32_S2048x32x32x32

/-- The last stretch of host operations before the region, without its last operation. -/
def pre6 : List (HloOp τ sig (Elt F)) := (hostOps0_6 (F := F)).dropLast

/-- The buffers' contents before that last operation. -/
def before87 (c : Dev nD) : Valuation τ sig (Elt F) :=
  StableHlo.after (List.flatten [hostOps0, hostOps0_1, hostOps0_2, hostOps0_3, hostOps0_4, hostOps0_5, pre6]) (fun b => m (c, b))

/-- The last grid point. -/
theorem lt15 : 15 < cfg0.N := by rw [show cfg0.N = 16 from N_0]; decide

/-- The region finds its input array at the float argument reshaped. -/
theorem V_v87 (c : Dev nD) :
    (V m c main_v87 : Vec F S2048x32x32x32 .f32)
      = shapeCast S2048x32x32x32 (m ((c : Thread nD τ).loc main_arg1)) shapeCasts_S64x32x32x32x32_S2048x32x32x32 := by
  have h6 : (hostOps0_6 : List (HloOp τ sig (Elt F))) = pre6 ++ [lastOp] := rfl
  have hV : V0 m c = (lastOp (F := F)).result (before87 m c) := by
    show StableHlo.after (List.flatten [hostOps0, hostOps0_1, hostOps0_2, hostOps0_3, hostOps0_4, hostOps0_5, hostOps0_6]) (fun b => m (c, b)) = _
    rw [congrArg (fun l => List.flatten [hostOps0, hostOps0_1, hostOps0_2, hostOps0_3, hostOps0_4, hostOps0_5, l]) h6,
      flatten7_snoc, after_snoc]
    rfl
  have harg : before87 m c (Proc.devRef .tc main_arg1) = m ((c : Thread nD τ).loc main_arg1) := by
    have hne : (lastOp (F := F)).result (before87 m c) (Proc.devRef .tc main_arg1) = before87 m c (Proc.devRef .tc main_arg1) :=
      StableHlo.reshape_result_ne (x := main_arg1) (y := main_v87) rfl shapeCasts_S64x32x32x32x32_S2048x32x32x32 _ _
        (before87 m c) (r := main_arg1) (by decide)
    rw [← hne, ← hV]
    exact V_main_arg1 m c
  show V0 m c (Proc.devRef .tc main_v87) = _
  rw [hV]
  unfold lastOp
  rw [StableHlo.reshape_result, harg]
  rfl

/-- Tile `t` at (a, x, y, z) is the input array at row `128·t + a`. -/
theorem iblk_apply (c : Dev nD) (t : Fin cfg0.N) (a : Fin 128) (x y z : Fin 32) :
    (iblk m c 0 t : Vec F S128x32x32x32 .f32) (ix4 a x y z)
      = (V m c main_v87 : Vec F S2048x32x32x32 .f32)
          (ix4 (⟨128 * t.val + a.val, by have h : t.val < 16 := lt_of_lt_of_eq t.isLt (show cfg0.N = 16 from N_0); have := a.isLt; omega⟩ : Fin 2048) x y z) := by
  have hi : win0_0.index t 0 = t.val ∧ win0_0.index t 1 = 0 ∧ win0_0.index t 2 = 0 ∧ win0_0.index t 3 = 0 :=
    (by decide +kernel : ∀ t : Fin grid0.N,
      win0_0.index t 0 = t.val ∧ win0_0.index t 1 = 0 ∧ win0_0.index t 2 = 0 ∧ win0_0.index t 3 = 0) t
  unfold iblk
  rw [View.read_apply]
  show (V m c main_v87 : Vec F S2048x32x32x32 .f32) _ = _
  refine congrArg (V m c main_v87 : Vec F S2048x32x32x32 .f32) ?_
  funext k
  apply Fin.ext
  match k with
  | ⟨0, _⟩ => show win0_0.index t 0 * 128 + 1 * a.val = 128 * t.val + a.val; rw [hi.1]; omega
  | ⟨1, _⟩ => show win0_0.index t 1 * 32 + 1 * x.val = x.val; rw [hi.2.1]; omega
  | ⟨2, _⟩ => show win0_0.index t 2 * 32 + 1 * y.val = y.val; rw [hi.2.2.1]; omega
  | ⟨3, _⟩ => show win0_0.index t 3 * 32 + 1 * z.val = z.val; rw [hi.2.2.2]; omega

/-- The first result array ends at what the body left in its accumulator after the last tile. -/
theorem arr1_last (c : Dev nD) :
    ((dats m 0 c).arrAt 1 cfg0.N : Vec F S1x1 .f32) = (outsAt0 m c 15 lt15).1 := by
  refine (dats m 0 c).arrAt_eq_of_cover 1 ((outsAt0 m c 15 lt15).1) (fun t hf => ?_)
    (fun i => ⟨t0_15, (flush0_1 t0_15).mpr rfl, ?_⟩)
  · have hN : cfg0.N = 16 := N_0
    have h15 : t.val = 15 := by have := (flush0_1 t).mp hf; have := t.isLt; omega
    obtain rfl : t = t0_15 := Fin.ext h15
    show (cfg0.win 1).cut (grid0.coords t0_15) ((dats m 0 c).after 1 t0_15) = _
    rw [after0_1]
    have hz' : (fun a => win0_1.index t0_15 a * main_v88_0.ty.shape.size a) = fun _ => 0 :=
      funext fun a => by fin_cases a <;> decide
    exact (Memref.read_access_unit_zero (Elt F) main_v88_0 hz' (fun a => by rw [congrFun hz' a]; simp)
      ((outsAt0 m c 15 lt15).1)).symm
  · show i ∈ ((View.whole main_v88_0).slice (win0_1.rect t0_15)).set
    rw [View.set_slice_whole, Rect.mem_set_unit]
    intro a
    have h0 : (i 0 : Nat) < 1 := (i 0).isLt
    have h1 : (i 1 : Nat) < 1 := (i 1).isLt
    match a with
    | ⟨0, _⟩ =>
      show win0_1.index t0_15 0 * win0_1.size 0 ≤ (i 0 : Nat)
        ∧ (i 0 : Nat) < win0_1.index t0_15 0 * win0_1.size 0 + win0_1.xsize (grid0.coords t0_15) 0
      rw [show win0_1.index t0_15 0 * win0_1.size 0 = 0 from by decide +kernel,
        show win0_1.xsize (grid0.coords t0_15) 0 = 1 from by decide +kernel]; omega
    | ⟨1, _⟩ =>
      show win0_1.index t0_15 1 * win0_1.size 1 ≤ (i 1 : Nat)
        ∧ (i 1 : Nat) < win0_1.index t0_15 1 * win0_1.size 1 + win0_1.xsize (grid0.coords t0_15) 1
      rw [show win0_1.index t0_15 1 * win0_1.size 1 = 0 from by decide +kernel,
        show win0_1.xsize (grid0.coords t0_15) 1 = 1 from by decide +kernel]; omega

/-- The second result array likewise. -/
theorem arr2_last (c : Dev nD) :
    ((dats m 0 c).arrAt 2 cfg0.N : Vec F S1x1 .f32) = (outsAt0 m c 15 lt15).2.1 := by
  refine (dats m 0 c).arrAt_eq_of_cover 2 ((outsAt0 m c 15 lt15).2.1) (fun t hf => ?_)
    (fun i => ⟨t0_15, (flush0_2 t0_15).mpr rfl, ?_⟩)
  · have hN : cfg0.N = 16 := N_0
    have h15 : t.val = 15 := by have := (flush0_2 t).mp hf; have := t.isLt; omega
    obtain rfl : t = t0_15 := Fin.ext h15
    show (cfg0.win 2).cut (grid0.coords t0_15) ((dats m 0 c).after 2 t0_15) = _
    rw [after0_2]
    have hz' : (fun a => win0_2.index t0_15 a * main_v88_1.ty.shape.size a) = fun _ => 0 :=
      funext fun a => by fin_cases a <;> decide
    exact (Memref.read_access_unit_zero (Elt F) main_v88_1 hz' (fun a => by rw [congrFun hz' a]; simp)
      ((outsAt0 m c 15 lt15).2.1)).symm
  · show i ∈ ((View.whole main_v88_1).slice (win0_2.rect t0_15)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index t0_15 0 * win0_2.size 0 ≤ (i 0 : Nat)
        ∧ (i 0 : Nat) < win0_2.index t0_15 0 * win0_2.size 0 + win0_2.xsize (grid0.coords t0_15) 0
      rw [show win0_2.index t0_15 0 * win0_2.size 0 = 0 from by decide +kernel,
        show win0_2.xsize (grid0.coords t0_15) 0 = 1 from by decide +kernel]; omega
    | ⟨1, _⟩ =>
      show win0_2.index t0_15 1 * win0_2.size 1 ≤ (i 1 : Nat)
        ∧ (i 1 : Nat) < win0_2.index t0_15 1 * win0_2.size 1 + win0_2.xsize (grid0.coords t0_15) 1
      rw [show win0_2.index t0_15 1 * win0_2.size 1 = 0 from by decide +kernel,
        show win0_2.xsize (grid0.coords t0_15) 1 = 1 from by decide +kernel]; omega

/-- The third result array likewise. -/
theorem arr3_last (c : Dev nD) :
    ((dats m 0 c).arrAt 3 cfg0.N : Vec F S1x1 .f32) = (outsAt0 m c 15 lt15).2.2 := by
  refine (dats m 0 c).arrAt_eq_of_cover 3 ((outsAt0 m c 15 lt15).2.2) (fun t hf => ?_)
    (fun i => ⟨t0_15, (flush0_3 t0_15).mpr rfl, ?_⟩)
  · have hN : cfg0.N = 16 := N_0
    have h15 : t.val = 15 := by have := (flush0_3 t).mp hf; have := t.isLt; omega
    obtain rfl : t = t0_15 := Fin.ext h15
    show (cfg0.win 3).cut (grid0.coords t0_15) ((dats m 0 c).after 3 t0_15) = _
    rw [after0_3]
    have hz' : (fun a => win0_3.index t0_15 a * main_v88_2.ty.shape.size a) = fun _ => 0 :=
      funext fun a => by fin_cases a <;> decide
    exact (Memref.read_access_unit_zero (Elt F) main_v88_2 hz' (fun a => by rw [congrFun hz' a]; simp)
      ((outsAt0 m c 15 lt15).2.2)).symm
  · show i ∈ ((View.whole main_v88_2).slice (win0_3.rect t0_15)).set
    rw [View.set_slice_whole, Rect.mem_set_unit]
    intro a
    have h0 : (i 0 : Nat) < 1 := (i 0).isLt
    have h1 : (i 1 : Nat) < 1 := (i 1).isLt
    match a with
    | ⟨0, _⟩ =>
      show win0_3.index t0_15 0 * win0_3.size 0 ≤ (i 0 : Nat)
        ∧ (i 0 : Nat) < win0_3.index t0_15 0 * win0_3.size 0 + win0_3.xsize (grid0.coords t0_15) 0
      rw [show win0_3.index t0_15 0 * win0_3.size 0 = 0 from by decide +kernel,
        show win0_3.xsize (grid0.coords t0_15) 0 = 1 from by decide +kernel]; omega
    | ⟨1, _⟩ =>
      show win0_3.index t0_15 1 * win0_3.size 1 ≤ (i 1 : Nat)
        ∧ (i 1 : Nat) < win0_3.index t0_15 1 * win0_3.size 1 + win0_3.xsize (grid0.coords t0_15) 1
      rw [show win0_3.index t0_15 1 * win0_3.size 1 = 0 from by decide +kernel,
        show win0_3.xsize (grid0.coords t0_15) 1 = 1 from by decide +kernel]; omega

end Cert.KernelIdeal.Hand

end
-- ==== Proof.KernelAcc.lean ====
import proofs.«406312_j54666343744093_1_alg».proof.Proof.KernelPay
import proofs.«406312_j54666343744093_1_alg».proof.Proof.KernelOut
import proofs.«406312_j54666343744093_1_alg».proof.Proof.KernelBlk
import proofs.«406312_j54666343744093_1_alg».proof.Proof.SmoothSum

/-!
# The three result arrays of the kernel, over the extended reals

After tile `n` each accumulator holds the sum, over the tiles `0 … n`, of the tile's neighbour differences along its axis:
the first tile starts from zero and every later tile adds to what the tile before left. After the last tile that is the
sum over all sixteen tiles, which is the whole array's neighbour-difference sum; and that is what each result array ends
holding.
-/

noncomputable section

open scoped BigOperators

namespace Cert.KernelIdeal.Hand

open Cert.KernelIdeal Cert.KernelIdeal.Gen Cert.Smooth Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Tile `t` of the input array, as a function on [128, 32, 32, 32]. -/
abbrev tile (c : Dev nD) (t : Fin cfg0.N) : ST.Idx → EReal := iblk (F := Ideal) m c 0 t

/-- The neighbour-difference sums of tile `k` (zero past the grid). -/
def tsx (c : Dev nD) (k : ℕ) : EReal := if h : k < cfg0.N then tileSumX dabs (tile m c ⟨k, h⟩) else 0
def tsy (c : Dev nD) (k : ℕ) : EReal := if h : k < cfg0.N then tileSumY dabs (tile m c ⟨k, h⟩) else 0
def tsz (c : Dev nD) (k : ℕ) : EReal := if h : k < cfg0.N then tileSumZ dabs (tile m c ⟨k, h⟩) else 0

/-- At the first tile the accumulators end at zero plus the tile's sums. -/
theorem outs_first (c : Dev nD) (t : Fin cfg0.N) (h0 : t.val % 16 = 0) :
    outsAt0 (F := Ideal) m c t.val t.isLt
      = ((fun _ => 0 + tileSumX dabs (tile m c t) : S1x1.Idx → EReal), (fun _ => 0 + tileSumY dabs (tile m c t) : S1x1.Idx → EReal),
          (fun _ => 0 + tileSumZ dabs (tile m c t) : S1x1.Idx → EReal)) := by
  rw [outsAt0_A m c t h0]
  refine Prod.ext (funext fun j => ?_) (Prod.ext (funext fun j => ?_) (funext fun j => ?_))
  · dsimp only
    exact (congrFun (out_A_1 (F := Ideal) c (grid0.coords t) (ms0_0 t) (hs0_0 t) (ms0_1 t) (hs0_1 t) (ms0_2 t) (hs0_2 t) (ms0_3 t) (hs0_3 t)
      ((hcond0_0 t).mpr h0) (iblk m c 0 t)) j).trans
      ((pay7_apply (tile m c t) (k0_pay2 (F := Ideal)) j).trans (by rw [pay2_apply]))
  · dsimp only
    exact (congrFun (out_A_2 (F := Ideal) c (grid0.coords t) (ms0_0 t) (hs0_0 t) (ms0_1 t) (hs0_1 t) (ms0_2 t) (hs0_2 t) (ms0_3 t) (hs0_3 t)
      ((hcond0_0 t).mpr h0) (iblk m c 0 t)) j).trans
      ((pay8_apply (tile m c t) (k0_pay3 (F := Ideal)) j).trans (by rw [pay3_apply]))
  · dsimp only
    exact (congrFun (out_A_3 (F := Ideal) c (grid0.coords t) (ms0_0 t) (hs0_0 t) (ms0_1 t) (hs0_1 t) (ms0_2 t) (hs0_2 t) (ms0_3 t) (hs0_3 t)
      ((hcond0_0 t).mpr h0) (iblk m c 0 t)) j).trans
      ((pay1_pay6_apply (tile m c t) (k0_pay4 (F := Ideal)) j).trans (by rw [pay4_apply]))

/-- At a later tile each accumulator ends at what the tile before left plus the tile's sum. -/
theorem outs_later (c : Dev nD) (t : Fin cfg0.N) (h0 : ¬t.val % 16 = 0) :
    outsAt0 (F := Ideal) m c t.val t.isLt
      = ((fun j => (outsAt0 (F := Ideal) m c (t.val - 1) (Nat.lt_of_le_of_lt (Nat.sub_le _ _) t.isLt)).1 j + tileSumX dabs (tile m c t) : S1x1.Idx → EReal),
          (fun j => (outsAt0 (F := Ideal) m c (t.val - 1) (Nat.lt_of_le_of_lt (Nat.sub_le _ _) t.isLt)).2.1 j + tileSumY dabs (tile m c t) : S1x1.Idx → EReal),
          (fun j => (outsAt0 (F := Ideal) m c (t.val - 1) (Nat.lt_of_le_of_lt (Nat.sub_le _ _) t.isLt)).2.2 j + tileSumZ dabs (tile m c t) : S1x1.Idx → EReal)) := by
  rw [outsAt0_B m c t h0]
  refine Prod.ext (funext fun j => ?_) (Prod.ext (funext fun j => ?_) (funext fun j => ?_))
  · dsimp only
    exact (congrFun (out_B_1 (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2) j).trans
      (pay7_apply (tile m c t) _ j)
  · dsimp only
    exact (congrFun (out_B_2 (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2) j).trans
      (pay8_apply (tile m c t) _ j)
  · dsimp only
    exact (congrFun (out_B_3 (F := Ideal) c (grid0.coords t) (ms0_0 t) (hs0_0 t) (ms0_1 t) (hs0_1 t) (ms0_2 t) (hs0_2 t) (ms0_3 t) (hs0_3 t)
      (fun h => h0 ((hcond0_0 t).mp h)) (iblk m c 0 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2) j).trans
      (pay1_pay6_apply (tile m c t) _ j)

/-- After tile `n` the accumulators hold the sums of the tiles `0 … n`. -/
theorem outs_eq (c : Dev nD) : ∀ (n : ℕ) (h : n < cfg0.N),
    outsAt0 (F := Ideal) m c n h
      = ((fun _ => ∑ k ∈ Finset.range (n + 1), tsx m c k : S1x1.Idx → EReal), (fun _ => ∑ k ∈ Finset.range (n + 1), tsy m c k : S1x1.Idx → EReal),
          (fun _ => ∑ k ∈ Finset.range (n + 1), tsz m c k : S1x1.Idx → EReal))
  | 0, h => by
    rw [outs_first m c ⟨0, h⟩ rfl]
    simp only [Finset.sum_range_one, tsx, tsy, tsz, dif_pos h, zero_add]
  | n + 1, h => by
    have hN : n + 1 < 16 := lt_of_lt_of_eq h (show cfg0.N = 16 from N_0)
    have hB : ¬(⟨n + 1, h⟩ : Fin cfg0.N).val % 16 = 0 := by dsimp only; omega
    rw [outs_later m c ⟨n + 1, h⟩ hB]
    have ih := outs_eq c n (Nat.lt_of_succ_lt h)
    have e : outsAt0 (F := Ideal) m c ((⟨n + 1, h⟩ : Fin cfg0.N).val - 1) (Nat.lt_of_le_of_lt (Nat.sub_le _ _) (⟨n + 1, h⟩ : Fin cfg0.N).isLt)
        = outsAt0 (F := Ideal) m c n (Nat.lt_of_succ_lt h) := rfl
    rw [e, ih]
    simp only [Finset.sum_range_succ _ (n + 1), tsx, tsy, tsz, dif_pos h]

/-- The sum over the sixteen tiles, as a sum over `Fin 16`. -/
theorem sum_tsx (c : Dev nD) :
    ∑ k ∈ Finset.range (15 + 1), tsx m c k = ∑ t : Fin 16, tileSumX dabs (tile m c (Fin.cast N_0.symm t)) := by
  rw [Finset.sum_range]
  refine Finset.sum_congr rfl fun t _ => ?_
  have ht : t.val < cfg0.N := lt_of_lt_of_eq t.isLt N_0.symm
  rw [tsx, dif_pos ht]
  rfl
theorem sum_tsy (c : Dev nD) :
    ∑ k ∈ Finset.range (15 + 1), tsy m c k = ∑ t : Fin 16, tileSumY dabs (tile m c (Fin.cast N_0.symm t)) := by
  rw [Finset.sum_range]
  refine Finset.sum_congr rfl fun t _ => ?_
  have ht : t.val < cfg0.N := lt_of_lt_of_eq t.isLt N_0.symm
  rw [tsy, dif_pos ht]
  rfl
theorem sum_tsz (c : Dev nD) :
    ∑ k ∈ Finset.range (15 + 1), tsz m c k = ∑ t : Fin 16, tileSumZ dabs (tile m c (Fin.cast N_0.symm t)) := by
  rw [Finset.sum_range]
  refine Finset.sum_congr rfl fun t _ => ?_
  have ht : t.val < cfg0.N := lt_of_lt_of_eq t.isLt N_0.symm
  rw [tsz, dif_pos ht]
  rfl

/-- The float argument, as a function on [64, 32, 32, 32, 32]. -/
abbrev argA (c : Dev nD) : SA.Idx → EReal := m ((c : Thread nD τ).loc main_arg1)
/-- The input array as the region finds it, as a function on [2048, 32, 32, 32]. -/
abbrev rowsX (c : Dev nD) : SX.Idx → EReal := V (F := Ideal) m c main_v87

/-- Row `32·b + ch` of the input array is `A[b, ch]`. -/
theorem rowsX_apply (c : Dev nD) (b : Fin 64) (ch x y z : Fin 32) :
    rowsX m c (ix4 (⟨32 * b.val + ch.val, by omega⟩ : Fin 2048) x y z) = argA m c (ix5 b ch x y z) := by
  have e : rowsX m c = shapeCast SX (argA m c) shapeCasts_S64x32x32x32x32_S2048x32x32x32 := V_v87 m c
  rw [e]
  exact rows_apply (argA m c) shapeCasts_S64x32x32x32x32_S2048x32x32x32 b ch x y z

/-- Tile `t` at (a, x, y, z) is the input array at row `128·t + a`. -/
theorem tile_apply (c : Dev nD) (t : Fin 16) (a : Fin 128) (x y z : Fin 32) :
    tile m c (Fin.cast N_0.symm t) (ix4 a x y z) = rowsX m c (ix4 (⟨128 * t.val + a.val, by omega⟩ : Fin 2048) x y z) :=
  iblk_apply m c (Fin.cast N_0.symm t) a x y z

/-- The first result array ends at the whole array's neighbour-difference sum along its axis 2. -/
theorem arr1_final (c : Dev nD) :
    ((dats m 0 c).arrAt 1 cfg0.N : Vec Ideal S1x1 .f32) = fun _ => refSumX dabs (argA m c) := by
  rw [arr1_last m c, outs_eq m c 15 lt15]
  funext _
  dsimp only
  rw [sum_tsx]
  exact sum_tiles_x dabs (argA m c) (rowsX m c) (rowsX_apply m c) (fun t => tile m c (Fin.cast N_0.symm t)) (tile_apply m c)

/-- The second result array: along axis 3. -/
theorem arr2_final (c : Dev nD) :
    ((dats m 0 c).arrAt 2 cfg0.N : Vec Ideal S1x1 .f32) = fun _ => refSumY dabs (argA m c) := by
  rw [arr2_last m c, outs_eq m c 15 lt15]
  funext _
  dsimp only
  rw [sum_tsy]
  exact sum_tiles_y dabs (argA m c) (rowsX m c) (rowsX_apply m c) (fun t => tile m c (Fin.cast N_0.symm t)) (tile_apply m c)

/-- The third result array: along axis 4. -/
theorem arr3_final (c : Dev nD) :
    ((dats m 0 c).arrAt 3 cfg0.N : Vec Ideal S1x1 .f32) = fun _ => refSumZ dabs (argA m c) := by
  rw [arr3_last m c, outs_eq m c 15 lt15]
  funext _
  dsimp only
  rw [sum_tsz]
  exact sum_tiles_z dabs (argA m c) (rowsX m c) (rowsX_apply m c) (fun t => tile m c (Fin.cast N_0.symm t)) (tile_apply m c)

end Cert.KernelIdeal.Hand

end
-- ==== Proof.Tail.lean ====
import Idealize.ShloMosaic.PureOps.Ideal
import Idealize.ShloMosaic.PureOps.Vector

/-!
# The last host operations, as two functions

Both programs end with the same arithmetic on scalars: the three neighbour-difference sums are divided by the number
of neighbouring pairs, added and divided by three (the smoothness loss), and the four losses are combined with the
weights one half, three tenths, one tenth and one fifth.
-/

noncomputable section

open Idealize.ShloMosaic

namespace Cert.Tail

/-- The shape of a scalar. -/
abbrev Sc : Shape := ⟨0, ![]⟩

/-- The smoothness loss from the three sums: each divided by the number of neighbouring pairs 2048·31·32·32, the three
    means added, the result divided by three. -/
def smooth (sx sy sz : FVec Ideal Sc .f32) : FVec Ideal Sc .f32 :=
  Host.divf (addf (addf (Host.divf sx (constant (F := Ideal) Sc .f32 0x4C780000#32)) (Host.divf sy (constant (F := Ideal) Sc .f32 0x4C780000#32)))
    (Host.divf sz (constant (F := Ideal) Sc .f32 0x4C780000#32))) (constant (F := Ideal) Sc .f32 0x40400000#32)

/-- The weighted total of the four losses. -/
def total (conn patch sm supp : FVec Ideal Sc .f32) : FVec Ideal Sc .f32 :=
  addf (addf (addf (mulf (constant (F := Ideal) Sc .f32 0x3F000000#32) conn) (mulf (constant (F := Ideal) Sc .f32 0x3E99999A#32) patch))
    (mulf (constant (F := Ideal) Sc .f32 0x3DCCCCCD#32) sm)) (mulf (constant (F := Ideal) Sc .f32 0x3E4CCCCD#32) supp)

end Cert.Tail

end
-- ==== Proof.KernelRun.lean ====
import proofs.«406312_j54666343744093_1_alg».proof.Proof.Gen.KernelIdeal.Frame
import proofs.«406312_j54666343744093_1_alg».proof.Proof.KernelAcc
import proofs.«406312_j54666343744093_1_alg».proof.Proof.Tail
import Idealize.ShloMosaic.Lib.StableHlo.Run
import Idealize.ShloMosaic.PureOps.Ideal

/-!
# The kernel program's five results, over the extended reals

Every execution of the kernel's program ends with: the three losses of the integer array at what the host operations
before the region computed; the smoothness loss at the mean of the three neighbour-difference sums of the float
argument (the region's three result arrays, divided and averaged by the host operations after it); the total at the
weighted sum of the four; both arguments unchanged.
-/

set_option maxHeartbeats 4000000
set_option maxRecDepth 65536

noncomputable section

namespace Cert.KernelIdeal.Hand

open Cert.KernelIdeal Cert.KernelIdeal.Gen Cert.Smooth Idealize.ShloMosaic Idealize.ShloMosaic.TcCoe Idealize.SL.Sem Idealize.ShloMosaic.StableHlo
open Idealize.ShloMosaic.Pipeline (Dat)

/-- The host operations after the region, from any contents `W`: the total. -/
theorem tail_total (W : Valuation τ sig (Elt Ideal)) :
    after (hostOps1 (F := Ideal)) W (Proc.devRef .tc main_v104)
      = Cert.Tail.total (W (Proc.devRef .tc main_v25)) (W (Proc.devRef .tc main_v68))
          (Cert.Tail.smooth (shapeCast S_ (W (Proc.devRef .tc main_v88_0)) shapeCasts_S1x1_S_) (shapeCast S_ (W (Proc.devRef .tc main_v88_1)) shapeCasts_S1x1_S_)
            (shapeCast S_ (W (Proc.devRef .tc main_v88_2)) shapeCasts_S1x1_S_))
          (W (Proc.devRef .tc main_v86)) := by
  after_results_simp
  rfl

/-- The host operations after the region, from any contents `W`: the smoothness loss. -/
theorem tail_smooth (W : Valuation τ sig (Elt Ideal)) :
    after (hostOps1 (F := Ideal)) W (Proc.devRef .tc main_v97)
      = Cert.Tail.smooth (shapeCast S_ (W (Proc.devRef .tc main_v88_0)) shapeCasts_S1x1_S_) (shapeCast S_ (W (Proc.devRef .tc main_v88_1)) shapeCasts_S1x1_S_)
            (shapeCast S_ (W (Proc.devRef .tc main_v88_2)) shapeCasts_S1x1_S_) := by
  after_results_simp
  rfl

/-- They write none of the three losses computed before the region. -/
theorem tail_v25 (W : Valuation τ sig (Elt Ideal)) :
    after (hostOps1 (F := Ideal)) W (Proc.devRef .tc main_v25) = W (Proc.devRef .tc main_v25) := by
  after_results_simp
theorem tail_v68 (W : Valuation τ sig (Elt Ideal)) :
    after (hostOps1 (F := Ideal)) W (Proc.devRef .tc main_v68) = W (Proc.devRef .tc main_v68) := by
  after_results_simp
theorem tail_v86 (W : Valuation τ sig (Elt Ideal)) :
    after (hostOps1 (F := Ideal)) W (Proc.devRef .tc main_v86) = W (Proc.devRef .tc main_v86) := by
  after_results_simp

variable (m : (ℓ : Loc nD τ sig) → Buf (Elt Ideal) ℓ) (ρ : Dev nD → PrngReg)

/-- The smoothness loss of the float argument. -/
def smoothK (c : Dev nD) : FVec Ideal S_ .f32 :=
  Cert.Tail.smooth (fun _ => refSumX dabs (argA m c)) (fun _ => refSumY dabs (argA m c)) (fun _ => refSumZ dabs (argA m c))

/-- The region's exit contents: the three result arrays at `A`, every other buffer as the region found it. -/
theorem exit_vals (c : Dev nD) (A : (w : Fin cfg0.W) → Buf (Elt Ideal) ((spec0 w).arr.view.loc (c.tc : Thread nD τ))) :
    Pipeline.withArrays spec0 c (V0 m c) A (Proc.devRef .tc main_v25) = V m c main_v25
    ∧ Pipeline.withArrays spec0 c (V0 m c) A (Proc.devRef .tc main_v68) = V m c main_v68
    ∧ Pipeline.withArrays spec0 c (V0 m c) A (Proc.devRef .tc main_v86) = V m c main_v86
    ∧ Pipeline.withArrays spec0 c (V0 m c) A (Proc.devRef .tc main_v88_0) = A 1
    ∧ Pipeline.withArrays spec0 c (V0 m c) A (Proc.devRef .tc main_v88_1) = A 2
    ∧ Pipeline.withArrays spec0 c (V0 m c) A (Proc.devRef .tc main_v88_2) = A 3 :=
  ⟨Pipeline.withArrays_of_ne _ c (V0 m c) _ main_v25 (by decide), Pipeline.withArrays_of_ne _ c (V0 m c) _ main_v68 (by decide),
    Pipeline.withArrays_of_ne _ c (V0 m c) _ main_v86 (by decide),
    Pipeline.withArrays_arr spec0 launch0.win.arr_inj c (V0 m c) A 1, Pipeline.withArrays_arr spec0 launch0.win.arr_inj c (V0 m c) A 2,
    Pipeline.withArrays_arr spec0 launch0.win.arr_inj c (V0 m c) A 3⟩

/-- What the host operations after the region leave in the five result buffers. -/
theorem results (c : Dev nD) :
    Pipeline.afterTail₀ cfgs (dats m) 0 (V0 m) [hostOps1] c main_v104
        = Cert.Tail.total (V m c main_v25) (V m c main_v68) (smoothK m c) (V m c main_v86)
    ∧ Pipeline.afterTail₀ cfgs (dats m) 0 (V0 m) [hostOps1] c main_v25 = V m c main_v25
    ∧ Pipeline.afterTail₀ cfgs (dats m) 0 (V0 m) [hostOps1] c main_v68 = V m c main_v68
    ∧ Pipeline.afterTail₀ cfgs (dats m) 0 (V0 m) [hostOps1] c main_v97 = smoothK m c
    ∧ Pipeline.afterTail₀ cfgs (dats m) 0 (V0 m) [hostOps1] c main_v86 = V m c main_v86 := by
  have h1 := arr1_final m c
  have h2 := arr2_final m c
  have h3 := arr3_final m c
  obtain ⟨e25, e68, e86, e1, e2, e3⟩ := exit_vals m c (fun w => (dats m 0 c).arrAt w cfg0.N)
  dsimp only at e1 e2 e3
  unfold Pipeline.afterTail₀ smoothK
  simp only [List.flatten_cons, List.flatten_nil, List.append_nil]
  rw [tail_total, tail_smooth, tail_v25, tail_v68, tail_v86, e25, e68, e86, e1, e2, e3, h1, h2, h3]
  exact ⟨rfl, rfl, rfl, rfl, rfl⟩

/-- Every execution of the kernel's program ends with its five results at these values and its arguments unchanged. -/
theorem run_values : θ_run defs (onTc (τ := τ) (main (F := Ideal))) ⟨m, fun _ => 0, ρ⟩ (fun r => ∀ c : Dev nD,
      r.2.mem ((c.tc : Thread nD τ).loc main_v104) = Cert.Tail.total (V m c main_v25) (V m c main_v68) (smoothK m c) (V m c main_v86)
      ∧ r.2.mem ((c.tc : Thread nD τ).loc main_v25) = V m c main_v25
      ∧ r.2.mem ((c.tc : Thread nD τ).loc main_v68) = V m c main_v68
      ∧ r.2.mem ((c.tc : Thread nD τ).loc main_v97) = smoothK m c
      ∧ r.2.mem ((c.tc : Thread nD τ).loc main_v86) = V m c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v104 (Pipeline.mem_restRefs_of main_v104 (by decide) (by decide))).trans (results m c).1,
      ((h c).2 main_v25 (Pipeline.mem_restRefs_of main_v25 (by decide) (by decide))).trans (results m c).2.1,
      ((h c).2 main_v68 (Pipeline.mem_restRefs_of main_v68 (by decide) (by decide))).trans (results m c).2.2.1,
      ((h c).2 main_v97 (Pipeline.mem_restRefs_of main_v97 (by decide) (by decide))).trans (results m c).2.2.2.1,
      ((h c).2 main_v86 (Pipeline.mem_restRefs_of main_v86 (by decide) (by decide))).trans (results m c).2.2.2.2,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefOps.lean ====
import proofs.«406312_j54666343744093_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 68 host operations of window 0 of @main, in order (calls inlined). -/
abbrev ops0 : List (HloOp τ sig (Elt F)) :=
  [ StableHlo.nullary main_c (fun i => lit0 (S3.rowMajor i)),
    StableHlo.TRef.reshape (.of main_arg0 : StableHlo.TRef sig ⟨S64x32x32x32, .i32⟩) main_call0.v0 rfl shapeCasts_S64x32x32x32_S2097152,
    StableHlo.TRef.unary main_call0.v0 main_call0.v1 (broadcastInDim S2097152x1 ![0] bcast_S2097152_S2097152x1_0),
    StableHlo.TRef.unary (.of main_c : StableHlo.TRef sig ⟨S3, .i32⟩) main_call0.v2 (broadcastInDim S1x3 ![1] bcast_S3_S1x3_1),
    StableHlo.TRef.unary main_call0.v1 main_call0.v3 (broadcastInDim S2097152x3 ![0, 1] bcast_S2097152x1_S2097152x3_0_1),
    StableHlo.TRef.unary main_call0.v2 main_call0.v4 (broadcastInDim S2097152x3 ![0, 1] bcast_S1x3_S2097152x3_0_1),
    StableHlo.TRef.binary main_call0.v3 main_call0.v4 main_call0.v5 (cmpi .eq),
    StableHlo.TRef.nullary main_call0.c (constantI S_ 1 0#1),
    StableHlo.TRef.binary main_call0.v5 main_call0.c main_call0.v6 (fun x v => Host.reduce IntOp.ori x v reducesTo_S2097152x3_S2097152_d1 h_S_),
    StableHlo.reshape main_v0 main_v1 rfl shapeCasts_S2097152_S64x32x32x32,
    StableHlo.unary main_v1 main_v2 (noti : (⟨S64x32x32x32, .i1⟩ : BufTy).Contents (Elt F) → (⟨S64x32x32x32, .i1⟩ : BufTy).Contents (Elt F)),
    StableHlo.unary main_v2 main_v3 (uitofp .f32 : (⟨S64x32x32x32, .i1⟩ : BufTy).Contents (Elt F) → (⟨S64x32x32x32, .f32⟩ : BufTy).Contents (Elt F)),
    StableHlo.nullary main_c_0 (constantI S_ 32 0#32),
    StableHlo.TRef.unary (.of main_c_0 : StableHlo.TRef sig ⟨S_, .i32⟩) main_call1.v0 (sitofp .f32),
    StableHlo.TRef.binary (.of main_v3 : StableHlo.TRef sig ⟨S64x32x32x32, .f32⟩) main_call1.v0 main_call1.v1 (fun x v => pad S64x34x34x34 ![0, 1, 1, 1] ![0, 1, 1, 1] ![0, 0, 0, 0] x v pads_S64x32x32x32_S64x34x34x34_000_110_110_110 h_S_),
    StableHlo.unary main_v4 main_v5 ((extractStridedSlice S64x32x32x32 ![0, 0, 1, 1] · slices_S64x34x34x34_S64x32x32x32_0_0_1_1) : (⟨S64x34x34x34, .f32⟩ : BufTy).Contents (Elt F) → (⟨S64x32x32x32, .f32⟩ : BufTy).Contents (Elt F)),
    StableHlo.unary main_v4 main_v6 ((extractStridedSlice S64x32x32x32 ![0, 2, 1, 1] · slices_S64x34x34x34_S64x32x32x32_0_2_1_1) : (⟨S64x34x34x34, .f32⟩ : BufTy).Contents (Elt F) → (⟨S64x32x32x32, .f32⟩ : BufTy).Contents (Elt F)),
    StableHlo.binary main_v5 main_v6 main_v7 (addf : (⟨S64x32x32x32, .f32⟩ : BufTy).Contents (Elt F) → (⟨S64x32x32x32, .f32⟩ : BufTy).Contents (Elt F) → (⟨S64x32x32x32, .f32⟩ : BufTy).Contents (Elt F)),
    StableHlo.unary main_v4 main_v8 ((extractStridedSlice S64x32x32x32 ![0, 1, 0, 1] · slices_S64x34x34x34_S64x32x32x32_0_1_0_1) : (⟨S64x34x34x34, .f32⟩ : BufTy).Contents (Elt F) → (⟨S64x32x32x32, .f32⟩ : BufTy).Contents (Elt F)),
    StableHlo.binary main_v7 main_v8 main_v9 (addf : (⟨S64x32x32x32, .f32⟩ : BufTy).Contents (Elt F) → (⟨S64x32x32x32, .f32⟩ : BufTy).Contents (Elt F) → (⟨S64x32x32x32, .f32⟩ : BufTy).Contents (Elt F)),
    StableHlo.unary main_v4 main_v10 ((extractStridedSlice S64x32x32x32 ![0, 1, 2, 1] · slices_S64x34x34x34_S64x32x32x32_0_1_2_1) : (⟨S64x34x34x34, .f32⟩ : BufTy).Contents (Elt F) → (⟨S64x32x32x32, .f32⟩ : BufTy).Contents (Elt F)),
    StableHlo.binary main_v9 main_v10 main_v11 (addf : (⟨S64x32x32x32, .f32⟩ : BufTy).Contents (Elt F) → (⟨S64x32x32x32, .f32⟩ : BufTy).Contents (Elt F) → (⟨S64x32x32x32, .f32⟩ : BufTy).Contents (Elt F)),
    StableHlo.unary main_v4 main_v12 ((extractStridedSlice S64x32x32x32 ![0, 1, 1, 0] · slices_S64x34x34x34_S64x32x32x32_0_1_1_0) : (⟨S64x34x34x34, .f32⟩ : BufTy).Contents (Elt F) → (⟨S64x32x32x32, .f32⟩ : BufTy).Contents (Elt F)),
    StableHlo.binary main_v11 main_v12 main_v13 (addf : (⟨S64x32x32x32, .f32⟩ : BufTy).Contents (Elt F) → (⟨S64x32x32x32, .f32⟩ : BufTy).Contents (Elt F) → (⟨S64x32x32x32, .f32⟩ : BufTy).Contents (Elt F)),
    StableHlo.unary main_v4 main_v14 ((extractStridedSlice S64x32x32x32 ![0, 1, 1, 2] · slices_S64x34x34x34_S64x32x32x32_0_1_1_2) : (⟨S64x34x34x34, .f32⟩ : BufTy).Contents (Elt F) → (⟨S64x32x32x32, .f32⟩ : BufTy).Contents (Elt F)),
    StableHlo.binary main_v13 main_v14 main_v15 (addf : (⟨S64x32x32x32, .f32⟩ : BufTy).Contents (Elt F) → (⟨S64x32x32x32, .f32⟩ : BufTy).Contents (Elt F) → (⟨S64x32x32x32, .f32⟩ : BufTy).Contents (Elt F)),
    StableHlo.nullary main_cst (constant S_ .f32 0x00000000#32),
    StableHlo.unary main_cst main_v16 (broadcastInDim S64x32x32x32 ![] bcast_S_S64x32x32x32 : (⟨S_, .f32⟩ : BufTy).Contents (Elt F) → (⟨S64x32x32x32, .f32⟩ : BufTy).Contents (Elt F)),
    StableHlo.binary main_v15 main_v16 main_v17 (cmpf .oeq : (⟨S64x32x32x32, .f32⟩ : BufTy).Contents (Elt F) → (⟨S64x32x32x32, .f32⟩ : BufTy).Contents (Elt F) → (⟨S64x32x32x32, .i1⟩ : BufTy).Contents (Elt F)),
    StableHlo.nullary main_cst_1 (constant S_ .f32 0x00000000#32),
    StableHlo.unary main_cst_1 main_v18 (broadcastInDim S64x32x32x32 ![] bcast_S_S64x32x32x32 : (⟨S_, .f32⟩ : BufTy).Contents (Elt F) → (⟨S64x32x32x32, .f32⟩ : BufTy).Contents (Elt F)),
    StableHlo.binary main_v3 main_v18 main_v19 (cmpf .ogt : (⟨S64x32x32x32, .f32⟩ : BufTy).Contents (Elt F) → (⟨S64x32x32x32, .f32⟩ : BufTy).Contents (Elt F) → (⟨S64x32x32x32, .i1⟩ : BufTy).Contents (Elt F)),
    StableHlo.binary main_v17 main_v19 main_v20 (andi : (⟨S64x32x32x32, .i1⟩ : BufTy).Contents (Elt F) → (⟨S64x32x32x32, .i1⟩ : BufTy).Contents (Elt F) → (⟨S64x32x32x32, .i1⟩ : BufTy).Contents (Elt F)),
    StableHlo.unary main_v20 main_v21 (uitofp .f32 : (⟨S64x32x32x32, .i1⟩ : BufTy).Contents (Elt F) → (⟨S64x32x32x32, .f32⟩ : BufTy).Contents (Elt F)),
    StableHlo.nullary main_cst_2 (constant S_ .f32 0x00000000#32),
    StableHlo.binary main_v21 main_cst_2 main_v22 ((fun x v => Host.reduceAdd x v reducesTo_S64x32x32x32_S_d0_1_2_3 h_S_) : (⟨S64x32x32x32, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_v3 main_cst_3 main_v23 ((fun x v => Host.reduceAdd x v reducesTo_S64x32x32x32_S_d0_1_2_3 h_S_) : (⟨S64x32x32x32, .f32⟩ : BufTy).Contents (Elt F) → (⟨S_, .f32⟩ : BufTy).Contents (Elt F) → (⟨S_, .f32⟩ : BufTy).Contents (Elt F)),
    StableHlo.nullary main_cst_4 (constant S_ .f32 0x358637BD#32),
    StableHlo.binary main_v23 main_cst_4 main_v24 (addf : (⟨S_, .f32⟩ : BufTy).Contents (Elt F) → (⟨S_, .f32⟩ : BufTy).Contents (Elt F) → (⟨S_, .f32⟩ : BufTy).Contents (Elt F)),
    StableHlo.binary main_v22 main_v24 main_v25 (Host.divf : (⟨S_, .f32⟩ : BufTy).Contents (Elt F) → (⟨S_, .f32⟩ : BufTy).Contents (Elt F) → (⟨S_, .f32⟩ : BufTy).Contents (Elt F)),
    StableHlo.reshape main_arg0 main_v26 rfl shapeCasts_S64x32x32x32_S64x8x4x8x4x8x4,
    StableHlo.unary main_v26 main_v27 ((transpose S64x8x8x8x4x4x4 [0, 1, 3, 5, 2, 4, 6] · transposes_S64x8x4x8x4x8x4_S64x8x8x8x4x4x4_0_1_3_5_2_4_6) : (⟨S64x8x4x8x4x8x4, .i32⟩ : BufTy).Contents (Elt F) → (⟨S64x8x8x8x4x4x4, .i32⟩ : BufTy).Contents (Elt F)),
    StableHlo.reshape main_v27 main_v28 rfl shapeCasts_S64x8x8x8x4x4x4_S32768x64,
    StableHlo.nullary main_cst_5 (constant S_ .f32 0x00000000#32),
    StableHlo.unary main_cst_5 main_v29 (broadcastInDim S32768x3717 ![] bcast_S_S32768x3717 : (⟨S_, .f32⟩ : BufTy).Contents (Elt F) → (⟨S32768x3717, .f32⟩ : BufTy).Contents (Elt F)),
    StableHlo.nullary main_v30 (iotaInDim S32768 32 0),
    StableHlo.unary main_v30 main_v31 (broadcastInDim S32768x1 ![0] bcast_S32768_S32768x1_0 : (⟨S32768, .i32⟩ : BufTy).Contents (Elt F) → (⟨S32768x1, .i32⟩ : BufTy).Contents (Elt F)),
    StableHlo.nullary main_c_6 (constantI S_ 32 0#32),
    StableHlo.unary main_c_6 main_v32 (broadcastInDim S32768x1 ![] bcast_S_S32768x1 : (⟨S_, .i32⟩ : BufTy).Contents (Elt F) → (⟨S32768x1, .i32⟩ : BufTy).Contents (Elt F)),
    StableHlo.binary main_v31 main_v32 main_v33 (cmpi .slt : (⟨S32768x1, .i32⟩ : BufTy).Contents (Elt F) → (⟨S32768x1, .i32⟩ : BufTy).Contents (Elt F) → (⟨S32768x1, .i1⟩ : BufTy).Contents (Elt F)),
    StableHlo.nullary main_c_7 (constantI S_ 32 32768#32),
    StableHlo.unary main_c_7 main_v34 (broadcastInDim S32768x1 ![] bcast_S_S32768x1 : (⟨S_, .i32⟩ : BufTy).Contents (Elt F) → (⟨S32768x1, .i32⟩ : BufTy).Contents (Elt F)),
    StableHlo.binary main_v31 main_v34 main_v35 (addi : (⟨S32768x1, .i32⟩ : BufTy).Contents (Elt F) → (⟨S32768x1, .i32⟩ : BufTy).Contents (Elt F) → (⟨S32768x1, .i32⟩ : BufTy).Contents (Elt F)),
    StableHlo.ternary main_v33 main_v35 main_v31 main_v36 (select : (⟨S32768x1, .i1⟩ : BufTy).Contents (Elt F) → (⟨S32768x1, .i32⟩ : BufTy).Contents (Elt F) → (⟨S32768x1, .i32⟩ : BufTy).Contents (Elt F) → (⟨S32768x1, .i32⟩ : BufTy).Contents (Elt F)),
    StableHlo.nullary main_c_8 (constantI S_ 32 0#32),
    StableHlo.unary main_c_8 main_v37 (broadcastInDim S32768x64 ![] bcast_S_S32768x64 : (⟨S_, .i32⟩ : BufTy).Contents (Elt F) → (⟨S32768x64, .i32⟩ : BufTy).Contents (Elt F)),
    StableHlo.binary main_v28 main_v37 main_v38 (cmpi .slt : (⟨S32768x64, .i32⟩ : BufTy).Contents (Elt F) → (⟨S32768x64, .i32⟩ : BufTy).Contents (Elt F) → (⟨S32768x64, .i1⟩ : BufTy).Contents (Elt F)),
    StableHlo.nullary main_c_9 (constantI S_ 32 3717#32),
    StableHlo.unary main_c_9 main_v39 (broadcastInDim S32768x64 ![] bcast_S_S32768x64 : (⟨S_, .i32⟩ : BufTy).Contents (Elt F) → (⟨S32768x64, .i32⟩ : BufTy).Contents (Elt F)),
    StableHlo.binary main_v28 main_v39 main_v40 (addi : (⟨S32768x64, .i32⟩ : BufTy).Contents (Elt F) → (⟨S32768x64, .i32⟩ : BufTy).Contents (Elt F) → (⟨S32768x64, .i32⟩ : BufTy).Contents (Elt F)),
    StableHlo.ternary main_v38 main_v40 main_v28 main_v41 (select : (⟨S32768x64, .i1⟩ : BufTy).Contents (Elt F) → (⟨S32768x64, .i32⟩ : BufTy).Contents (Elt F) → (⟨S32768x64, .i32⟩ : BufTy).Contents (Elt F) → (⟨S32768x64, .i32⟩ : BufTy).Contents (Elt F)),
    StableHlo.unary main_v36 main_v42 (broadcastInDim S32768x64 ![0, 1] bcast_S32768x1_S32768x64_0_1 : (⟨S32768x1, .i32⟩ : BufTy).Contents (Elt F) → (⟨S32768x64, .i32⟩ : BufTy).Contents (Elt F)),
    StableHlo.unary main_v42 main_v43 (broadcastInDim S32768x64x1 ![0, 1] bcast_S32768x64_S32768x64x1_0_1 : (⟨S32768x64, .i32⟩ : BufTy).Contents (Elt F) → (⟨S32768x64x1, .i32⟩ : BufTy).Contents (Elt F)),
    StableHlo.unary main_v41 main_v44 (broadcastInDim S32768x64x1 ![0, 1] bcast_S32768x64_S32768x64x1_0_1 : (⟨S32768x64, .i32⟩ : BufTy).Contents (Elt F) → (⟨S32768x64x1, .i32⟩ : BufTy).Contents (Elt F)),
    StableHlo.binary main_v43 main_v44 main_v45 ((fun a b => concatenate S32768x64x2 2 [⟨S32768x64x1, a⟩, ⟨S32768x64x1, b⟩] concatenates_S32768x64x1_S32768x64x1_S32768x64x2_d2) : (⟨S32768x64x1, .i32⟩ : BufTy).Contents (Elt F) → (⟨S32768x64x1, .i32⟩ : BufTy).Contents (Elt F) → (⟨S32768x64x2, .i32⟩ : BufTy).Contents (Elt F)),
    StableHlo.nullary main_cst_10 (constant S_ .f32 0x3F800000#32),
    StableHlo.unary main_cst_10 main_v46 (broadcastInDim S32768x64 ![] bcast_S_S32768x64 : (⟨S_, .f32⟩ : BufTy).Contents (Elt F) → (⟨S32768x64, .f32⟩ : BufTy).Contents (Elt F)) ]

/-- The 67 host operations of window 1 of @main, in order (calls inlined). -/
abbrev ops1 : List (HloOp τ sig (Elt F)) :=
  [ StableHlo.ternary main_v29 main_v45 main_v46 main_v47 ((fun x i u => Host.scatterAdd scatter_S32768x3717_S32768x64x2_S32768x64_n_01_01_2 x i u) : (⟨S32768x3717, .f32⟩ : BufTy).Contents (Elt F) → (⟨S32768x64x2, .i32⟩ : BufTy).Contents (Elt F) → (⟨S32768x64, .f32⟩ : BufTy).Contents (Elt F) → (⟨S32768x3717, .f32⟩ : BufTy).Contents (Elt F)),
    StableHlo.nullary main_c_11 (constantI S_ 32 0#32),
    StableHlo.unary main_c_11 main_v48 (broadcastInDim S3 ![] bcast_S_S3 : (⟨S_, .i32⟩ : BufTy).Contents (Elt F) → (⟨S3, .i32⟩ : BufTy).Contents (Elt F)),
    StableHlo.binary main_c main_v48 main_v49 (cmpi .slt : (⟨S3, .i32⟩ : BufTy).Contents (Elt F) → (⟨S3, .i32⟩ : BufTy).Contents (Elt F) → (⟨S3, .i1⟩ : BufTy).Contents (Elt F)),
    StableHlo.nullary main_c_12 (constantI S_ 32 3717#32),
    StableHlo.unary main_c_12 main_v50 (broadcastInDim S3 ![] bcast_S_S3 : (⟨S_, .i32⟩ : BufTy).Contents (Elt F) → (⟨S3, .i32⟩ : BufTy).Contents (Elt F)),
    StableHlo.binary main_c main_v50 main_v51 (addi : (⟨S3, .i32⟩ : BufTy).Contents (Elt F) → (⟨S3, .i32⟩ : BufTy).Contents (Elt F) → (⟨S3, .i32⟩ : BufTy).Contents (Elt F)),
    StableHlo.ternary main_v49 main_v51 main_c main_v52 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v52 main_v53 (broadcastInDim S3x1 ![0] bcast_S3_S3x1_0 : (⟨S3, .i32⟩ : BufTy).Contents (Elt F) → (⟨S3x1, .i32⟩ : BufTy).Contents (Elt F)),
    StableHlo.nullary main_cst_13 (constant S_ .f32 0x00000000#32),
    StableHlo.unary main_cst_13 main_v54 (broadcastInDim S32768x3 ![] bcast_S_S32768x3 : (⟨S_, .f32⟩ : BufTy).Contents (Elt F) → (⟨S32768x3, .f32⟩ : BufTy).Contents (Elt F)),
    StableHlo.ternary main_v47 main_v53 main_v54 main_v55 ((fun x i u => Host.scatter scatter_S32768x3717_S3x1_S32768x3_0_1_1_1 (fun _ b => b) x i u) : (⟨S32768x3717, .f32⟩ : BufTy).Contents (Elt F) → (⟨S3x1, .i32⟩ : BufTy).Contents (Elt F) → (⟨S32768x3, .f32⟩ : BufTy).Contents (Elt F) → (⟨S32768x3717, .f32⟩ : BufTy).Contents (Elt F)),
    StableHlo.nullary main_cst_14 (constant S_ .f32 0x00000000#32),
    StableHlo.binary main_v55 main_cst_14 main_v56 ((fun x v => Host.reduceAdd x v reducesTo_S32768x3717_S32768_d1 h_S_) : (⟨S32768x3717, .f32⟩ : BufTy).Contents (Elt F) → (⟨S_, .f32⟩ : BufTy).Contents (Elt F) → (⟨S32768, .f32⟩ : BufTy).Contents (Elt F)),
    StableHlo.unary main_v56 main_v57 (broadcastInDim S32768x1 ![0] bcast_S32768_S32768x1_0 : (⟨S32768, .f32⟩ : BufTy).Contents (Elt F) → (⟨S32768x1, .f32⟩ : BufTy).Contents (Elt F)),
    StableHlo.nullary main_cst_15 (constant S_ .f32 0x3F800000#32),
    StableHlo.unary main_cst_15 main_v58 (broadcastInDim S32768x1 ![] bcast_S_S32768x1 : (⟨S_, .f32⟩ : BufTy).Contents (Elt F) → (⟨S32768x1, .f32⟩ : BufTy).Contents (Elt F)),
    StableHlo.binary main_v57 main_v58 main_v59 (maximumf : (⟨S32768x1, .f32⟩ : BufTy).Contents (Elt F) → (⟨S32768x1, .f32⟩ : BufTy).Contents (Elt F) → (⟨S32768x1, .f32⟩ : BufTy).Contents (Elt F)),
    StableHlo.unary main_v59 main_v60 (broadcastInDim S32768x3717 ![0, 1] bcast_S32768x1_S32768x3717_0_1 : (⟨S32768x1, .f32⟩ : BufTy).Contents (Elt F) → (⟨S32768x3717, .f32⟩ : BufTy).Contents (Elt F)),
    StableHlo.binary main_v55 main_v60 main_v61 (Host.divf : (⟨S32768x3717, .f32⟩ : BufTy).Contents (Elt F) → (⟨S32768x3717, .f32⟩ : BufTy).Contents (Elt F) → (⟨S32768x3717, .f32⟩ : BufTy).Contents (Elt F)),
    StableHlo.nullary main_cst_16 (constant S_ .f32 0x2EDBE6FF#32),
    StableHlo.unary main_cst_16 main_v62 (broadcastInDim S32768x3717 ![] bcast_S_S32768x3717 : (⟨S_, .f32⟩ : BufTy).Contents (Elt F) → (⟨S32768x3717, .f32⟩ : BufTy).Contents (Elt F)),
    StableHlo.binary main_v61 main_v62 main_v63 (addf : (⟨S32768x3717, .f32⟩ : BufTy).Contents (Elt F) → (⟨S32768x3717, .f32⟩ : BufTy).Contents (Elt F) → (⟨S32768x3717, .f32⟩ : BufTy).Contents (Elt F)),
    StableHlo.unary main_v63 main_v64 (Host.log : (⟨S32768x3717, .f32⟩ : BufTy).Contents (Elt F) → (⟨S32768x3717, .f32⟩ : BufTy).Contents (Elt F)),
    StableHlo.binary main_v61 main_v64 main_v65 (mulf : (⟨S32768x3717, .f32⟩ : BufTy).Contents (Elt F) → (⟨S32768x3717, .f32⟩ : BufTy).Contents (Elt F) → (⟨S32768x3717, .f32⟩ : BufTy).Contents (Elt F)),
    StableHlo.nullary main_cst_17 (constant S_ .f32 0x00000000#32),
    StableHlo.binary main_v65 main_cst_17 main_v66 ((fun x v => Host.reduceAdd x v reducesTo_S32768x3717_S_d0_1 h_S_) : (⟨S32768x3717, .f32⟩ : BufTy).Contents (Elt F) → (⟨S_, .f32⟩ : BufTy).Contents (Elt F) → (⟨S_, .f32⟩ : BufTy).Contents (Elt F)),
    StableHlo.unary main_v66 main_v67 (Host.negf : (⟨S_, .f32⟩ : BufTy).Contents (Elt F) → (⟨S_, .f32⟩ : BufTy).Contents (Elt F)),
    StableHlo.nullary main_cst_18 (constant S_ .f32 0x47000000#32),
    StableHlo.binary main_v67 main_cst_18 main_v68 (Host.divf : (⟨S_, .f32⟩ : BufTy).Contents (Elt F) → (⟨S_, .f32⟩ : BufTy).Contents (Elt F) → (⟨S_, .f32⟩ : BufTy).Contents (Elt F)),
    StableHlo.TRef.reshape (.of main_arg0 : StableHlo.TRef sig ⟨S64x32x32x32, .i32⟩) main_call2.v0 rfl shapeCasts_S64x32x32x32_S2097152,
    StableHlo.TRef.unary main_call2.v0 main_call2.v1 (broadcastInDim S2097152x1 ![0] bcast_S2097152_S2097152x1_0),
    StableHlo.TRef.unary (.of main_c : StableHlo.TRef sig ⟨S3, .i32⟩) main_call2.v2 (broadcastInDim S1x3 ![1] bcast_S3_S1x3_1),
    StableHlo.TRef.unary main_call2.v1 main_call2.v3 (broadcastInDim S2097152x3 ![0, 1] bcast_S2097152x1_S2097152x3_0_1),
    StableHlo.TRef.unary main_call2.v2 main_call2.v4 (broadcastInDim S2097152x3 ![0, 1] bcast_S1x3_S2097152x3_0_1),
    StableHlo.TRef.binary main_call2.v3 main_call2.v4 main_call2.v5 (cmpi .eq),
    StableHlo.TRef.nullary main_call2.c (constantI S_ 1 0#1),
    StableHlo.TRef.binary main_call2.v5 main_call2.c main_call2.v6 (fun x v => Host.reduce IntOp.ori x v reducesTo_S2097152x3_S2097152_d1 h_S_),
    StableHlo.reshape main_v69 main_v70 rfl shapeCasts_S2097152_S64x32x32x32,
    StableHlo.unary main_v70 main_v71 (noti : (⟨S64x32x32x32, .i1⟩ : BufTy).Contents (Elt F) → (⟨S64x32x32x32, .i1⟩ : BufTy).Contents (Elt F)),
    StableHlo.unary main_v71 main_v72 ((extractStridedSlice S64x32x1x32 ![0, 0, 0, 0] · slices_S64x32x32x32_S64x32x1x32_0_0_0_0) : (⟨S64x32x32x32, .i1⟩ : BufTy).Contents (Elt F) → (⟨S64x32x1x32, .i1⟩ : BufTy).Contents (Elt F)),
    StableHlo.nullary main_c_19 (constantI S_ 1 1#1),
    StableHlo.unary main_c_19 main_v73 (broadcastInDim S64x32x1x32 ![] bcast_S_S64x32x1x32 : (⟨S_, .i1⟩ : BufTy).Contents (Elt F) → (⟨S64x32x1x32, .i1⟩ : BufTy).Contents (Elt F)),
    StableHlo.unary main_v71 main_v74 ((extractStridedSlice S64x32x31x32 ![0, 0, 0, 0] · slices_S64x32x32x32_S64x32x31x32_0_0_0_0) : (⟨S64x32x32x32, .i1⟩ : BufTy).Contents (Elt F) → (⟨S64x32x31x32, .i1⟩ : BufTy).Contents (Elt F)),
    StableHlo.binary main_v73 main_v74 main_v75 ((fun a b => concatenate S64x32x32x32 2 [⟨S64x32x1x32, a⟩, ⟨S64x32x31x32, b⟩] concatenates_S64x32x1x32_S64x32x31x32_S64x32x32x32_d2) : (⟨S64x32x1x32, .i1⟩ : BufTy).Contents (Elt F) → (⟨S64x32x31x32, .i1⟩ : BufTy).Contents (Elt F) → (⟨S64x32x32x32, .i1⟩ : BufTy).Contents (Elt F)),
    StableHlo.unary main_v75 main_v76 (noti : (⟨S64x32x32x32, .i1⟩ : BufTy).Contents (Elt F) → (⟨S64x32x32x32, .i1⟩ : BufTy).Contents (Elt F)),
    StableHlo.binary main_v71 main_v76 main_v77 (andi : (⟨S64x32x32x32, .i1⟩ : BufTy).Contents (Elt F) → (⟨S64x32x32x32, .i1⟩ : BufTy).Contents (Elt F) → (⟨S64x32x32x32, .i1⟩ : BufTy).Contents (Elt F)),
    StableHlo.nullary main_c_20 (constantI S_ 32 0#32),
    StableHlo.unary main_c_20 main_v78 (broadcastInDim S1 ![] bcast_S_S1 : (⟨S_, .i32⟩ : BufTy).Contents (Elt F) → (⟨S1, .i32⟩ : BufTy).Contents (Elt F)),
    StableHlo.nullary main_c_21 (constantI S_ 1 0#1),
    StableHlo.unary main_c_21 main_v79 (broadcastInDim S64x32x32 ![] bcast_S_S64x32x32 : (⟨S_, .i1⟩ : BufTy).Contents (Elt F) → (⟨S64x32x32, .i1⟩ : BufTy).Contents (Elt F)),
    StableHlo.ternary main_v77 main_v78 main_v79 main_v80 ((fun x i u => Host.scatter scatter_S64x32x32x32_S1_S64x32x32_012_2_2_0 (fun _ b => b) x i u) : (⟨S64x32x32x32, .i1⟩ : BufTy).Contents (Elt F) → (⟨S1, .i32⟩ : BufTy).Contents (Elt F) → (⟨S64x32x32, .i1⟩ : BufTy).Contents (Elt F) → (⟨S64x32x32x32, .i1⟩ : BufTy).Contents (Elt F)),
    StableHlo.unary main_v80 main_v81 (uitofp .f32 : (⟨S64x32x32x32, .i1⟩ : BufTy).Contents (Elt F) → (⟨S64x32x32x32, .f32⟩ : BufTy).Contents (Elt F)),
    StableHlo.nullary main_cst_22 (constant S_ .f32 0x00000000#32),
    StableHlo.binary main_v81 main_cst_22 main_v82 ((fun x v => Host.reduceAdd x v reducesTo_S64x32x32x32_S_d0_1_2_3 h_S_) : (⟨S64x32x32x32, .f32⟩ : BufTy).Contents (Elt F) → (⟨S_, .f32⟩ : BufTy).Contents (Elt F) → (⟨S_, .f32⟩ : BufTy).Contents (Elt F)),
    StableHlo.unary main_v71 main_v83 (uitofp .f32 : (⟨S64x32x32x32, .i1⟩ : BufTy).Contents (Elt F) → (⟨S64x32x32x32, .f32⟩ : BufTy).Contents (Elt F)),
    StableHlo.nullary main_cst_23 (constant S_ .f32 0x00000000#32),
    StableHlo.binary main_v83 main_cst_23 main_v84 ((fun x v => Host.reduceAdd x v reducesTo_S64x32x32x32_S_d0_1_2_3 h_S_) : (⟨S64x32x32x32, .f32⟩ : BufTy).Contents (Elt F) → (⟨S_, .f32⟩ : BufTy).Contents (Elt F) → (⟨S_, .f32⟩ : BufTy).Contents (Elt F)),
    StableHlo.nullary main_cst_24 (constant S_ .f32 0x358637BD#32),
    StableHlo.binary main_v84 main_cst_24 main_v85 (addf : (⟨S_, .f32⟩ : BufTy).Contents (Elt F) → (⟨S_, .f32⟩ : BufTy).Contents (Elt F) → (⟨S_, .f32⟩ : BufTy).Contents (Elt F)),
    StableHlo.binary main_v82 main_v85 main_v86 (Host.divf : (⟨S_, .f32⟩ : BufTy).Contents (Elt F) → (⟨S_, .f32⟩ : BufTy).Contents (Elt F) → (⟨S_, .f32⟩ : BufTy).Contents (Elt F)),
    StableHlo.unary main_arg1 main_v87 ((extractStridedSlice S64x32x31x32x32 ![0, 0, 1, 0, 0] · slices_S64x32x32x32x32_S64x32x31x32x32_0_0_1_0_0) : (⟨S64x32x32x32x32, .f32⟩ : BufTy).Contents (Elt F) → (⟨S64x32x31x32x32, .f32⟩ : BufTy).Contents (Elt F)),
    StableHlo.unary main_arg1 main_v88 ((extractStridedSlice S64x32x31x32x32 ![0, 0, 0, 0, 0] · slices_S64x32x32x32x32_S64x32x31x32x32_0_0_0_0_0) : (⟨S64x32x32x32x32, .f32⟩ : BufTy).Contents (Elt F) → (⟨S64x32x31x32x32, .f32⟩ : BufTy).Contents (Elt F)),
    StableHlo.binary main_v87 main_v88 main_v89 (subf : (⟨S64x32x31x32x32, .f32⟩ : BufTy).Contents (Elt F) → (⟨S64x32x31x32x32, .f32⟩ : BufTy).Contents (Elt F) → (⟨S64x32x31x32x32, .f32⟩ : BufTy).Contents (Elt F)),
    StableHlo.unary main_v89 main_v90 (Host.absf : (⟨S64x32x31x32x32, .f32⟩ : BufTy).Contents (Elt F) → (⟨S64x32x31x32x32, .f32⟩ : BufTy).Contents (Elt F)),
    StableHlo.nullary main_cst_25 (constant S_ .f32 0x00000000#32),
    StableHlo.binary main_v90 main_cst_25 main_v91 ((fun x v => Host.reduceAdd x v reducesTo_S64x32x31x32x32_S_d0_1_2_3_4 h_S_) : (⟨S64x32x31x32x32, .f32⟩ : BufTy).Contents (Elt F) → (⟨S_, .f32⟩ : BufTy).Contents (Elt F) → (⟨S_, .f32⟩ : BufTy).Contents (Elt F)) ]

/-- The 33 host operations of window 2 of @main, in order (calls inlined). -/
abbrev ops2 : List (HloOp τ sig (Elt F)) :=
  [ StableHlo.nullary main_cst_26 (constant S_ .f32 0x4C780000#32),
    StableHlo.binary main_v91 main_cst_26 main_v92 (Host.divf : (⟨S_, .f32⟩ : BufTy).Contents (Elt F) → (⟨S_, .f32⟩ : BufTy).Contents (Elt F) → (⟨S_, .f32⟩ : BufTy).Contents (Elt F)),
    StableHlo.unary main_arg1 main_v93 ((extractStridedSlice S64x32x32x31x32 ![0, 0, 0, 1, 0] · slices_S64x32x32x32x32_S64x32x32x31x32_0_0_0_1_0) : (⟨S64x32x32x32x32, .f32⟩ : BufTy).Contents (Elt F) → (⟨S64x32x32x31x32, .f32⟩ : BufTy).Contents (Elt F)),
    StableHlo.unary main_arg1 main_v94 ((extractStridedSlice S64x32x32x31x32 ![0, 0, 0, 0, 0] · slices_S64x32x32x32x32_S64x32x32x31x32_0_0_0_0_0) : (⟨S64x32x32x32x32, .f32⟩ : BufTy).Contents (Elt F) → (⟨S64x32x32x31x32, .f32⟩ : BufTy).Contents (Elt F)),
    StableHlo.binary main_v93 main_v94 main_v95 (subf : (⟨S64x32x32x31x32, .f32⟩ : BufTy).Contents (Elt F) → (⟨S64x32x32x31x32, .f32⟩ : BufTy).Contents (Elt F) → (⟨S64x32x32x31x32, .f32⟩ : BufTy).Contents (Elt F)),
    StableHlo.unary main_v95 main_v96 (Host.absf : (⟨S64x32x32x31x32, .f32⟩ : BufTy).Contents (Elt F) → (⟨S64x32x32x31x32, .f32⟩ : BufTy).Contents (Elt F)),
    StableHlo.nullary main_cst_27 (constant S_ .f32 0x00000000#32),
    StableHlo.binary main_v96 main_cst_27 main_v97 ((fun x v => Host.reduceAdd x v reducesTo_S64x32x32x31x32_S_d0_1_2_3_4 h_S_) : (⟨S64x32x32x31x32, .f32⟩ : BufTy).Contents (Elt F) → (⟨S_, .f32⟩ : BufTy).Contents (Elt F) → (⟨S_, .f32⟩ : BufTy).Contents (Elt F)),
    StableHlo.nullary main_cst_28 (constant S_ .f32 0x4C780000#32),
    StableHlo.binary main_v97 main_cst_28 main_v98 (Host.divf : (⟨S_, .f32⟩ : BufTy).Contents (Elt F) → (⟨S_, .f32⟩ : BufTy).Contents (Elt F) → (⟨S_, .f32⟩ : BufTy).Contents (Elt F)),
    StableHlo.unary main_arg1 main_v99 ((extractStridedSlice S64x32x32x32x31 ![0, 0, 0, 0, 1] · slices_S64x32x32x32x32_S64x32x32x32x31_0_0_0_0_1) : (⟨S64x32x32x32x32, .f32⟩ : BufTy).Contents (Elt F) → (⟨S64x32x32x32x31, .f32⟩ : BufTy).Contents (Elt F)),
    StableHlo.unary main_arg1 main_v100 ((extractStridedSlice S64x32x32x32x31 ![0, 0, 0, 0, 0] · slices_S64x32x32x32x32_S64x32x32x32x31_0_0_0_0_0) : (⟨S64x32x32x32x32, .f32⟩ : BufTy).Contents (Elt F) → (⟨S64x32x32x32x31, .f32⟩ : BufTy).Contents (Elt F)),
    StableHlo.binary main_v99 main_v100 main_v101 (subf : (⟨S64x32x32x32x31, .f32⟩ : BufTy).Contents (Elt F) → (⟨S64x32x32x32x31, .f32⟩ : BufTy).Contents (Elt F) → (⟨S64x32x32x32x31, .f32⟩ : BufTy).Contents (Elt F)),
    StableHlo.unary main_v101 main_v102 (Host.absf : (⟨S64x32x32x32x31, .f32⟩ : BufTy).Contents (Elt F) → (⟨S64x32x32x32x31, .f32⟩ : BufTy).Contents (Elt F)),
    StableHlo.nullary main_cst_29 (constant S_ .f32 0x00000000#32),
    StableHlo.binary main_v102 main_cst_29 main_v103 ((fun x v => Host.reduceAdd x v reducesTo_S64x32x32x32x31_S_d0_1_2_3_4 h_S_) : (⟨S64x32x32x32x31, .f32⟩ : BufTy).Contents (Elt F) → (⟨S_, .f32⟩ : BufTy).Contents (Elt F) → (⟨S_, .f32⟩ : BufTy).Contents (Elt F)),
    StableHlo.nullary main_cst_30 (constant S_ .f32 0x4C780000#32),
    StableHlo.binary main_v103 main_cst_30 main_v104 (Host.divf : (⟨S_, .f32⟩ : BufTy).Contents (Elt F) → (⟨S_, .f32⟩ : BufTy).Contents (Elt F) → (⟨S_, .f32⟩ : BufTy).Contents (Elt F)),
    StableHlo.binary main_v92 main_v98 main_v105 (addf : (⟨S_, .f32⟩ : BufTy).Contents (Elt F) → (⟨S_, .f32⟩ : BufTy).Contents (Elt F) → (⟨S_, .f32⟩ : BufTy).Contents (Elt F)),
    StableHlo.binary main_v105 main_v104 main_v106 (addf : (⟨S_, .f32⟩ : BufTy).Contents (Elt F) → (⟨S_, .f32⟩ : BufTy).Contents (Elt F) → (⟨S_, .f32⟩ : BufTy).Contents (Elt F)),
    StableHlo.nullary main_cst_31 (constant S_ .f32 0x40400000#32),
    StableHlo.binary main_v106 main_cst_31 main_v107 (Host.divf : (⟨S_, .f32⟩ : BufTy).Contents (Elt F) → (⟨S_, .f32⟩ : BufTy).Contents (Elt F) → (⟨S_, .f32⟩ : BufTy).Contents (Elt F)),
    StableHlo.nullary main_cst_32 (constant S_ .f32 0x3F000000#32),
    StableHlo.binary main_cst_32 main_v25 main_v108 (mulf : (⟨S_, .f32⟩ : BufTy).Contents (Elt F) → (⟨S_, .f32⟩ : BufTy).Contents (Elt F) → (⟨S_, .f32⟩ : BufTy).Contents (Elt F)),
    StableHlo.nullary main_cst_33 (constant S_ .f32 0x3E99999A#32),
    StableHlo.binary main_cst_33 main_v68 main_v109 (mulf : (⟨S_, .f32⟩ : BufTy).Contents (Elt F) → (⟨S_, .f32⟩ : BufTy).Contents (Elt F) → (⟨S_, .f32⟩ : BufTy).Contents (Elt F)),
    StableHlo.binary main_v108 main_v109 main_v110 (addf : (⟨S_, .f32⟩ : BufTy).Contents (Elt F) → (⟨S_, .f32⟩ : BufTy).Contents (Elt F) → (⟨S_, .f32⟩ : BufTy).Contents (Elt F)),
    StableHlo.nullary main_cst_34 (constant S_ .f32 0x3DCCCCCD#32),
    StableHlo.binary main_cst_34 main_v107 main_v111 (mulf : (⟨S_, .f32⟩ : BufTy).Contents (Elt F) → (⟨S_, .f32⟩ : BufTy).Contents (Elt F) → (⟨S_, .f32⟩ : BufTy).Contents (Elt F)),
    StableHlo.binary main_v110 main_v111 main_v112 (addf : (⟨S_, .f32⟩ : BufTy).Contents (Elt F) → (⟨S_, .f32⟩ : BufTy).Contents (Elt F) → (⟨S_, .f32⟩ : BufTy).Contents (Elt F)),
    StableHlo.nullary main_cst_35 (constant S_ .f32 0x3E4CCCCD#32),
    StableHlo.binary main_cst_35 main_v86 main_v113 (mulf : (⟨S_, .f32⟩ : BufTy).Contents (Elt F) → (⟨S_, .f32⟩ : BufTy).Contents (Elt F) → (⟨S_, .f32⟩ : BufTy).Contents (Elt F)),
    StableHlo.binary main_v112 main_v113 main_v114 (addf : (⟨S_, .f32⟩ : BufTy).Contents (Elt F) → (⟨S_, .f32⟩ : BufTy).Contents (Elt F) → (⟨S_, .f32⟩ : BufTy).Contents (Elt F)) ]

/-- @main's 168 host operations, in order. -/
abbrev ops : List (HloOp τ sig (Elt F)) := ops0 ++ (ops1 ++ ops2)

end Cert.ReferenceIdeal.Hand

end
-- ==== Proof.RefRun.lean ====
import proofs.«406312_j54666343744093_1_alg».proof.Proof.RefOps
import Idealize.ShloMosaic.Lib.StableHlo.Run
import Mathlib.Data.List.Basic

/-!
# The reference program's run

The reference's @main is a straight line of 168 host operations (two small functions inlined at their three call sites).
Every weakly fair execution of it terminates, and each buffer ends at the value the operations, applied in order to the
launch contents, leave in it.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main, window by window

Each window of @main is a chain of `hlo` steps once the two small functions are unfolded at their call sites and
sequencing is reassociated; three chains run one after the other are the chain of the concatenated list. -/

-- some sixty binds re-associated per window: the rewrite under the chain recurses once per statement
set_option maxRecDepth 8192 in
/-- Window 0 (statements 1 … 60) is the sequence of its 68 operations. -/
theorem main_part0_eq (c : Dev nD) : main_part0 (F := F) c = seq ops0 := by
  simp only [main_part0, fn_in1d.body, fn_pad.body, seq, bind_assoc, pure_bind]
  rfl

set_option maxRecDepth 8192 in
/-- Window 1 (statements 61 … 120) is the sequence of its 67 operations. -/
theorem main_part1_eq (c : Dev nD) : main_part1 (F := F) c = seq ops1 := by
  simp only [main_part1, fn_in1d.body, fn_pad.body, seq, bind_assoc, pure_bind]
  rfl

set_option maxRecDepth 8192 in
/-- Window 2 (statements 121 … 154, then the return) is the sequence of its 33 operations. -/
theorem main_part2_eq (c : Dev nD) : main_part2 (F := F) c = seq ops2 := by
  simp only [main_part2, seq, bind_assoc, pure_bind]

/-- @main is the sequence of its operations. -/
theorem main_eq (c : Dev nD) : main (F := F) c = seq ops := by
  have h : (seq (ops : List (HloOp τ sig (Elt F))) : Prog (TpuEff nD τ sig (Elt F) (Pipeline.Sig Λ₀ (Fin 0) fun p => (pcfgs (F := F) p).Adm) .tc) PUnit)
      = seq ops0 >>= fun _ => seq ops1 >>= fun _ => seq ops2 := by
    rw [show (ops : List (HloOp τ sig (Elt F))) = ops0 ++ (ops1 ++ ops2) from rfl, seq_append, seq_append]
  rw [h, ← main_part0_eq c, ← main_part1_eq c, ← main_part2_eq c]
  rfl

theorem scopedRefs_eq : (Finset.univ.filter fun b : Ref sig .tc => b.isScoped) = ∅ := by
  decide
theorem scopedSems_eq : (Finset.univ.filter fun sm : SemLoc sig => sm.isScoped .tc) = ∅ := by
  decide

/-! ## What the operations touch

Each builder's operation touches its operands' and its result's buffers, all TensorCore references; window by window, then
over the concatenation. -/

theorem ops0_sub : (ops0 : List (HloOp τ sig (Elt F))).Forall fun op => op.bufs ⊆ tcRefs τ sig :=
  ⟨nullary_bufs_sub .., reshape_bufs_sub .., unary_bufs_sub .., unary_bufs_sub .., unary_bufs_sub .., unary_bufs_sub ..,
    binary_bufs_sub .., nullary_bufs_sub .., binary_bufs_sub .., reshape_bufs_sub .., unary_bufs_sub .., unary_bufs_sub ..,
    nullary_bufs_sub .., unary_bufs_sub .., binary_bufs_sub .., unary_bufs_sub .., unary_bufs_sub .., binary_bufs_sub ..,
    unary_bufs_sub .., binary_bufs_sub .., unary_bufs_sub .., binary_bufs_sub .., unary_bufs_sub .., binary_bufs_sub ..,
    unary_bufs_sub .., binary_bufs_sub .., nullary_bufs_sub .., unary_bufs_sub .., binary_bufs_sub .., nullary_bufs_sub ..,
    unary_bufs_sub .., binary_bufs_sub .., binary_bufs_sub .., unary_bufs_sub .., nullary_bufs_sub .., binary_bufs_sub ..,
    nullary_bufs_sub .., binary_bufs_sub .., nullary_bufs_sub .., binary_bufs_sub .., binary_bufs_sub .., reshape_bufs_sub ..,
    unary_bufs_sub .., reshape_bufs_sub .., nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    nullary_bufs_sub .., unary_bufs_sub ..⟩

theorem ops1_sub : (ops1 : List (HloOp τ sig (Elt F))).Forall fun op => op.bufs ⊆ tcRefs τ sig :=
  ⟨ternary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    binary_bufs_sub .., nullary_bufs_sub .., binary_bufs_sub .., unary_bufs_sub .., nullary_bufs_sub .., binary_bufs_sub ..,
    reshape_bufs_sub .., unary_bufs_sub .., unary_bufs_sub .., unary_bufs_sub .., unary_bufs_sub .., binary_bufs_sub ..,
    nullary_bufs_sub .., binary_bufs_sub .., reshape_bufs_sub .., unary_bufs_sub .., unary_bufs_sub .., nullary_bufs_sub ..,
    unary_bufs_sub .., unary_bufs_sub .., binary_bufs_sub .., unary_bufs_sub .., binary_bufs_sub .., nullary_bufs_sub ..,
    unary_bufs_sub .., nullary_bufs_sub .., unary_bufs_sub .., ternary_bufs_sub .., unary_bufs_sub .., nullary_bufs_sub ..,
    binary_bufs_sub .., unary_bufs_sub .., nullary_bufs_sub .., binary_bufs_sub .., nullary_bufs_sub .., binary_bufs_sub ..,
    binary_bufs_sub .., unary_bufs_sub .., unary_bufs_sub .., binary_bufs_sub .., unary_bufs_sub .., nullary_bufs_sub ..,
    binary_bufs_sub ..⟩

theorem ops2_sub : (ops2 : List (HloOp τ sig (Elt F))).Forall fun op => op.bufs ⊆ tcRefs τ sig :=
  ⟨nullary_bufs_sub .., binary_bufs_sub .., unary_bufs_sub .., unary_bufs_sub .., binary_bufs_sub .., unary_bufs_sub ..,
    nullary_bufs_sub .., binary_bufs_sub .., nullary_bufs_sub .., binary_bufs_sub .., unary_bufs_sub .., unary_bufs_sub ..,
    binary_bufs_sub .., unary_bufs_sub .., nullary_bufs_sub .., binary_bufs_sub .., nullary_bufs_sub .., binary_bufs_sub ..,
    binary_bufs_sub .., binary_bufs_sub .., nullary_bufs_sub .., binary_bufs_sub .., nullary_bufs_sub .., binary_bufs_sub ..,
    nullary_bufs_sub .., binary_bufs_sub .., binary_bufs_sub .., nullary_bufs_sub .., binary_bufs_sub .., binary_bufs_sub ..,
    nullary_bufs_sub .., binary_bufs_sub .., binary_bufs_sub ..⟩

/-- Every operation touches TensorCore buffers only. -/
theorem ops_sub : (ops : List (HloOp τ sig (Elt F))).Forall fun op => op.bufs ⊆ tcRefs τ sig := by
  exact List.forall_append.2 ⟨ops0_sub, List.forall_append.2 ⟨ops1_sub, ops2_sub⟩⟩

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefVals.lean ====
import proofs.«406312_j54666343744093_1_alg».proof.Proof.RefOps
import proofs.«406312_j54666343744093_1_alg».proof.Proof.Tail
import Idealize.ShloMosaic.Lib.StableHlo.Run
import Idealize.ShloMosaic.PureOps.Ideal

/-!
# The reference's five results, read off its operations

After the 168 operations the smoothness loss is the mean of the three neighbour-difference sums of the float argument, the
total is the weighted sum of the four losses, and neither argument has been written.

The operations come in three windows. What a window leaves at a buffer is computed over ANY contents before it: a buffer
the window does not write keeps its contents, and a result buffer holds its operation's function of the operands'
contents. The three windows are then chained.
-/

set_option maxRecDepth 65536

noncomputable section

namespace Cert.ReferenceIdeal.Hand

open Cert.ReferenceIdeal Cert.ReferenceIdeal.Gen Idealize.ShloMosaic Idealize.ShloMosaic.TcCoe Idealize.SL.Sem Idealize.ShloMosaic.StableHlo

/-- The operations of two lists in a row: first the one, then the other. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The sum of absolute neighbour differences along axis 2, as the program spells it. -/
abbrev sumX (A : FVec Ideal S64x32x32x32x32 .f32) : FVec Ideal S_ .f32 :=
  Host.reduceAdd (Host.absf (subf (extractStridedSlice S64x32x31x32x32 ![0, 0, 1, 0, 0] A slices_S64x32x32x32x32_S64x32x31x32x32_0_0_1_0_0)
    (extractStridedSlice S64x32x31x32x32 ![0, 0, 0, 0, 0] A slices_S64x32x32x32x32_S64x32x31x32x32_0_0_0_0_0)))
    (constant S_ .f32 0x00000000#32) reducesTo_S64x32x31x32x32_S_d0_1_2_3_4 h_S_
/-- Along axis 3. -/
abbrev sumY (A : FVec Ideal S64x32x32x32x32 .f32) : FVec Ideal S_ .f32 :=
  Host.reduceAdd (Host.absf (subf (extractStridedSlice S64x32x32x31x32 ![0, 0, 0, 1, 0] A slices_S64x32x32x32x32_S64x32x32x31x32_0_0_0_1_0)
    (extractStridedSlice S64x32x32x31x32 ![0, 0, 0, 0, 0] A slices_S64x32x32x32x32_S64x32x32x31x32_0_0_0_0_0)))
    (constant S_ .f32 0x00000000#32) reducesTo_S64x32x32x31x32_S_d0_1_2_3_4 h_S_
/-- Along axis 4. -/
abbrev sumZ (A : FVec Ideal S64x32x32x32x32 .f32) : FVec Ideal S_ .f32 :=
  Host.reduceAdd (Host.absf (subf (extractStridedSlice S64x32x32x32x31 ![0, 0, 0, 0, 1] A slices_S64x32x32x32x32_S64x32x32x32x31_0_0_0_0_1)
    (extractStridedSlice S64x32x32x32x31 ![0, 0, 0, 0, 0] A slices_S64x32x32x32x32_S64x32x32x32x31_0_0_0_0_0)))
    (constant S_ .f32 0x00000000#32) reducesTo_S64x32x32x32x31_S_d0_1_2_3_4 h_S_

/-! ## What each window leaves: over any contents `W` before it -/

section Windows

variable (W : Valuation τ sig (Elt Ideal))

set_option maxHeartbeats 4000000 in
/-- Window 0 writes neither argument. -/
theorem ops0_arg0 : after (ops0 (F := Ideal)) W (Proc.devRef .tc main_arg0) = W (Proc.devRef .tc main_arg0) := by
  after_results_simp
set_option maxHeartbeats 4000000 in
theorem ops0_arg1 : after (ops0 (F := Ideal)) W (Proc.devRef .tc main_arg1) = W (Proc.devRef .tc main_arg1) := by
  after_results_simp

set_option maxHeartbeats 4000000 in
/-- Window 1 writes neither argument. -/
theorem ops1_arg0 : after (ops1 (F := Ideal)) W (Proc.devRef .tc main_arg0) = W (Proc.devRef .tc main_arg0) := by
  after_results_simp
set_option maxHeartbeats 4000000 in
theorem ops1_arg1 : after (ops1 (F := Ideal)) W (Proc.devRef .tc main_arg1) = W (Proc.devRef .tc main_arg1) := by
  after_results_simp

set_option maxHeartbeats 4000000 in
/-- Window 1 ends with the neighbour-difference sum along axis 2 of the float argument. -/
theorem ops1_v91 : after (ops1 (F := Ideal)) W (Proc.devRef .tc main_v91) = sumX (W (Proc.devRef .tc main_arg1)) := by
  after_results_simp

set_option maxHeartbeats 4000000 in
/-- Window 2 writes neither argument, nor the three losses of the earlier windows. -/
theorem ops2_arg0 : after (ops2 (F := Ideal)) W (Proc.devRef .tc main_arg0) = W (Proc.devRef .tc main_arg0) := by
  after_results_simp
set_option maxHeartbeats 4000000 in
theorem ops2_arg1 : after (ops2 (F := Ideal)) W (Proc.devRef .tc main_arg1) = W (Proc.devRef .tc main_arg1) := by
  after_results_simp
set_option maxHeartbeats 4000000 in
theorem ops2_v25 : after (ops2 (F := Ideal)) W (Proc.devRef .tc main_v25) = W (Proc.devRef .tc main_v25) := by
  after_results_simp
set_option maxHeartbeats 4000000 in
theorem ops2_v68 : after (ops2 (F := Ideal)) W (Proc.devRef .tc main_v68) = W (Proc.devRef .tc main_v68) := by
  after_results_simp
set_option maxHeartbeats 4000000 in
theorem ops2_v86 : after (ops2 (F := Ideal)) W (Proc.devRef .tc main_v86) = W (Proc.devRef .tc main_v86) := by
  after_results_simp

set_option maxHeartbeats 4000000 in
/-- Window 2 computes the smoothness loss from window 1's sum and the two other sums of the float argument. -/
theorem ops2_v107 : after (ops2 (F := Ideal)) W (Proc.devRef .tc main_v107)
    = Cert.Tail.smooth (W (Proc.devRef .tc main_v91)) (sumY (W (Proc.devRef .tc main_arg1))) (sumZ (W (Proc.devRef .tc main_arg1))) := by
  after_results_simp
  rfl

set_option maxHeartbeats 4000000 in
/-- And the weighted total of the four losses. -/
theorem ops2_v114 : after (ops2 (F := Ideal)) W (Proc.devRef .tc main_v114)
    = Cert.Tail.total (W (Proc.devRef .tc main_v25)) (W (Proc.devRef .tc main_v68))
        (Cert.Tail.smooth (W (Proc.devRef .tc main_v91)) (sumY (W (Proc.devRef .tc main_arg1))) (sumZ (W (Proc.devRef .tc main_arg1))))
        (W (Proc.devRef .tc main_v86)) := by
  after_results_simp
  rfl

end Windows

/-! ## The whole line -/

variable (V : Valuation τ sig (Elt Ideal))

/-- The three windows in a row. -/
theorem ops_eq : after (ops (F := Ideal)) V = after ops2 (after ops1 (after ops0 V)) :=
  (after_append ops0 (ops1 ++ ops2) V).trans (after_append ops1 ops2 _)

/-- Neither argument is written. -/
theorem ref_arg0 : after (ops (F := Ideal)) V (Proc.devRef .tc main_arg0) = V (Proc.devRef .tc main_arg0) := by
  rw [ops_eq V]
  exact (ops2_arg0 _).trans ((ops1_arg0 _).trans (ops0_arg0 V))
theorem ref_arg1 : after (ops (F := Ideal)) V (Proc.devRef .tc main_arg1) = V (Proc.devRef .tc main_arg1) := by
  rw [ops_eq V]
  exact (ops2_arg1 _).trans ((ops1_arg1 _).trans (ops0_arg1 V))

/-- The smoothness loss. -/
theorem ref_v107 : after (ops (F := Ideal)) V (Proc.devRef .tc main_v107)
    = Cert.Tail.smooth (sumX (V (Proc.devRef .tc main_arg1))) (sumY (V (Proc.devRef .tc main_arg1))) (sumZ (V (Proc.devRef .tc main_arg1))) := by
  rw [ops_eq V, ops2_v107, ops1_v91, ops1_arg1, ops0_arg1]

/-- The total. -/
theorem ref_v114 : after (ops (F := Ideal)) V (Proc.devRef .tc main_v114)
    = Cert.Tail.total (after (ops (F := Ideal)) V (Proc.devRef .tc main_v25)) (after (ops (F := Ideal)) V (Proc.devRef .tc main_v68))
        (Cert.Tail.smooth (sumX (V (Proc.devRef .tc main_arg1))) (sumY (V (Proc.devRef .tc main_arg1))) (sumZ (V (Proc.devRef .tc main_arg1))))
        (after (ops (F := Ideal)) V (Proc.devRef .tc main_v86)) := by
  rw [ops_eq V, ops2_v114, ops2_v25, ops2_v68, ops2_v86, ops1_v91, ops1_arg1, ops0_arg1]

end Cert.ReferenceIdeal.Hand

end
-- ==== Proof.RefSmooth.lean ====
import Idealize.ShloMosaic.PureOps.Ideal.Laws
import Idealize.ShloMosaic.Lib.ValueIdx
import Idealize.ShloMosaic.Lib.Pipeline.Value
import proofs.«406312_j54666343744093_1_alg».proof.Proof.SmoothSum

/-!
# The reference's three sums, over the extended reals

The reference slices the five-axis array twice along one of its last three axes (entries 1 … 31 and entries 0 … 30),
subtracts, takes absolute values and adds everything up from zero. Over the extended reals that is the sum of
`|A[.., k+1, ..] − A[.., k, ..]|` over all neighbouring pairs along that axis.
-/

noncomputable section

open scoped BigOperators
open Idealize.ShloMosaic Idealize.ShloMosaic.ValueIdx

namespace Cert.Smooth

abbrev SRX : Shape := ⟨5, ![64, 32, 31, 32, 32]⟩
abbrev SRY : Shape := ⟨5, ![64, 32, 32, 31, 32]⟩
abbrev SRZ : Shape := ⟨5, ![64, 32, 32, 32, 31]⟩
abbrev S0 : Shape := ⟨0, ![]⟩

/-- The zero-filled, rank-0 reduce of a five-axis array over all its axes is the fivefold coordinate sum. -/
private theorem reduce_all5 {n0 n1 n2 n3 n4 : Nat} (x : (⟨5, ![n0, n1, n2, n3, n4]⟩ : Shape).Idx → EReal)
    (hr : (⟨5, ![n0, n1, n2, n3, n4]⟩ : Shape).ReducesTo [0, 1, 2, 3, 4] S0) (hu : 0 < S0.numel) (j : S0.Idx) :
    Host.reduceAdd (F := Ideal) (φ := .f32) x (constant S0 .f32 0x00000000#32) hr hu j
      = ∑ a : Fin n0, ∑ b : Fin n1, ∑ c : Fin n2, ∑ d : Fin n3, ∑ e : Fin n4, x (ix5 a b c d e) := by
  unfold Host.reduceAdd
  rw [Ideal.hostReduceAdd_def, Ideal.hostReduceAdd_total hr (fun b => b.elim0), constant_apply, Ideal.ofBits_zero_f32,
    zero_add, sum_idx5]

/-- A unit-stride block of the array read at an index: the array at the index shifted by the offsets. -/
private theorem slice_ix5 {n0 n1 n2 n3 n4 : Nat} (o : Fin SA.rank → Nat) (A : SA.Idx → EReal)
    (hs : SA.Slices o ⟨5, ![n0, n1, n2, n3, n4]⟩) (a : Fin n0) (b : Fin n1) (c : Fin n2) (d : Fin n3) (e : Fin n4)
    (a' : Fin 64) (b' c' d' e' : Fin 32) (h0 : a'.val = o 0 + a.val) (h1 : b'.val = o 1 + b.val)
    (h2 : c'.val = o 2 + c.val) (h3 : d'.val = o 3 + d.val) (h4 : e'.val = o 4 + e.val) :
    extractStridedSlice ⟨5, ![n0, n1, n2, n3, n4]⟩ o A hs (ix5 a b c d e) = A (ix5 a' b' c' d' e') :=
  extractStridedSlice_apply o A hs _ _ (fun k => match k with
    | ⟨0, _⟩ => h0
    | ⟨1, _⟩ => h1
    | ⟨2, _⟩ => h2
    | ⟨3, _⟩ => h3
    | ⟨4, _⟩ => h4)

/-- Along axis 2: the reference's reduce is the whole array's neighbour-difference sum. -/
theorem ref_sum_x (A : SA.Idx → EReal) (hs1 : SA.Slices ![0, 0, 1, 0, 0] SRX) (hs0 : SA.Slices ![0, 0, 0, 0, 0] SRX)
    (hr : SRX.ReducesTo [0, 1, 2, 3, 4] S0) (hu : 0 < S0.numel) (j : S0.Idx) :
    Host.reduceAdd (F := Ideal) (φ := .f32)
      (Host.absf (subf (extractStridedSlice SRX ![0, 0, 1, 0, 0] A hs1) (extractStridedSlice SRX ![0, 0, 0, 0, 0] A hs0)))
      (constant S0 .f32 0x00000000#32) hr hu j = refSumX dabs A := by
  rw [reduce_all5]
  unfold refSumX
  refine Finset.sum_congr rfl fun b _ => Finset.sum_congr rfl fun ch _ => Finset.sum_congr rfl fun x _ =>
    Finset.sum_congr rfl fun y _ => Finset.sum_congr rfl fun z _ => ?_
  show max (_ - _) (-(_ - _)) = _
  unfold dabs
  rw [slice_ix5 ![0, 0, 1, 0, 0] A hs1 b ch x y z b ch ⟨x.val + 1, by omega⟩ y z (by simp) (by simp) (by simp [Nat.add_comm]) (by simp [Nat.add_comm]) (by simp [Nat.add_comm]),
    slice_ix5 ![0, 0, 0, 0, 0] A hs0 b ch x y z b ch ⟨x.val, by omega⟩ y z (by simp) (by simp) (by simp) (by simp) (by simp)]

/-- Along axis 3. -/
theorem ref_sum_y (A : SA.Idx → EReal) (hs1 : SA.Slices ![0, 0, 0, 1, 0] SRY) (hs0 : SA.Slices ![0, 0, 0, 0, 0] SRY)
    (hr : SRY.ReducesTo [0, 1, 2, 3, 4] S0) (hu : 0 < S0.numel) (j : S0.Idx) :
    Host.reduceAdd (F := Ideal) (φ := .f32)
      (Host.absf (subf (extractStridedSlice SRY ![0, 0, 0, 1, 0] A hs1) (extractStridedSlice SRY ![0, 0, 0, 0, 0] A hs0)))
      (constant S0 .f32 0x00000000#32) hr hu j = refSumY dabs A := by
  rw [reduce_all5]
  unfold refSumY
  refine Finset.sum_congr rfl fun b _ => Finset.sum_congr rfl fun ch _ => Finset.sum_congr rfl fun x _ =>
    Finset.sum_congr rfl fun y _ => Finset.sum_congr rfl fun z _ => ?_
  show max (_ - _) (-(_ - _)) = _
  unfold dabs
  rw [slice_ix5 ![0, 0, 0, 1, 0] A hs1 b ch x y z b ch x ⟨y.val + 1, by omega⟩ z (by simp) (by simp) (by simp [Nat.add_comm]) (by simp [Nat.add_comm]) (by simp [Nat.add_comm]),
    slice_ix5 ![0, 0, 0, 0, 0] A hs0 b ch x y z b ch x ⟨y.val, by omega⟩ z (by simp) (by simp) (by simp) (by simp) (by simp)]

/-- Along axis 4. -/
theorem ref_sum_z (A : SA.Idx → EReal) (hs1 : SA.Slices ![0, 0, 0, 0, 1] SRZ) (hs0 : SA.Slices ![0, 0, 0, 0, 0] SRZ)
    (hr : SRZ.ReducesTo [0, 1, 2, 3, 4] S0) (hu : 0 < S0.numel) (j : S0.Idx) :
    Host.reduceAdd (F := Ideal) (φ := .f32)
      (Host.absf (subf (extractStridedSlice SRZ ![0, 0, 0, 0, 1] A hs1) (extractStridedSlice SRZ ![0, 0, 0, 0, 0] A hs0)))
      (constant S0 .f32 0x00000000#32) hr hu j = refSumZ dabs A := by
  rw [reduce_all5]
  unfold refSumZ
  refine Finset.sum_congr rfl fun b _ => Finset.sum_congr rfl fun ch _ => Finset.sum_congr rfl fun x _ =>
    Finset.sum_congr rfl fun y _ => Finset.sum_congr rfl fun z _ => ?_
  show max (_ - _) (-(_ - _)) = _
  unfold dabs
  rw [slice_ix5 ![0, 0, 0, 0, 1] A hs1 b ch x y z b ch x y ⟨z.val + 1, by omega⟩ (by simp) (by simp) (by simp [Nat.add_comm]) (by simp [Nat.add_comm]) (by simp [Nat.add_comm]),
    slice_ix5 ![0, 0, 0, 0, 0] A hs0 b ch x y z b ch x y ⟨z.val, by omega⟩ (by simp) (by simp) (by simp) (by simp) (by simp)]

end Cert.Smooth

end
-- ==== Proof.Shared.lean ====
import proofs.«406312_j54666343744093_1_alg».proof.Proof.Gen.KernelIdeal.Frame.Runs
import proofs.«406312_j54666343744093_1_alg».proof.Proof.RefOps
import Idealize.ShloMosaic.Lib.StableHlo.Run
import Idealize.ShloMosaic.PureOps.Ideal

/-!
# The three losses that depend on the integer array only

Both programs compute the connectivity, patch-entropy and support losses from the integer array by the same host
operations in the same order, before anything touches the float array. So from memories that agree on the integer array
the two programs hold the same three numbers.

Each of the three numbers is, on either side, one composition of array functions (comparisons, reductions, a padding,
slices, a scatter, joins along an axis, ...) applied to the integer array: the composition is read off the operations
in order, every operation's result at its own buffer being its function of its operands' contents and every other
buffer keeping what it held. The two compositions are the same tree of the same functions over the same shapes, and
the integer arrays agree by hypothesis. The argument does not depend on the arithmetic the floats are read in, so it
is made once for any arithmetic and then read at the exact one.
-/

set_option maxRecDepth 65536
set_option maxHeartbeats 4000000

noncomputable section

namespace Cert.Shared

open Idealize.ShloMosaic Idealize.ShloMosaic.TcCoe Idealize.SL.Sem Idealize.ShloMosaic.StableHlo

/-- Two arrays joined along an axis, the two arrays as plain arguments (rather than inside a list of pairs of a shape
    and an array). -/
def cat2 {α : Type} (t : Shape) (a : Fin t.rank) (S1 S2 : Shape) (h : Shape.Concatenates [S1, S2] t a)
    (x : S1.Idx → α) (y : S2.Idx → α) : t.Idx → α :=
  concatenate t a [⟨S1, x⟩, ⟨S2, y⟩] h

/-- The join of a two-element list is `cat2` of its two arrays. -/
theorem cat2_def {α : Type} (t : Shape) (a : Fin t.rank) (S1 S2 : Shape) (h : Shape.Concatenates [S1, S2] t a)
    (x : S1.Idx → α) (y : S2.Idx → α) : concatenate t a [⟨S1, x⟩, ⟨S2, y⟩] h = cat2 t a S1 S2 h x y := rfl

/-- Reads a buffer's contents after a literal line of operations as the composition of the operations' functions over
    the initial contents: an operation's result at its own buffer is its function of its operands' contents, any other
    buffer keeps its contents; a join of two computed arrays is restated by `cat2` so that its two operands are read
    in turn. -/
local macro "results" : tactic =>
  `(tactic| (simp (disch := decide) only [after_cons, after_nil, cat2_def,
      nullary_result', unary_result', binary_result', ternary_result', quaternary_result', reshape_result',
      nullary_result_ne', unary_result_ne', binary_result_ne', ternary_result_ne', quaternary_result_ne',
      reshape_result_ne']))

-- The two compositions are compared function by function, never by evaluating a reduction, a scatter, a padding or
-- a join over the full-size arrays.
attribute [local irreducible] Host.reduce Host.reduceAdd Host.scatter Host.scatterAdd pad transpose broadcastInDim
  extractStridedSlice shapeCast concatenate cat2

/-! ## In any arithmetic -/

section Any

variable {F : FTy → Type} [FloatOps F]
variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)
  (c : Dev 1)

/-- The connectivity loss, in any arithmetic. -/
theorem v25_eq_any
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := F)) (launchContents m' c) (Cert.ReferenceIdeal.main_v25 : DevRef Cert.ReferenceIdeal.τ Cert.ReferenceIdeal.sig)
      = Cert.KernelIdeal.Gen.V0 (F := F) m c (Proc.devRef .tc Cert.KernelIdeal.main_v25) := by
  have h0' : launchContents m' c (Proc.devRef .tc Cert.ReferenceIdeal.main_arg0)
      = m (c, Proc.devRef .tc Cert.KernelIdeal.main_arg0) := h0
  dsimp only [Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append,
    List.nil_append]
  simp only [Cert.ReferenceIdeal.Hand.ops, Cert.ReferenceIdeal.Hand.ops0, Cert.ReferenceIdeal.Hand.ops1,
    Cert.ReferenceIdeal.Hand.ops2, List.cons_append, List.nil_append]
  results
  rw [h0']
  rfl

/-- The patch-entropy loss, in any arithmetic. -/
theorem v68_eq_any
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := F)) (launchContents m' c) (Cert.ReferenceIdeal.main_v68 : DevRef Cert.ReferenceIdeal.τ Cert.ReferenceIdeal.sig)
      = Cert.KernelIdeal.Gen.V0 (F := F) m c (Proc.devRef .tc Cert.KernelIdeal.main_v68) := by
  have h0' : launchContents m' c (Proc.devRef .tc Cert.ReferenceIdeal.main_arg0)
      = m (c, Proc.devRef .tc Cert.KernelIdeal.main_arg0) := h0
  dsimp only [Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append,
    List.nil_append]
  simp only [Cert.ReferenceIdeal.Hand.ops, Cert.ReferenceIdeal.Hand.ops0, Cert.ReferenceIdeal.Hand.ops1,
    Cert.ReferenceIdeal.Hand.ops2, List.cons_append, List.nil_append]
  results
  rw [h0']
  rfl

/-- The support loss, in any arithmetic. -/
theorem v86_eq_any
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := F)) (launchContents m' c) (Cert.ReferenceIdeal.main_v86 : DevRef Cert.ReferenceIdeal.τ Cert.ReferenceIdeal.sig)
      = Cert.KernelIdeal.Gen.V0 (F := F) m c (Proc.devRef .tc Cert.KernelIdeal.main_v86) := by
  have h0' : launchContents m' c (Proc.devRef .tc Cert.ReferenceIdeal.main_arg0)
      = m (c, Proc.devRef .tc Cert.KernelIdeal.main_arg0) := h0
  dsimp only [Cert.KernelIdeal.Gen.V0]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, List.flatten_cons, List.flatten_nil, List.append_nil, List.cons_append,
    List.nil_append]
  simp only [Cert.ReferenceIdeal.Hand.ops, Cert.ReferenceIdeal.Hand.ops0, Cert.ReferenceIdeal.Hand.ops1,
    Cert.ReferenceIdeal.Hand.ops2, List.cons_append, List.nil_append]
  results
  rw [h0']
  rfl

end Any

/-! ## In the exact arithmetic -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev 1)

/-- The connectivity loss: the reference's value is the one the kernel's program holds when its region is entered. -/
theorem v25_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := Ideal)) (launchContents m' c) (Cert.ReferenceIdeal.main_v25 : DevRef Cert.ReferenceIdeal.τ Cert.ReferenceIdeal.sig)
      = Cert.KernelIdeal.Gen.V0 (F := Ideal) m c (Proc.devRef .tc Cert.KernelIdeal.main_v25) := by
  exact v25_eq_any m m' c h0

/-- The patch-entropy loss. -/
theorem v68_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := Ideal)) (launchContents m' c) (Cert.ReferenceIdeal.main_v68 : DevRef Cert.ReferenceIdeal.τ Cert.ReferenceIdeal.sig)
      = Cert.KernelIdeal.Gen.V0 (F := Ideal) m c (Proc.devRef .tc Cert.KernelIdeal.main_v68) := by
  exact v68_eq_any m m' c h0

/-- The support loss. -/
theorem v86_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := Ideal)) (launchContents m' c) (Cert.ReferenceIdeal.main_v86 : DevRef Cert.ReferenceIdeal.τ Cert.ReferenceIdeal.sig)
      = Cert.KernelIdeal.Gen.V0 (F := Ideal) m c (Proc.devRef .tc Cert.KernelIdeal.main_v86) := by
  exact v86_eq_any m m' c h0

end Cert.Shared

end
-- ==== Proof.lean ====
/- Equivalence of a tiled total-variation kernel with its jnp reference, over the extended reals.

   Both programs compute three losses from the integer array by the same host operations, and a smoothness loss from the
   float array `A` of shape [64, 32, 32, 32, 32]: the mean over the three last axes of the mean absolute difference of
   neighbouring entries along that axis. The reference takes, per axis, one sum over all neighbouring pairs. The kernel
   reads `A` row-major as 2048 rows of shape [32, 32, 32], walks over 16 tiles of 128 rows, and adds each tile's sums
   into three accumulators that start at zero at the first tile and are written back after the last. Every row lies in
   exactly one tile, and addition of extended reals is commutative and associative, so the sixteen tile sums add up to
   the reference's sum: no finiteness of the entries is needed. The divisions by the pair count 2048·31·32·32, the
   average of the three means and the weighted total are the same scalar operations in both programs.

   The modules: SmoothSum (regrouping the sum over rows by tiles), KernelPay / KernelOut / KernelBlk / KernelAcc (what the
   kernel's body adds per tile, what its accumulators hold after each tile, and that the result arrays end at the whole
   sums), KernelRun (the kernel program's five results), RefOps / RefRun / RefVals / RefSmooth (the reference's operations,
   its run, its five results, and its three sums as the same whole sums), Shared (the three losses of the integer array
   agree), Tail (the closing scalar arithmetic, named once). -/
import proofs.«406312_j54666343744093_1_alg».proof.Defs
import proofs.«406312_j54666343744093_1_alg».proof.Proof.Gen.Kernel
import proofs.«406312_j54666343744093_1_alg».proof.Proof.Gen.Kernel.Skeleton
import proofs.«406312_j54666343744093_1_alg».proof.Proof.Gen.Kernel.Launch
import proofs.«406312_j54666343744093_1_alg».proof.Proof.Gen.Kernel.Points
import proofs.«406312_j54666343744093_1_alg».proof.Proof.Gen.Kernel.Frame
import proofs.«406312_j54666343744093_1_alg».proof.Proof.Gen.KernelIdeal
import proofs.«406312_j54666343744093_1_alg».proof.Proof.Gen.KernelIdeal.Skeleton
import proofs.«406312_j54666343744093_1_alg».proof.Proof.Gen.KernelIdeal.Launch
import proofs.«406312_j54666343744093_1_alg».proof.Proof.Gen.KernelIdeal.Points
import proofs.«406312_j54666343744093_1_alg».proof.Proof.Gen.KernelIdeal.Frame
import proofs.«406312_j54666343744093_1_alg».proof.Proof.Gen.ReferenceIdeal
import proofs.«406312_j54666343744093_1_alg».proof.Proof.Gen.Pre_finite_inputs
import proofs.«406312_j54666343744093_1_alg».proof.Proof.KernelRun
import proofs.«406312_j54666343744093_1_alg».proof.Proof.RefRun
import proofs.«406312_j54666343744093_1_alg».proof.Proof.RefVals
import proofs.«406312_j54666343744093_1_alg».proof.Proof.RefSmooth
import proofs.«406312_j54666343744093_1_alg».proof.Proof.Shared
import proofs.«406312_j54666343744093_1_alg».proof.Proof.Tail
import Idealize.ShloMosaic.Adequacy
import Idealize.ShloMosaic.Init

noncomputable section

namespace Cert.Proof

open Idealize.ShloMosaic Idealize.ShloMosaic.TcCoe Idealize.SL.Sem Idealize.ShloMosaic.StableHlo

/-- The reference runs, and writes neither argument. -/
theorem frame_ref : Cert.frame_ReferenceIdeal := fun m ρ _ =>
  (θ_run Cert.ReferenceIdeal.defs _ _).mono (fun _ h c =>
      ⟨(h c Cert.ReferenceIdeal.main_arg0).trans (Cert.ReferenceIdeal.Hand.ref_arg0 _),
        (h c Cert.ReferenceIdeal.main_arg1).trans (Cert.ReferenceIdeal.Hand.ref_arg1 _)⟩)
    (Cert.ReferenceIdeal.Hand.run_main (F := Ideal) m ρ)

/-- The reference's three sums of a float array are the whole array's neighbour-difference sums. -/
theorem sumX_eq (A : FVec Ideal Cert.ReferenceIdeal.S64x32x32x32x32 .f32) :
    Cert.ReferenceIdeal.Hand.sumX A = fun _ => Cert.Smooth.refSumX Cert.Smooth.dabs A :=
  funext fun j => Cert.Smooth.ref_sum_x A _ _ _ _ j
theorem sumY_eq (A : FVec Ideal Cert.ReferenceIdeal.S64x32x32x32x32 .f32) :
    Cert.ReferenceIdeal.Hand.sumY A = fun _ => Cert.Smooth.refSumY Cert.Smooth.dabs A :=
  funext fun j => Cert.Smooth.ref_sum_y A _ _ _ _ j
theorem sumZ_eq (A : FVec Ideal Cert.ReferenceIdeal.S64x32x32x32x32 .f32) :
    Cert.ReferenceIdeal.Hand.sumZ A = fun _ => Cert.Smooth.refSumZ Cert.Smooth.dabs A :=
  funext fun j => Cert.Smooth.ref_sum_z A _ _ _ _ j

/-- From memories that agree on the two arguments both programs end with the same five results. -/
theorem algebraic : Cert.algebraic_KernelIdeal_ReferenceIdeal := by
  intro m ρ m' ρ' _ hagree
  refine ⟨fun c => Cert.Tail.total (Cert.KernelIdeal.Gen.V m c Cert.KernelIdeal.main_v25) (Cert.KernelIdeal.Gen.V m c Cert.KernelIdeal.main_v68)
        (Cert.KernelIdeal.Hand.smoothK m c) (Cert.KernelIdeal.Gen.V m c Cert.KernelIdeal.main_v86),
      fun c => Cert.KernelIdeal.Gen.V m c Cert.KernelIdeal.main_v25, fun c => Cert.KernelIdeal.Gen.V m c Cert.KernelIdeal.main_v68,
      fun c => Cert.KernelIdeal.Hand.smoothK m c, fun c => Cert.KernelIdeal.Gen.V m c Cert.KernelIdeal.main_v86,
      Cert.KernelIdeal.Hand.run_values m ρ, ?_⟩
  refine (θ_run Cert.ReferenceIdeal.defs _ _).mono (fun _ h c => ?_) (Cert.ReferenceIdeal.Hand.run_main (F := Ideal) m' ρ')
  have h25 := Cert.Shared.v25_eq m m' c (hagree c).1
  have h68 := Cert.Shared.v68_eq m m' c (hagree c).1
  have h86 := Cert.Shared.v86_eq m m' c (hagree c).1
  have hsm : Cert.Tail.smooth (Cert.ReferenceIdeal.Hand.sumX (launchContents m' c (Proc.devRef .tc Cert.ReferenceIdeal.main_arg1)))
        (Cert.ReferenceIdeal.Hand.sumY (launchContents m' c (Proc.devRef .tc Cert.ReferenceIdeal.main_arg1)))
        (Cert.ReferenceIdeal.Hand.sumZ (launchContents m' c (Proc.devRef .tc Cert.ReferenceIdeal.main_arg1)))
      = Cert.KernelIdeal.Hand.smoothK m c := by
    rw [sumX_eq, sumY_eq, sumZ_eq, show launchContents m' c (Proc.devRef .tc Cert.ReferenceIdeal.main_arg1) = _ from (hagree c).2]
    rfl
  refine ⟨(h c Cert.ReferenceIdeal.main_v114).trans ?_, (h c Cert.ReferenceIdeal.main_v25).trans h25,
    (h c Cert.ReferenceIdeal.main_v68).trans h68, (h c Cert.ReferenceIdeal.main_v107).trans ?_,
    (h c Cert.ReferenceIdeal.main_v86).trans h86,
    (h c Cert.ReferenceIdeal.main_arg0).trans (Cert.ReferenceIdeal.Hand.ref_arg0 _),
    (h c Cert.ReferenceIdeal.main_arg1).trans (Cert.ReferenceIdeal.Hand.ref_arg1 _)⟩
  · rw [Cert.ReferenceIdeal.Hand.ref_v114, hsm, h25, h68, h86]
  · rw [Cert.ReferenceIdeal.Hand.ref_v107, hsm]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
